-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg3 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg3 main_v34
  let main_c_13 : IVec S_ 1 := constantI S_ 1 1#1
  let main_v36 : IVec S_ 1 := (fun x v => Host.reduce IntOp.andi x v reducesTo_S50000_S_d0 h_S_) main_v35 main_c_13
  let main_v37 : IVec S_ 1 := andi main_v33 main_v36
  main_v37

def fn_part1 {F : FTy → Type} [FloatOps F] (main_arg3 : IVec S50000 32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg8
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg3 main_v33

def fn {F : FTy → Type} [FloatOps F] (main_arg0 : FVec F S50000x128 .f32) (main_arg1 : IVec S1600000 32) (main_arg2 : IVec S1600000 32) (main_arg3 : IVec S50000 32) (main_arg4 : FVec F S128x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg7 main_arg8 main_arg9 main_v13 main_v16
-- ==== Kernel.lean ====
abbrev S50000x128 : Shape := ⟨2, ![50000, 128]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S2000x128 : Shape := ⟨2, ![2000, 128]⟩
abbrev S2000x1 : Shape := ⟨2, ![2000, 1]⟩
abbrev S1650000x128 : Shape := ⟨2, ![1650000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S1x1 : Shape := ⟨2, ![1, 1]⟩

abbrev nBuf : Space → Nat
  | .hbm => 95
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .bf16⟩
  | .hbm, ⟨32, _⟩ => ⟨S_, .i32⟩
  | .hbm, ⟨33, _⟩ => ⟨S1650000, .i32⟩
  | .hbm, ⟨34, _⟩ => ⟨S1650000, .i1⟩
  | .hbm, ⟨35, _⟩ => ⟨S_, .i32⟩
  | .hbm, ⟨36, _⟩ => ⟨S1650000, .i32⟩
  | .hbm, ⟨37, _⟩ => ⟨S1650000, .i32⟩
  | .hbm, ⟨38, _⟩ => ⟨S1650000, .i32⟩
  | .hbm, ⟨39, _⟩ => ⟨S1650000x1, .i32⟩
  | .hbm, ⟨40, _⟩ => ⟨S1650000x128, .bf16⟩
  | .hbm, ⟨41, _⟩ => ⟨S1650000x128, .f32⟩
  | .hbm, ⟨42, _⟩ => ⟨S_, .f32⟩
  | .hbm, ⟨43, _⟩ => ⟨S50000x128, .f32⟩
  | .hbm, ⟨44, _⟩ => ⟨S1650000x1, .i32⟩
  | .hbm, ⟨45, _⟩ => ⟨S50000x128, .f32⟩
  | .hbm, ⟨46, _⟩ => ⟨S1x128, .f32⟩
  | .hbm, ⟨47, _⟩ => ⟨S50000x128, .bf16⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x128, .bf16⟩
  | .hbm, ⟨57, _⟩ => ⟨S1650000x128, .f32⟩
  | .hbm, ⟨58, _⟩ => ⟨S_, .f32⟩
  | .hbm, ⟨59, _⟩ => ⟨S50000x128, .f32⟩
  | .hbm, ⟨60, _⟩ => ⟨S1650000x1, .i32⟩
  | .hbm, ⟨61, _⟩ => ⟨S50000x128, .f32⟩
  | .hbm, ⟨62, _⟩ => ⟨S50000x1, .i32⟩
  | .hbm, ⟨63, _⟩ => ⟨S1x128, .f32⟩
  | .hbm, ⟨64, _⟩ => ⟨S128x128, .f32⟩
  | .hbm, ⟨65, _⟩ => ⟨S_, .i32⟩
  | .hbm, ⟨66, _⟩ => ⟨S64, .i32⟩
  | .hbm, ⟨67, _⟩ => ⟨S_, .i32⟩
  | .hbm, ⟨68, _⟩ => ⟨S_, .i32⟩
  | .hbm, ⟨69, _⟩ => ⟨S50000, .i32⟩
  | .hbm, ⟨70, _⟩ => ⟨S50000, .i32⟩
  | .hbm, ⟨71, _⟩ => ⟨S_, .i32⟩
  | .hbm, ⟨72, _⟩ => ⟨S50000, .i32⟩
  | .hbm, ⟨73, _⟩ => ⟨S50000, .i1⟩
  | .hbm, ⟨74, _⟩ => ⟨S_, .i32⟩
  | .hbm, ⟨75, _⟩ => ⟨S50000, .i32⟩
  | .hbm, ⟨76, _⟩ => ⟨S50000, .i32⟩
  | .hbm, ⟨77, _⟩ => ⟨S50000, .i32⟩
  | .hbm, ⟨78, _⟩ => ⟨S50000x1, .i32⟩
  | .hbm, ⟨79, _⟩ => ⟨S_, .i32⟩
  | .hbm, ⟨80, _⟩ => ⟨S50000, .i32⟩
  | .hbm, ⟨81, _⟩ => ⟨S64, .i32⟩
  | .hbm, ⟨82, _⟩ => ⟨S64, .f32⟩
  | .hbm, ⟨83, _⟩ => ⟨S64x128, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64x1, .f32⟩
  | .hbm, ⟨88, _⟩ => ⟨S64x128, .f32⟩
  | .hbm, ⟨89, _⟩ => ⟨S64x128, .f32⟩
  | .hbm, ⟨90, _⟩ => ⟨S64x1, .f32⟩
  | .hbm, ⟨91, _⟩ => ⟨S1x1, .f32⟩
  | .hbm, ⟨92, _⟩ => ⟨S64x1, .f32⟩
  | .hbm, ⟨93, _⟩ => ⟨S64x1, .f32⟩
  | .hbm, ⟨94, _⟩ => ⟨S64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S2000x1, .i32⟩
  | .local _ .vmem, ⟨21, _⟩ => ⟨S2000x1, .i32⟩
  | .local _ .vmem, ⟨22, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_c_10 : Ref sig .tc := ⟨.hbm, 67, rfl⟩
abbrev main_call1_v0 : Ref sig .tc := ⟨.hbm, 68, rfl⟩
abbrev main_call1_v1 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  iota_S2000x128_d1_w32 : S2000x128.Iotas .tc 32 [1]
  natLt_1_32 : 1 < 32
  shapeCasts_S128x128_S128x128 : S128x128.ShapeCasts S128x128
  bcast_S_S64 : S_.BroadcastsInDim S64 (![] : Fin 0 → Fin S64.rank)
  bcast_S50000_S50000x1_0 : S50000.BroadcastsInDim S50000x1 (![0] : Fin 1 → Fin S50000x1.rank)
  slices_S128x128_S64x128_0_0 : S128x128.Slices ![0, 0] S64x128
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S50000_S1650000x1_S1650000_n_0_0_1_wf : ScatterDims.WF S50000 S1650000x1 S1650000 [] [0] [0] 1
  dot_S2000x128_S128x128_S2000x128_1_0_0_1_n_n_wf : DotDims.WF S2000x128 S128x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S2000x128_S128x128_0_0_1_1_n_n_wf : DotDims.WF S2000x128 S2000x128 S128x128 [0] [0] [1] [1] [] []
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .i32 = 32 ∨ (Rect.block (s := S50000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S128x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x128, .f32⟩
  | .hbm, ⟨82, _⟩ => ⟨S1650000x1, .f32⟩
  | .hbm, ⟨83, _⟩ => ⟨S1650000x128, .f32⟩
  | .hbm, ⟨84, _⟩ => ⟨S1650000x128, .f32⟩
  | .hbm, ⟨85, _⟩ => ⟨S_, .f32⟩
  | .hbm, ⟨86, _⟩ => ⟨S50000x128, .f32⟩
  | .hbm, ⟨87, _⟩ => ⟨S1650000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S64, .f32⟩
  | .hbm, ⟨99, _⟩ => ⟨S50000x1, .i32⟩
  | .hbm, ⟨100, _⟩ => ⟨S64, .f32⟩
  | .hbm, ⟨101, _⟩ => ⟨S_, .f32⟩
  | .hbm, ⟨102, _⟩ => ⟨S64x128, .f32⟩
  | .hbm, ⟨103, _⟩ => ⟨S50000x1, .i32⟩
  | .hbm, ⟨104, _⟩ => ⟨S64x128, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x128, .f32⟩
  | .hbm, ⟨110, _⟩ => ⟨S64x128, .f32⟩
  | .hbm, ⟨111, _⟩ => ⟨S64x1, .f32⟩
  | .hbm, ⟨112, _⟩ => ⟨S1x1, .f32⟩
  | .hbm, ⟨113, _⟩ => ⟨S64x1, .f32⟩
  | .hbm, ⟨114, _⟩ => ⟨S64x1, .f32⟩
  | .hbm, ⟨115, _⟩ => ⟨S64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_cst : Ref sig .tc := ⟨.hbm, 69, rfl⟩
abbrev main_call1_v0 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call2_cst : Ref sig .tc := ⟨.hbm, 92, rfl⟩
abbrev main_call2_v0 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]

class Facts₀ : Prop where
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x1_S64x1_1_0_0_1_n_n_wf : DotDims.WF S64x128 S128x1 S64x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.FoldA.lean ====
import proofs.«407923_j19954418057675_3_alg».proof.Proof.Gen.KernelIdeal.Frame
import proofs.«407923_j19954418057675_3_alg».proof.Proof.RefRead
import Idealize.ShloMosaic.Lib.StableHlo.Run

/-!
# The kernel's buffers at the boundaries of its regions

The kernel's program is host operations, a region, host operations, a region, and so on. This file
follows single buffers through that sequence: an argument array is never written, so it holds its
launch contents at every boundary; the edges' source and target words, and the nodes' inverse square
root degrees, are computed once before the first region by the same operations as the reference's.
-/

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A buffer that no operation of a stretch of host operations writes keeps its contents over the stretch. -/
macro "keeps_over " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## At the first region's entry -/

/-- Argument 0 is as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keeps_over hostOps0_2
    _ = W1 m ρ c (Proc.devRef .tc main_arg0) := by keeps_over hostOps0_1
    _ = W0 m ρ c (Proc.devRef .tc main_arg0) := by keeps_over hostOps0
    _ = m ((c : Thread nD τ).loc main_arg0) := rfl

/-- Argument 3 is as launched. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by keeps_over hostOps0_2
    _ = W1 m ρ c (Proc.devRef .tc main_arg3) := by keeps_over hostOps0_1
    _ = W0 m ρ c (Proc.devRef .tc main_arg3) := by keeps_over hostOps0
    _ = m ((c : Thread nD τ).loc main_arg3) := rfl

/-- Argument 4 is as launched. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by keeps_over hostOps0_2
    _ = W1 m ρ c (Proc.devRef .tc main_arg4) := by keeps_over hostOps0_1
    _ = W0 m ρ c (Proc.devRef .tc main_arg4) := by keeps_over hostOps0
    _ = m ((c : Thread nD τ).loc main_arg4) := rfl

/-- Argument 5 is as launched. -/
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by keeps_over hostOps0_2
    _ = W1 m ρ c (Proc.devRef .tc main_arg5) := by keeps_over hostOps0_1
    _ = W0 m ρ c (Proc.devRef .tc main_arg5) := by keeps_over hostOps0
    _ = m ((c : Thread nD τ).loc main_arg5) := rfl

/-- Argument 6 is as launched. -/
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by keeps_over hostOps0_2
    _ = W1 m ρ c (Proc.devRef .tc main_arg6) := by keeps_over hostOps0_1
    _ = W0 m ρ c (Proc.devRef .tc main_arg6) := by keeps_over hostOps0
    _ = m ((c : Thread nD τ).loc main_arg6) := rfl

/-- Argument 7 is as launched. -/
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by keeps_over hostOps0_2
    _ = W1 m ρ c (Proc.devRef .tc main_arg7) := by keeps_over hostOps0_1
    _ = W0 m ρ c (Proc.devRef .tc main_arg7) := by keeps_over hostOps0
    _ = m ((c : Thread nD τ).loc main_arg7) := rfl

/-- Argument 8 is as launched. -/
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by keeps_over hostOps0_2
    _ = W1 m ρ c (Proc.devRef .tc main_arg8) := by keeps_over hostOps0_1
    _ = W0 m ρ c (Proc.devRef .tc main_arg8) := by keeps_over hostOps0
    _ = m ((c : Thread nD τ).loc main_arg8) := rfl

/-- Argument 9 is as launched. -/
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by keeps_over hostOps0_2
    _ = W1 m ρ c (Proc.devRef .tc main_arg9) := by keeps_over hostOps0_1
    _ = W0 m ρ c (Proc.devRef .tc main_arg9) := by keeps_over hostOps0
    _ = m ((c : Thread nD τ).loc main_arg9) := rfl

/-- The edges' source words: the given sources followed by one self loop per node. -/
theorem W3_v1 (c : Dev nD) :
    W3 m ρ c (Proc.devRef .tc main_v1) = Cert.ReferenceIdeal.Read.val_main_v1 (F := F) (m ((c : Thread nD τ).loc main_arg1)) :=
  calc W3 m ρ c (Proc.devRef .tc main_v1)
    _ = W2 m ρ c (Proc.devRef .tc main_v1) := by keeps_over hostOps0_2
    _ = W1 m ρ c (Proc.devRef .tc main_v1) := by keeps_over hostOps0_1
    _ = _ := by
      dsimp only [W1]
      simp only [hostOps0]
      after_results
      rfl

/-- The edges' target words: the given targets followed by one self loop per node. -/
theorem W3_v2 (c : Dev nD) :
    W3 m ρ c (Proc.devRef .tc main_v2) = Cert.ReferenceIdeal.Read.val_main_v2 (F := F) (m ((c : Thread nD τ).loc main_arg2)) :=
  calc W3 m ρ c (Proc.devRef .tc main_v2)
    _ = W2 m ρ c (Proc.devRef .tc main_v2) := by keeps_over hostOps0_2
    _ = W1 m ρ c (Proc.devRef .tc main_v2) := by keeps_over hostOps0_1
    _ = _ := by
      dsimp only [W1]
      simp only [hostOps0]
      after_results
      rfl

set_option maxHeartbeats 4000000 in
/-- The nodes' inverse square root degrees, as a column: the reference's own term of the target words. -/
theorem W3_v13 (c : Dev nD) :
    W3 m ρ c (Proc.devRef .tc main_v13)
      = shapeCast Cert.KernelIdeal.S50000x1 (Cert.ReferenceIdeal.Read.val_main_v12 (F := F) (m ((c : Thread nD τ).loc main_arg2)))
          Cert.KernelIdeal.Facts₀.shapeCasts_S50000_S50000x1 := by
  dsimp only [W3, W2, W1]
  simp only [hostOps0, hostOps0_1, hostOps0_2]
  after_results
  simp only [TRef.ofBuf, TRef.toBuf, cast_eq]
  rfl

end Cert.KernelIdeal.Fold

end
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.Spec.lean ====
import Idealize.ShloMosaic.PureOps.Ideal
import Idealize.ShloMosaic.Lib.ValueIdx
import Mathlib.Algebra.BigOperators.Ring.Finset
import proofs.«407923_j19954418057675_3_alg».proof.Proof.LibIdealReal

/-!
# A two-layer graph convolution with mean pooling, as plain sums

Nodes `N`, edges `E` (self loops included), features `K`. An edge `e` reads node `s e` and is
added into every node `j` it `hit`s. With `dinv` the inverse square roots of the degrees, one
layer of the reference is

  `relu (∑ over edges hitting j of ((h · W) (s e)) · (dinv (s e) · dinv (dr e)) + b)`,

where `dr e` is the node the edge's target is read at; whenever `e` hits `j`, `dr e = j`. The
kernel moves the two factors of the edge weight out of the sum: the source factor into the rows
before (layer 1) or after (layer 2) the product with `W`, the target factor onto the finished sum.
On real (finite) data the two agree by distributivity; this file states both sides and that law.
-/

noncomputable section

open scoped BigOperators
open Idealize.ShloMosaic Cert.Lib

namespace Cert.Spec

/-- The integer word `v`, read signed, is the number of row `j`. -/
def names {n : Nat} (v : BitVec 32) (j : Fin n) : Prop := v.toInt = (j.val : Int)

instance {n : Nat} (v : BitVec 32) (j : Fin n) : Decidable (names v j) := by
  unfold names; infer_instance

/-- The row of an `n`-row table a word is read at: its signed value clamped into the table. -/
def rowOf (n : Nat) (hn : 0 < n) (v : BitVec 32) : Fin n := ⟨min v.toInt.toNat (n - 1), by omega⟩

/-- A word that names row `j` is read at row `j`. -/
theorem rowOf_of_names {n : Nat} (hn : 0 < n) (v : BitVec 32) (j : Fin n) (h : names v j) :
    rowOf n hn v = j := by
  unfold names at h
  refine Fin.ext ?_
  show min v.toInt.toNat (n - 1) = j.val
  have := j.isLt
  omega

section Sums
variable {E N K : Type} [Fintype E] [Fintype N] [Fintype K]

/-- The segment sum: node `j` receives the rows of the edges that hit it. -/
def seg (hit : E → N → Prop) [∀ e j, Decidable (hit e j)] (v : E → K → EReal) : N → K → EReal :=
  fun j c => ∑ e, if hit e j then v e c else 0

/-- Rows times a matrix. -/
def rowsMul (h : N → K → EReal) (W : K → K → EReal) : N → K → EReal :=
  fun i c => ∑ k, h i k * W k c

/-- Rows scaled by their node's factor, then times a matrix (the kernel's first product). -/
def scaledMul (x : N → K → EReal) (dinv : N → EReal) (W : K → K → EReal) : N → K → EReal :=
  fun i c => ∑ k, (x i k * dinv i) * W k c

/-- Rows times a matrix, then scaled by their node's factor (the kernel's second product). -/
def mulScaled (h : N → K → EReal) (W : K → K → EReal) (dinv : N → EReal) : N → K → EReal :=
  fun i c => (∑ k, h i k * W k c) * dinv i

/-- The kernel's activation: the raw segment sum scaled by the target's factor, plus the bias, clamped at zero. -/
def act (A : N → K → EReal) (dinv : N → EReal) (b : K → EReal) : N → K → EReal :=
  fun j c => max (A j c * dinv j + b c) 0

/-- Gather the rows `T (s e)` along the edges and add each into the nodes it hits. -/
def gatherSeg (hit : E → N → Prop) [∀ e j, Decidable (hit e j)] (s : E → N) (T : N → K → EReal) :
    N → K → EReal :=
  seg hit (fun e c => T (s e) c)

/-- One layer of the reference. -/
def refLayer (hit : E → N → Prop) [∀ e j, Decidable (hit e j)] (s dr : E → N) (dinv : N → EReal)
    (h : N → K → EReal) (W : K → K → EReal) (b : K → EReal) : N → K → EReal :=
  fun j c => max (seg hit (fun e c => rowsMul h W (s e) c * (dinv (s e) * dinv (dr e))) j c + b c) 0

/-- The kernel's hidden features after layer 1. -/
def kerH1 (hit : E → N → Prop) [∀ e j, Decidable (hit e j)] (s : E → N) (dinv : N → EReal)
    (x : N → K → EReal) (W1 : K → K → EReal) (b1 : K → EReal) : N → K → EReal :=
  act (gatherSeg hit s (scaledMul x dinv W1)) dinv b1

/-- The kernel's hidden features after layer 2. -/
def kerH2 (hit : E → N → Prop) [∀ e j, Decidable (hit e j)] (s : E → N) (dinv : N → EReal)
    (x : N → K → EReal) (W1 : K → K → EReal) (b1 : K → EReal) (W2 : K → K → EReal) (b2 : K → EReal) :
    N → K → EReal :=
  act (gatherSeg hit s (mulScaled (kerH1 hit s dinv x W1 b1) W2 dinv)) dinv b2

/-- The reference's hidden features after layer 2. -/
def refH2 (hit : E → N → Prop) [∀ e j, Decidable (hit e j)] (s dr : E → N) (dinv : N → EReal)
    (x : N → K → EReal) (W1 : K → K → EReal) (b1 : K → EReal) (W2 : K → K → EReal) (b2 : K → EReal) :
    N → K → EReal :=
  refLayer hit s dr dinv (refLayer hit s dr dinv x W1 b1) W2 b2

/-! ### Real values: where the extended reals distribute

Multiplication of extended reals is associative and commutative everywhere, but distributes over
addition only away from the infinities. The one law needed below is that a finite sum of real values
times a real factor is the sum of the products; it is read off from the same law in `ℝ`. -/

/-- On real values a finite sum times a real factor is the sum of the products. -/
theorem sum_mul_of_isReal {ι : Type} [Fintype ι] (f : ι → EReal) (a : EReal)
    (hf : ∀ i, IsReal (f i)) (ha : IsReal a) : (∑ i, f i) * a = ∑ i, f i * a := by
  choose g hg using hf
  obtain ⟨r, rfl⟩ := ha
  have e1 : (∑ i, f i) = ((∑ i, g i : ℝ) : EReal) := by
    rw [← coe_sum]; exact Finset.sum_congr rfl (fun i _ => hg i)
  have e2 : (∑ i, f i * (r : EReal)) = ((∑ i, g i * r : ℝ) : EReal) := by
    rw [← coe_sum]
    exact Finset.sum_congr rfl (fun i _ => by rw [hg i, EReal.coe_mul])
  rw [e1, e2, ← EReal.coe_mul, Finset.sum_mul]

/-- Rows of real entries times a real matrix are real. -/
theorem rowsMul_isReal (h : N → K → EReal) (W : K → K → EReal)
    (hh : ∀ i k, IsReal (h i k)) (hW : ∀ k c, IsReal (W k c)) (i : N) (c : K) :
    IsReal (rowsMul h W i c) := by
  show IsReal (∑ k, h i k * W k c)
  exact IsReal.sum _ _ (fun k _ => (hh i k).mul (hW k c))

/-- Real rows scaled by a real factor, then times a real matrix, are real. -/
theorem scaledMul_isReal (x : N → K → EReal) (dinv : N → EReal) (W : K → K → EReal)
    (hx : ∀ i k, IsReal (x i k)) (hd : ∀ i, IsReal (dinv i)) (hW : ∀ k c, IsReal (W k c)) (i : N) (c : K) :
    IsReal (scaledMul x dinv W i c) := by
  show IsReal (∑ k, (x i k * dinv i) * W k c)
  exact IsReal.sum _ _ (fun k _ => ((hx i k).mul (hd i)).mul (hW k c))

/-- Real rows times a real matrix, then scaled by a real factor, are real. -/
theorem mulScaled_isReal (h : N → K → EReal) (W : K → K → EReal) (dinv : N → EReal)
    (hh : ∀ i k, IsReal (h i k)) (hW : ∀ k c, IsReal (W k c)) (hd : ∀ i, IsReal (dinv i)) (i : N) (c : K) :
    IsReal (mulScaled h W dinv i c) := by
  show IsReal ((∑ k, h i k * W k c) * dinv i)
  exact (IsReal.sum _ _ (fun k _ => (hh i k).mul (hW k c))).mul (hd i)

/-- One row: a factor `a` applied to every entry before the product with a column is the same factor
    applied to the finished product, `∑ₖ (rₖ · a) · wₖ = (∑ₖ rₖ · wₖ) · a`; a further factor `t` then joins it
    by associativity. -/
theorem row_scaled_mul (r w : K → EReal) (a t : EReal)
    (hr : ∀ k, IsReal (r k)) (hw : ∀ k, IsReal (w k)) (ha : IsReal a) :
    (∑ k, (r k * a) * w k) * t = (∑ k, r k * w k) * (a * t) := by
  have h1 : (∑ k, (r k * a) * w k) = (∑ k, r k * w k) * a := by
    rw [sum_mul_of_isReal (fun k => r k * w k) a (fun k => (hr k).mul (hw k)) ha]
    exact Finset.sum_congr rfl (fun k _ => mul_right_comm _ _ _)
  rw [h1, mul_assoc]

/-- Two segment sums agree at node `j` as soon as their rows agree on the edges that hit `j`. -/
theorem seg_congr_hit (hit : E → N → Prop) [∀ e j, Decidable (hit e j)] (v v' : E → K → EReal)
    (j : N) (c : K) (h : ∀ e, hit e j → v e c = v' e c) : seg hit v j c = seg hit v' j c := by
  show (∑ e, if hit e j then v e c else 0) = ∑ e, if hit e j then v' e c else 0
  refine Finset.sum_congr rfl (fun e _ => ?_)
  by_cases he : hit e j
  · rw [if_pos he, if_pos he, h e he]
  · rw [if_neg he, if_neg he]

/-- A segment sum of real rows is real. -/
theorem seg_isReal (hit : E → N → Prop) [∀ e j, Decidable (hit e j)] (v : E → K → EReal)
    (hv : ∀ e c, IsReal (v e c)) (j : N) (c : K) : IsReal (seg hit v j c) := by
  show IsReal (∑ e, if hit e j then v e c else 0)
  refine IsReal.sum _ _ (fun e _ => ?_)
  by_cases he : hit e j
  · rw [if_pos he]; exact hv e c
  · rw [if_neg he]; exact IsReal.zero

/-- A real factor moves inside a segment sum of real rows: every summand, hit or not, is real, so the
    sum distributes, and the factor of a missed edge multiplies zero. -/
theorem seg_mul_of_isReal (hit : E → N → Prop) [∀ e j, Decidable (hit e j)] (v : E → K → EReal) (a : EReal)
    (hv : ∀ e c, IsReal (v e c)) (ha : IsReal a) (j : N) (c : K) :
    seg hit v j c * a = seg hit (fun e c => v e c * a) j c := by
  show (∑ e, if hit e j then v e c else 0) * a = ∑ e, if hit e j then v e c * a else 0
  have hterm : ∀ e, IsReal (if hit e j then v e c else 0) := by
    intro e
    by_cases he : hit e j
    · rw [if_pos he]; exact hv e c
    · rw [if_neg he]; exact IsReal.zero
  rw [sum_mul_of_isReal _ a hterm ha]
  refine Finset.sum_congr rfl (fun e _ => ?_)
  by_cases he : hit e j
  · rw [if_pos he, if_pos he]
  · rw [if_neg he, if_neg he, zero_mul]

/-- One reference layer of real data is real. -/
theorem refLayer_isReal (hit : E → N → Prop) [∀ e j, Decidable (hit e j)] (s dr : E → N) (dinv : N → EReal)
    (h : N → K → EReal) (W : K → K → EReal) (b : K → EReal)
    (hd : ∀ i, IsReal (dinv i)) (hh : ∀ i k, IsReal (h i k)) (hW : ∀ k c, IsReal (W k c)) (hb : ∀ c, IsReal (b c))
    (j : N) (c : K) : IsReal (refLayer hit s dr dinv h W b j c) := by
  show IsReal (max (seg hit (fun e c => rowsMul h W (s e) c * (dinv (s e) * dinv (dr e))) j c + b c) 0)
  refine IsReal.max (IsReal.add (seg_isReal hit _ (fun e c => ?_) j c) (hb c)) IsReal.zero
  exact (rowsMul_isReal h W hh hW (s e) c).mul ((hd (s e)).mul (hd (dr e)))

/-- LAYER 1: scaling the rows before the product, and the finished sum by the target's factor, is the
    reference's edge weight inside the sum. -/
theorem act_scaledMul_eq_refLayer (hit : E → N → Prop) [∀ e j, Decidable (hit e j)] (s dr : E → N)
    (hdr : ∀ e j, hit e j → dr e = j) (dinv : N → EReal) (x : N → K → EReal) (W : K → K → EReal) (b : K → EReal)
    (hd : ∀ i, IsReal (dinv i)) (hx : ∀ i k, IsReal (x i k)) (hW : ∀ k c, IsReal (W k c)) (hb : ∀ c, IsReal (b c)) :
    act (gatherSeg hit s (scaledMul x dinv W)) dinv b = refLayer hit s dr dinv x W b := by
  funext j c
  show max (seg hit (fun e c => scaledMul x dinv W (s e) c) j c * dinv j + b c) 0
    = max (seg hit (fun e c => rowsMul x W (s e) c * (dinv (s e) * dinv (dr e))) j c + b c) 0
  -- the target's factor goes inside the sum; on an edge that hits `j` it is `dinv (dr e)`, and the
  -- source's factor leaves the row product to meet it
  have key : seg hit (fun e c => scaledMul x dinv W (s e) c) j c * dinv j
      = seg hit (fun e c => rowsMul x W (s e) c * (dinv (s e) * dinv (dr e))) j c := by
    rw [seg_mul_of_isReal hit (fun e c => scaledMul x dinv W (s e) c) (dinv j)
      (fun e c => scaledMul_isReal x dinv W hx hd hW (s e) c) (hd j) j c]
    refine seg_congr_hit hit _ _ j c (fun e he => ?_)
    show (∑ k, (x (s e) k * dinv (s e)) * W k c) * dinv j
      = (∑ k, x (s e) k * W k c) * (dinv (s e) * dinv (dr e))
    rw [hdr e j he]
    exact row_scaled_mul (fun k => x (s e) k) (fun k => W k c) (dinv (s e)) (dinv j)
      (fun k => hx (s e) k) (fun k => hW k c) (hd (s e))
  rw [key]

/-- LAYER 2: scaling the rows after the product, and the finished sum by the target's factor, likewise. -/
theorem act_mulScaled_eq_refLayer (hit : E → N → Prop) [∀ e j, Decidable (hit e j)] (s dr : E → N)
    (hdr : ∀ e j, hit e j → dr e = j) (dinv : N → EReal) (h : N → K → EReal) (W : K → K → EReal) (b : K → EReal)
    (hd : ∀ i, IsReal (dinv i)) (hh : ∀ i k, IsReal (h i k)) (hW : ∀ k c, IsReal (W k c)) (hb : ∀ c, IsReal (b c)) :
    act (gatherSeg hit s (mulScaled h W dinv)) dinv b = refLayer hit s dr dinv h W b := by
  funext j c
  show max (seg hit (fun e c => mulScaled h W dinv (s e) c) j c * dinv j + b c) 0
    = max (seg hit (fun e c => rowsMul h W (s e) c * (dinv (s e) * dinv (dr e))) j c + b c) 0
  -- as in layer 1, except that the source's factor already stands after the row product, so only
  -- associativity is left on each edge
  have key : seg hit (fun e c => mulScaled h W dinv (s e) c) j c * dinv j
      = seg hit (fun e c => rowsMul h W (s e) c * (dinv (s e) * dinv (dr e))) j c := by
    rw [seg_mul_of_isReal hit (fun e c => mulScaled h W dinv (s e) c) (dinv j)
      (fun e c => mulScaled_isReal h W dinv hh hW hd (s e) c) (hd j) j c]
    refine seg_congr_hit hit _ _ j c (fun e he => ?_)
    show (∑ k, h (s e) k * W k c) * dinv (s e) * dinv j
      = (∑ k, h (s e) k * W k c) * (dinv (s e) * dinv (dr e))
    rw [hdr e j he]
    exact mul_assoc _ _ _
  rw [key]

/-- BOTH LAYERS: on real data the kernel's hidden features are the reference's. -/
theorem kerH2_eq_refH2 (hit : E → N → Prop) [∀ e j, Decidable (hit e j)] (s dr : E → N)
    (hdr : ∀ e j, hit e j → dr e = j) (dinv : N → EReal) (x : N → K → EReal)
    (W1 : K → K → EReal) (b1 : K → EReal) (W2 : K → K → EReal) (b2 : K → EReal)
    (hd : ∀ i, IsReal (dinv i)) (hx : ∀ i k, IsReal (x i k))
    (hW1 : ∀ k c, IsReal (W1 k c)) (hb1 : ∀ c, IsReal (b1 c)) (hW2 : ∀ k c, IsReal (W2 k c)) (hb2 : ∀ c, IsReal (b2 c)) :
    kerH2 hit s dinv x W1 b1 W2 b2 = refH2 hit s dr dinv x W1 b1 W2 b2 := by
  -- layer 1 first; its output is real, which is what layer 2 asks of its input
  have h1 : kerH1 hit s dinv x W1 b1 = refLayer hit s dr dinv x W1 b1 :=
    act_scaledMul_eq_refLayer hit s dr hdr dinv x W1 b1 hd hx hW1 hb1
  show act (gatherSeg hit s (mulScaled (kerH1 hit s dinv x W1 b1) W2 dinv)) dinv b2
    = refLayer hit s dr dinv (refLayer hit s dr dinv x W1 b1) W2 b2
  rw [h1]
  exact act_mulScaled_eq_refLayer hit s dr hdr dinv (refLayer hit s dr dinv x W1 b1) W2 b2 hd
    (fun i k => refLayer_isReal hit s dr dinv x W1 b1 hd hx hW1 hb1 i k) hW2 hb2

end Sums

/-! ## Degrees and their inverse square roots -/

/-- A sum of ones over the indices that satisfy `p` is their number. -/
theorem sum_ones_eq_card {ι : Type} [Fintype ι] (p : ι → Prop) [DecidablePred p] :
    (∑ e, if p e then (1 : EReal) else 0) = (((Finset.univ.filter p).card : ℝ) : EReal) := by
  -- each summand is the image of the real 0/1 indicator; the real sum of indicators is the count
  have h : ∀ e, (if p e then (1 : EReal) else 0) = (((if p e then (1 : ℝ) else 0 : ℝ)) : EReal) := by
    intro e
    by_cases he : p e
    · rw [if_pos he, if_pos he, EReal.coe_one]
    · rw [if_neg he, if_neg he, EReal.coe_zero]
  rw [Finset.sum_congr rfl (fun e _ => h e), coe_sum, Finset.sum_boole]

/-- The inverse square root of a count clamped below at one, or zero for an empty count, is real. -/
theorem dinv_isReal (k : ℕ) :
    IsReal (if (0 : EReal) < ((k : ℝ) : EReal) then Ideal.rsqrt (max ((k : ℝ) : EReal) 1) else 0) := by
  by_cases hk : (0 : EReal) < ((k : ℝ) : EReal)
  · -- a positive count: its maximum with one is real and still positive
    rw [if_pos hk]
    exact IsReal.rsqrt (IsReal.max (IsReal.coe _) IsReal.one) (lt_of_lt_of_le hk (le_max_left _ _))
  · rw [if_neg hk]; exact IsReal.zero

/-! ## Pooling by a one-hot product -/

/-- A sum of rows weighted by a 0/1 indicator is the sum of the indicated rows. -/
theorem sum_indicator_mul {ι : Type} [Fintype ι] (p : ι → Prop) [DecidablePred p] (f : ι → EReal) :
    (∑ j, (if p j then (1 : EReal) else 0) * f j) = ∑ j, if p j then f j else 0 := by
  refine Finset.sum_congr rfl (fun j _ => ?_)
  by_cases hj : p j
  · rw [if_pos hj, if_pos hj, one_mul]
  · rw [if_neg hj, if_neg hj, zero_mul]

/-! ## The pooling indicator, word against word

The kernel tests a node's graph number by comparing 32-bit words; the reference speaks of the number
the word names. For a graph number below 64 the two tests are the same test. -/

/-- The signed value of the 32-bit word of a number below 64 is that number: it is far below `2³¹`,
    so the word's unsigned value is the number itself and its sign bit is clear. -/
theorem toInt_ofNat_lt64 (g : Fin 64) : (BitVec.ofNat 32 g.val).toInt = (g.val : Int) := by
  have hg : g.val < 64 := g.isLt
  have hn : (BitVec.ofNat 32 g.val).toNat = g.val := by
    rw [BitVec.toNat_ofNat]; exact Nat.mod_eq_of_lt (by omega)
  rw [BitVec.toInt_eq_toNat_of_lt (by rw [hn]; omega), hn]

/-- A 32-bit word is the word of a number `g < 64` exactly when its signed value is `g`: one way by
    the signed value of that word, the other because a word is determined by its signed value. -/
theorem ofNat_eq_iff_names (v : BitVec 32) (g : Fin 64) :
    (BitVec.ofNat 32 g.val : BitVec 32) = v ↔ names v g := by
  unfold names
  constructor
  · intro h; rw [← h]; exact toInt_ofNat_lt64 g
  · intro h; exact BitVec.eq_of_toInt_eq (by rw [toInt_ofNat_lt64 g, h])

/-- The same with the two words the other way round. -/
theorem eq_ofNat_iff_names (v : BitVec 32) (g : Fin 64) :
    v = (BitVec.ofNat 32 g.val : BitVec 32) ↔ names v g :=
  eq_comm.trans (ofNat_eq_iff_names v g)

/-- ONE-HOT POOLING: the rows weighted by the 0/1 outcome of comparing the word of graph `g` with each
    node's word sum to the rows of the nodes whose word names `g`: a 0/1 weight selects or drops its
    row, and the word comparison is the naming test. -/
theorem onehot_pool {n : Nat} (B : Fin n → BitVec 32) (h : Fin n → EReal) (g : Fin 64) :
    (∑ j, (if (BitVec.ofNat 32 g.val : BitVec 32) = B j then (1 : EReal) else 0) * h j)
      = ∑ j, if names (B j) g then h j else 0 := by
  refine (sum_indicator_mul (fun j => (BitVec.ofNat 32 g.val : BitVec 32) = B j) h).trans ?_
  exact Finset.sum_congr rfl (fun j _ => if_congr (ofNat_eq_iff_names (B j) g) rfl rfl)

/-- One-hot pooling with the comparison written the other way round. -/
theorem onehot_pool_symm {n : Nat} (B : Fin n → BitVec 32) (h : Fin n → EReal) (g : Fin 64) :
    (∑ j, (if B j = (BitVec.ofNat 32 g.val : BitVec 32) then (1 : EReal) else 0) * h j)
      = ∑ j, if names (B j) g then h j else 0 := by
  refine (sum_indicator_mul (fun j => B j = (BitVec.ofNat 32 g.val : BitVec 32)) h).trans ?_
  exact Finset.sum_congr rfl (fun j _ => if_congr (eq_ofNat_iff_names (B j) g) rfl rfl)

end Cert.Spec

end
-- ==== Proof.Region0.lean ====
import proofs.«407923_j19954418057675_3_alg».proof.Proof.Gen.KernelIdeal.Frame
import proofs.«407923_j19954418057675_3_alg».proof.Proof.Spec
import Idealize.ShloMosaic.Lib.ValueIdx
import Idealize.ShloMosaic.Lib.Pipeline.Value
import Idealize.ShloMosaic.PureOps.Ideal.Laws

/-!
# The first product: rows scaled by their factor, times a matrix

The first region of the kernel takes the rows `x` (50000 × 128), a column `d` of one factor per row (50000 × 1) and a
matrix `W` (128 × 128), and writes the array whose entry `(i, q)` is

  `∑ k, (x (i, k) · d (i, 0)) · W (k, q)`.

It does so 2000 rows at a time, over 25 grid points: point `t` reads rows `2000 t … 2000 t + 1999` of `x` and of `d`
and all of `W`, and writes the same rows of the result. On extended reals the changes of float format are the
identity and a product into a zero accumulator is the plain sum over the contracted axis, so one point's block is
exactly those rows of the formula above; the 25 blocks tile the result, so the whole array is the formula.

The file goes in that order: the product's index maps, the body read at an index, the three blocks as rows of their
arrays, one point's block as rows of the formula, the tiling, the array.
-/

noncomputable section

open scoped BigOperators

namespace Cert.KernelIdeal.Region0
open Idealize.ShloMosaic Idealize.ShloMosaic.ValueIdx Cert.KernelIdeal Cert.KernelIdeal.Gen
open Idealize.ShloMosaic.TcCoe

/-! ## The product's index maps -/

/-- The dot record of the body's product contracts the left operand's columns against the right operand's rows:
    at output index `j` and contraction index `k` the left operand is read at row `j 0`, -/
theorem lhs_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
/-- column `k`; -/
theorem lhs_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
/-- the right operand at row `k`, -/
theorem rhs_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
/-- column `j 1`. -/
theorem rhs_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

/-! ## The body read at an index -/

/-- A column laid along the rows of a [2000 × 128] rectangle reads, at `(p, k)`, the column at `p`. -/
theorem bcast_col (x : S2000x1.Idx → EReal) (p : Fin 2000) (k : Fin 128) :
    broadcastTo S2000x128 x broadcasts_S2000x1_S2000x128 (ix2 p k) = x (ix2 p (0 : Fin 1)) := by
  refine broadcastTo_apply x broadcasts_S2000x1_S2000x128 (ix2 p k) (ix2 p (0 : Fin 1)) fun a => ?_
  match a with
  | ⟨0, _⟩ => rfl
  | ⟨1, _⟩ => rfl

/-- At contraction position `k` the left operand is read at `(p, k)` … -/
theorem lhsIdx_eq (p : Fin 2000) (q : Fin 128) (k : Fin 128) :
    dot_S2000x128_S128x128_S2000x128_1_0_0_1_n_n.lhsIdx (ix2 p q)
        ((contrEquiv1 dot_S2000x128_S128x128_S2000x128_1_0_0_1_n_n 128 rfl rfl).symm k) = ix2 p k := by
  funext a
  apply Fin.ext
  match a with
  | ⟨0, _⟩ => exact lhs_0 _ _
  | ⟨1, _⟩ => exact (lhs_1 _ _).trans (contrEquiv1_symm_val dot_S2000x128_S128x128_S2000x128_1_0_0_1_n_n 128 rfl rfl k)

/-- … and the right operand at `(k, q)`. -/
theorem rhsIdx_eq (p : Fin 2000) (q : Fin 128) (k : Fin 128) :
    dot_S2000x128_S128x128_S2000x128_1_0_0_1_n_n.rhsIdx (ix2 p q)
        ((contrEquiv1 dot_S2000x128_S128x128_S2000x128_1_0_0_1_n_n 128 rfl rfl).symm k) = ix2 k q := by
  funext a
  apply Fin.ext
  match a with
  | ⟨0, _⟩ => exact (rhs_0 _ _).trans (contrEquiv1_symm_val dot_S2000x128_S128x128_S2000x128_1_0_0_1_n_n 128 rfl rfl k)
  | ⟨1, _⟩ => exact rhs_1 _ _

/-- THE BODY AT AN INDEX. On extended reals the format changes are the identity and the product into a zero
    accumulator is the plain sum over the contracted axis, so entry `(p, q)` of what the body stores is
    `∑ k, (x0 (p, k) · x1 (p, 0)) · x2 (k, q)`: row `p` of the first operand scaled by the column's entry at `p`,
    against column `q` of the third. -/
theorem pay_apply (x0 : FVec Ideal S2000x128 .f32) (x1 : FVec Ideal S2000x1 .f32) (x2 : FVec Ideal S128x128 .f32)
    (p : Fin 2000) (q : Fin 128) :
    k0_pay1 (F := Ideal) x0 x1 x2 (ix2 p q) = ∑ k : Fin 128, (x0 (ix2 p k) * x1 (ix2 p (0 : Fin 1))) * x2 (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  rw [lhsIdx_eq, rhsIdx_eq]
  show (x0 (ix2 p k) * broadcastTo S2000x128 (shapeCast S2000x1 x1 shapeCasts_S2000x1_S2000x1) broadcasts_S2000x1_S2000x128 (ix2 p k)) * x2 (ix2 k q) = _
  rw [shapeCast_self, bcast_col]

/-! ## The arrays and their blocks -/

variable (V : (c : Dev nD) → (b : Ref sig .tc) → Buf (Elt Ideal) ((c : Thread nD τ).loc b))

/-- The three operand arrays as the region finds them: the rows `x`, the column of row factors, the matrix. -/
abbrev xArr (c : Dev nD) : Vec Ideal S50000x128 .f32 := V c (Pipeline.arrRef spec0 0)
abbrev dArr (c : Dev nD) : Vec Ideal S50000x1 .f32 := V c (Pipeline.arrRef spec0 1)
abbrev wArr (c : Dev nD) : Vec Ideal S128x128 .f32 := V c (Pipeline.arrRef spec0 2)

theorem hz : (![0, 0] : Fin 2 → Nat) = fun _ => 0 := funext fun a => by fin_cases a <;> rfl

/-- The block indices at grid point `t`, decided over the 25 points: the row windows (rows, row factors, result) sit
    at block row `t`, block column 0; the matrix's one block is the whole matrix. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point `t` is rows `2000 t … 2000 t + 1999` of the array. -/
theorem xblk_apply (c : Dev nD) (t : Fin cfg0.N) (y : S2000x128.Idx) (j : S50000x128.Idx)
    (hj0 : (j 0).val = 2000 * t.val + (y 0).val) (hj1 : (j 1).val = (y 1).val) :
    (iblk0 (F := Ideal) V c 0 t : Vec Ideal S2000x128 .f32) y = xArr V c j := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * (y 0).val = (j 0).val; rw [e0, hj0]; omega
  | ⟨1, _⟩ => show win0_0.index t (1 : Fin 2) * 128 + 1 * (y 1).val = (j 1).val; rw [e1, hj1]; omega

/-- The row factors' block at point `t` is rows `2000 t … 2000 t + 1999` of the column. -/
theorem dblk_apply (c : Dev nD) (t : Fin cfg0.N) (y : S2000x1.Idx) (j : S50000x1.Idx)
    (hj0 : (j 0).val = 2000 * t.val + (y 0).val) :
    (iblk0 (F := Ideal) V c 1 t : Vec Ideal S2000x1 .f32) y = dArr V c j := by
  obtain ⟨-, -, e0, e1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 2000 + 1 * (y 0).val = (j 0).val; rw [e0, hj0]; omega
  | ⟨1, _⟩ =>
    show win0_1.index t (1 : Fin 2) * 1 + 1 * (y 1).val = (j 1).val
    have hy : (y 1).val < 1 := idx2_lt1 y
    have hj : (j 1).val < 1 := idx2_lt1 j
    rw [e1]; omega

/-- The matrix's block at every point is the matrix. -/
theorem wblk_apply (c : Dev nD) (t : Fin cfg0.N) (y : S128x128.Idx) :
    (iblk0 (F := Ideal) V c 2 t : Vec Ideal S128x128 .f32) y = wArr V c y := by
  obtain ⟨-, -, -, -, e0, e1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- THE RESULT ARRAY as one function of the three operand arrays: entry `(i, q)` is
    `∑ k, (x (i, k) · d (i, 0)) · W (k, q)`, the rows scaled by their factor and then multiplied by the matrix. -/
abbrev G (X : Vec Ideal S50000x128 .f32) (Dv : Vec Ideal S50000x1 .f32) (Wv : Vec Ideal S128x128 .f32) :
    Vec Ideal S50000x128 .bf16 :=
  fun j => Cert.Spec.scaledMul (fun i k => X (ix2 i k)) (fun i => Dv (ix2 i (0 : Fin 1))) (fun k q => Wv (ix2 k q))
    (⟨(j 0).val, idx2_lt0 j⟩ : Fin 50000) (⟨(j 1).val, idx2_lt1 j⟩ : Fin 128)

/-- ONE POINT, over any arrays and blocks: if the three loaded blocks are rows `2000 n …` of the rows and of the factors,
    and the whole matrix, then entry `y` of what the body stores is entry `(2000 n + y 0, y 1)` of `G`: the sum over
    the contracted axis is the same sum, term by term. -/
theorem point_apply (X : Vec Ideal S50000x128 .f32) (Dv : Vec Ideal S50000x1 .f32) (Wv : Vec Ideal S128x128 .f32)
    (x0 : Vec Ideal S2000x128 .f32) (x1 : Vec Ideal S2000x1 .f32) (x2 : Vec Ideal S128x128 .f32) (n : Nat)
    (h0 : ∀ (y : S2000x128.Idx) (j : S50000x128.Idx), (j 0).val = 2000 * n + (y 0).val → (j 1).val = (y 1).val → x0 y = X j)
    (h1 : ∀ (y : S2000x1.Idx) (j : S50000x1.Idx), (j 0).val = 2000 * n + (y 0).val → x1 y = Dv j)
    (h2 : ∀ y : S128x128.Idx, x2 y = Wv y)
    (y : S2000x128.Idx) (j : S50000x128.Idx) (hj0 : (j 0).val = 2000 * n + (y 0).val) (hj1 : (j 1).val = (y 1).val) :
    k0_pay1 (F := Ideal) x0 x1 x2 y = G X Dv Wv j := by
  obtain ⟨p, q, rfl⟩ : ∃ (p : Fin 2000) (q : Fin 128), y = ix2 p q := ⟨y 0, y 1, eq_ix2 y⟩
  rw [pay_apply]
  show _ = ∑ k : Fin 128, (X (ix2 _ k) * Dv (ix2 _ (0 : Fin 1))) * Wv (ix2 k _)
  have hq : (⟨(j 1).val, idx2_lt1 j⟩ : Fin 128) = q := Fin.ext hj1
  rw [hq]
  refine Finset.sum_congr rfl fun k _ => ?_
  rw [h0 (ix2 p k) (ix2 ⟨(j 0).val, idx2_lt0 j⟩ k) hj0 rfl, h1 (ix2 p (0 : Fin 1)) (ix2 ⟨(j 0).val, idx2_lt0 j⟩ (0 : Fin 1)) hj0, h2]

/-! ## From blocks to the array -/

/-- WHAT POINT `t` WRITES BACK is block `t` of `G` of the operand arrays: the body's one store leaves its payload in the
    staging buffer, the payload's loads are the three blocks, and an element `y` of block `t` of the result sits at row
    `2000 t + y 0`, column `y 1` of the array. -/
theorem flushed_eq (c : Dev nD) (t : Fin cfg0.N) :
    (dat0 (F := Ideal) V c).flushed 3 t
      = ((cfg0.win 3).blk t).view.read (Elt Ideal) (G (xArr V c) (dArr V c) (wArr V c)) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S2000x1) hz, View.ld_unit_zero (S := S128x128) hz]
  obtain ⟨-, -, -, -, -, -, e0, e1⟩ := idx_facts t
  funext y
  rw [View.read_apply]
  refine point_apply (xArr V c) (dArr V c) (wArr V c) (iblk0 (F := Ideal) V c 0 t) (iblk0 (F := Ideal) V c 1 t)
    (iblk0 (F := Ideal) V c 2 t) t.val (xblk_apply V c t) (dblk_apply V c t) (wblk_apply V c t) y
    (((cfg0.win 3).blk t).view.emb y) ?_ ?_
  · show win0_3.index t (0 : Fin 2) * 2000 + 1 * (y 0).val = 2000 * t.val + (y 0).val
    rw [e0]; omega
  · show win0_3.index t (1 : Fin 2) * 128 + 1 * (y 1).val = (y 1).val
    rw [e1]; omega

/-- EVERY ENTRY IS WRITTEN: row `r` of the result lies in the block of point `r / 2000` (25 blocks of 2000 rows, all 128
    columns each), and every point writes its block back. -/
theorem covered (i : S50000x128.Idx) :
    ∃ t : Fin cfg0.N, (cfg0.win 3).flush t = true ∧ i ∈ ((cfg0.win 3).blk t).view.set := by
  have h0 : (i 0).val < 50000 := idx2_lt0 i
  have h1 : (i 1).val < 128 := idx2_lt1 i
  have hN : cfg0.N = 25 := N_0
  have ht : (i 0).val / 2000 < cfg0.N := by rw [hN]; omega
  obtain ⟨-, -, -, -, -, -, e0, e1⟩ := idx_facts ⟨(i 0).val / 2000, ht⟩
  refine ⟨⟨(i 0).val / 2000, ht⟩, flush0_3 _, ?_⟩
  show i ∈ ((View.whole main_v14).slice (win0_3.rect ⟨(i 0).val / 2000, ht⟩)).set
  rw [View.set_slice_whole, Rect.mem_set_unit]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e1]; omega

/-- THE RESULT ARRAY after the region is `G` of the operand arrays as the region finds them. -/
theorem out_eq (c : Dev nD) :
    (dat0 (F := Ideal) V c).arrAt 3 cfg0.N = G (xArr V c) (dArr V c) (wArr V c) :=
  (dat0 (F := Ideal) V c).arrAt_eq_of_cover 3 (G (xArr V c) (dArr V c) (wArr V c)) (fun t _ => flushed_eq V c t) covered

/-- ENTRY `(i, q)` of the result array after the region: row `i` of `x` scaled by its factor, against column `q` of `W`. -/
theorem out_apply (c : Dev nD) (i : Fin 50000) (q : Fin 128) :
    (dat0 (F := Ideal) V c).arrAt 3 cfg0.N (ix2 i q)
      = Cert.Spec.scaledMul (fun i k => xArr V c (ix2 i k)) (fun i => dArr V c (ix2 i (0 : Fin 1))) (fun k q => wArr V c (ix2 k q)) i q :=
  congrFun (out_eq V c) (ix2 i q)

end Cert.KernelIdeal.Region0

end
-- ==== Proof.LibScatterGather.lean ====
import Idealize.ShloMosaic.PureOps.Ideal
import Idealize.ShloMosaic.PureOps.Contract
import Idealize.ShloMosaic.Lib.ValueIdx

/-!
# Row scatters and row gathers of the host, read at an index

A table with `N` rows is indexed by a column of `M` integers, one per update row (the shape a
segment sum or a row lookup takes): the update row `e` goes to the table row its integer names,
read as a signed number. For the accumulating scatter at the ideal float values each table entry
receives the exact sum of the update entries that land on it, and an update whose row number is
negative or at least `N` lands nowhere. For the gather the row number is clamped into the table.
This file states both, entry by entry, for a table of rows of `C` entries and for a table of
single entries, over arbitrary extents `N`, `M`, `C`.
-/

noncomputable section

open scoped BigOperators
open Idealize.ShloMosaic Idealize.ShloMosaic.ValueIdx

namespace Cert.Lib

variable {N M C w : Nat}

/-! ## The dimension numbers -/

/-- Rows of `C` entries scattered into a table of `N` rows by a column of `M` row numbers. -/
abbrev rowScatter (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Single entries scattered into a table of `N` entries by a column of `M` positions. -/
abbrev entryScatter (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-! ## Where an update lands: rows of `C` entries -/

section Row
variable (wf : ScatterDims.WF ⟨2, ![N, C]⟩ ⟨2, ![M, 1]⟩ ⟨2, ![M, C]⟩ [1] [0] [0] 1)

/-- The row an update row is sent to is the signed value of its row number. -/
theorem rowScatter_start0 (j : (⟨2, ![M, C]⟩ : Shape).Idx) (idx : IVec ⟨2, ![M, 1]⟩ w) :
    (rowScatter N M C wf).start j idx 0 = (idx (ix2 (j 0) (0 : Fin 1))).toInt := by
  unfold ScatterDims.start
  rw [dif_pos (show (0 : Fin 2) ∈ (rowScatter N M C wf).scatterDimsToOperandDims from List.mem_singleton.mpr rfl)]
  congr 2
  funext b
  refine Fin.ext ?_
  match b with
  | ⟨0, _⟩ => rfl
  | ⟨1, _⟩ => rfl

/-- The row number says nothing about the position inside the row. -/
theorem rowScatter_start1 (j : (⟨2, ![M, C]⟩ : Shape).Idx) (idx : IVec ⟨2, ![M, 1]⟩ w) :
    (rowScatter N M C wf).start j idx 1 = 0 := by
  unfold ScatterDims.start
  rw [dif_neg (fun h => Nat.one_ne_zero (congrArg Fin.val (List.mem_singleton.mp h) : (1 : Nat) = 0))]

/-- The update's row coordinate is not a window coordinate. -/
theorem rowScatter_window0 (j : (⟨2, ![M, C]⟩ : Shape).Idx) : (rowScatter N M C wf).window j 0 = 0 := by
  unfold ScatterDims.window
  rw [dif_neg (fun h => by simp [ScatterDims.sKept, Shape.kept] at h)]

/-- Inside the row an update entry keeps its position. -/
theorem rowScatter_window1 (j : (⟨2, ![M, C]⟩ : Shape).Idx) : (rowScatter N M C wf).window j 1 = (j 1).val := by
  unfold ScatterDims.window
  rw [dif_pos (by simp [ScatterDims.sKept, Shape.kept])]
  rfl

/-- Update entry `(e, c)` lands on table entry `(j, c')` exactly when row `e`'s number is `j` and `c = c'`. -/
theorem rowScatter_lands (idx : IVec ⟨2, ![M, 1]⟩ w) (e : Fin M) (c : Fin C) (j : Fin N) (c' : Fin C) :
    (rowScatter N M C wf).resultIdx? (ix2 e c) idx = some (ix2 j c')
      ↔ (idx (ix2 e (0 : Fin 1))).toInt = (j.val : Int) ∧ c = c' := by
  unfold ScatterDims.resultIdx?
  have h0 : (rowScatter N M C wf).start (ix2 e c) idx 0 + (rowScatter N M C wf).window (ix2 e c) 0
      = (idx (ix2 e (0 : Fin 1))).toInt := by
    rw [rowScatter_start0, rowScatter_window0]; simp only [Nat.cast_zero, add_zero]; rfl
  have h1 : (rowScatter N M C wf).start (ix2 e c) idx 1 + (rowScatter N M C wf).window (ix2 e c) 1
      = (c.val : Int) := by
    rw [rowScatter_start1, rowScatter_window1]; simp only [zero_add]; rfl
  constructor
  · intro h
    split at h
    · next hin =>
      have hh := Option.some.inj h
      have e0 := congrArg (fun f => (f 0).val) hh
      have e1 := congrArg (fun f => (f 1).val) hh
      simp only at e0 e1
      have e0' : ((rowScatter N M C wf).start (ix2 e c) idx 0 + (rowScatter N M C wf).window (ix2 e c) 0).toNat = j.val := e0
      have e1' : ((rowScatter N M C wf).start (ix2 e c) idx 1 + (rowScatter N M C wf).window (ix2 e c) 1).toNat = c'.val := e1
      rw [h0] at e0'
      rw [h1] at e1'
      have hn := (hin 0).1
      rw [h0] at hn
      refine ⟨by omega, Fin.ext (by omega)⟩
    · exact absurd h (by simp)
  · rintro ⟨hj, rfl⟩
    have hin : ∀ a, 0 ≤ (rowScatter N M C wf).start (ix2 e c) idx a + (rowScatter N M C wf).window (ix2 e c) a
        ∧ (rowScatter N M C wf).start (ix2 e c) idx a + (rowScatter N M C wf).window (ix2 e c) a
          < (((⟨2, ![N, C]⟩ : Shape).size a : Nat) : Int) := by
      intro a
      match a with
      | ⟨0, _⟩ =>
        rw [show (⟨0, _⟩ : Fin 2) = 0 from rfl, h0, hj]
        exact ⟨by omega, by have := j.isLt; show (j.val : Int) < (N : Int); omega⟩
      | ⟨1, _⟩ =>
        rw [show (⟨1, _⟩ : Fin 2) = 1 from rfl, h1]
        exact ⟨by omega, by have := c.isLt; show (c.val : Int) < (C : Int); omega⟩
    rw [dif_pos hin]
    congr 1
    funext a
    refine Fin.ext ?_
    match a with
    | ⟨0, _⟩ =>
      show ((rowScatter N M C wf).start (ix2 e c) idx 0 + (rowScatter N M C wf).window (ix2 e c) 0).toNat = j.val
      rw [h0, hj]; simp
    | ⟨1, _⟩ =>
      show ((rowScatter N M C wf).start (ix2 e c) idx 1 + (rowScatter N M C wf).window (ix2 e c) 1).toNat = c.val
      rw [h1]; simp

/-- THE ACCUMULATING ROW SCATTER AT AN ENTRY: the table's entry plus the entries, in the same position of
    their rows, of the update rows whose number is `j`. -/
theorem rowScatterAdd_apply (x : (⟨2, ![N, C]⟩ : Shape).Idx → EReal) (idx : IVec ⟨2, ![M, 1]⟩ w)
    (upd : (⟨2, ![M, C]⟩ : Shape).Idx → EReal) (j : Fin N) (c : Fin C) :
    Ideal.hostScatterAdd (rowScatter N M C wf) x idx upd (ix2 j c)
      = x (ix2 j c) + ∑ e : Fin M, if (idx (ix2 e (0 : Fin 1))).toInt = (j.val : Int) then upd (ix2 e c) else 0 := by
  classical
  unfold Ideal.hostScatterAdd
  congr 1
  rw [Finset.sum_filter, sum_idx2]
  refine Finset.sum_congr rfl fun e _ => ?_
  simp only [rowScatter_lands wf idx e _ j c]
  by_cases h : (idx (ix2 e (0 : Fin 1))).toInt = (j.val : Int)
  · simp only [h, true_and, if_true]
    rw [Finset.sum_ite_eq' Finset.univ c (fun b => upd (ix2 e b))]
    simp
  · simp only [h, false_and, if_false]
    exact Finset.sum_const_zero

end Row

/-! ## Where an update lands: single entries -/

section Entry
variable (wf : ScatterDims.WF ⟨1, ![N]⟩ ⟨2, ![M, 1]⟩ ⟨1, ![M]⟩ [] [0] [0] 1)

/-- The position an update entry is sent to is the signed value of its number. -/
theorem entryScatter_start0 (j : (⟨1, ![M]⟩ : Shape).Idx) (idx : IVec ⟨2, ![M, 1]⟩ w) :
    (entryScatter N M wf).start j idx 0 = (idx (ix2 (j 0) (0 : Fin 1))).toInt := by
  unfold ScatterDims.start
  rw [dif_pos (show (0 : Fin 1) ∈ (entryScatter N M wf).scatterDimsToOperandDims from List.mem_singleton.mpr rfl)]
  congr 2
  funext b
  refine Fin.ext ?_
  match b with
  | ⟨0, _⟩ => rfl
  | ⟨1, _⟩ => rfl

/-- A single entry has no window coordinate. -/
theorem entryScatter_window0 (j : (⟨1, ![M]⟩ : Shape).Idx) : (entryScatter N M wf).window j 0 = 0 := by
  unfold ScatterDims.window
  rw [dif_neg (fun h => by simp [ScatterDims.sKept, Shape.kept] at h)]

/-- Update entry `e` lands on table entry `j` exactly when its number is `j`. -/
theorem entryScatter_lands (idx : IVec ⟨2, ![M, 1]⟩ w) (e : Fin M) (j : Fin N) :
    (entryScatter N M wf).resultIdx? (ix1 e) idx = some (ix1 j)
      ↔ (idx (ix2 e (0 : Fin 1))).toInt = (j.val : Int) := by
  unfold ScatterDims.resultIdx?
  have h0 : (entryScatter N M wf).start (ix1 e) idx 0 + (entryScatter N M wf).window (ix1 e) 0
      = (idx (ix2 e (0 : Fin 1))).toInt := by
    rw [entryScatter_start0, entryScatter_window0]; simp only [Nat.cast_zero, add_zero]; rfl
  constructor
  · intro h
    split at h
    · next hin =>
      have hh := Option.some.inj h
      have e0 : ((entryScatter N M wf).start (ix1 e) idx 0 + (entryScatter N M wf).window (ix1 e) 0).toNat = j.val :=
        congrArg (fun f => (f 0).val) hh
      rw [h0] at e0
      have hn := (hin 0).1
      rw [h0] at hn
      omega
    · exact absurd h (by simp)
  · intro hj
    have hin : ∀ a, 0 ≤ (entryScatter N M wf).start (ix1 e) idx a + (entryScatter N M wf).window (ix1 e) a
        ∧ (entryScatter N M wf).start (ix1 e) idx a + (entryScatter N M wf).window (ix1 e) a
          < (((⟨1, ![N]⟩ : Shape).size a : Nat) : Int) := by
      intro a
      match a with
      | ⟨0, _⟩ =>
        rw [show (⟨0, _⟩ : Fin 1) = 0 from rfl, h0, hj]
        exact ⟨by omega, by have := j.isLt; show (j.val : Int) < (N : Int); omega⟩
    rw [dif_pos hin]
    congr 1
    funext a
    refine Fin.ext ?_
    match a with
    | ⟨0, _⟩ =>
      show ((entryScatter N M wf).start (ix1 e) idx 0 + (entryScatter N M wf).window (ix1 e) 0).toNat = j.val
      rw [h0, hj]; simp

/-- A sum over the indices of a one-axis shape is the sum over the axis. -/
theorem sum_idx1 {A : Type*} [AddCommMonoid A] {n : Nat} (f : (⟨1, ![n]⟩ : Shape).Idx → A) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE ACCUMULATING ENTRY SCATTER AT AN ENTRY: the table's entry plus the update entries whose number is `j`. -/
theorem entryScatterAdd_apply (x : (⟨1, ![N]⟩ : Shape).Idx → EReal) (idx : IVec ⟨2, ![M, 1]⟩ w)
    (upd : (⟨1, ![M]⟩ : Shape).Idx → EReal) (j : Fin N) :
    Ideal.hostScatterAdd (entryScatter N M wf) x idx upd (ix1 j)
      = x (ix1 j) + ∑ e : Fin M, if (idx (ix2 e (0 : Fin 1))).toInt = (j.val : Int) then upd (ix1 e) else 0 := by
  classical
  unfold Ideal.hostScatterAdd
  congr 1
  rw [Finset.sum_filter, sum_idx1]
  refine Finset.sum_congr rfl fun e _ => ?_
  simp only [entryScatter_lands wf idx e j]

end Entry

/-! ## The row gather -/

/-- Rows of `C` entries looked up in a table of `N` rows by a column of `M` row numbers. -/
abbrev rowGather (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER AT AN ENTRY: result row `e` is the table's row at `e`'s number, read signed and clamped
    into the table, entry by entry. -/
theorem rowGather_apply {α : Type} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGather N M C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N M C wf).start (ix2 e c) idx 0 + (rowGather N M C wf).batchCoord (ix2 e c) 0
      + (rowGather N M C wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M C wf).startIndexMap from List.mem_singleton.mpr rfl)]
    have hsi : (rowGather N M C wf).siIdx (ix2 e c) ⟨List.idxOf (0 : Fin 2) (rowGather N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N M C wf).start (ix2 e c) idx 1 + (rowGather N M C wf).batchCoord (ix2 e c) 1
      + (rowGather N M C wf).offCoord (ix2 e c) 1 = c.val
    rw [GatherDims.batchCoord_eq_zero _ _ _ List.not_mem_nil]
    unfold GatherDims.start
    rw [dif_neg (fun h => Nat.one_ne_zero (congrArg Fin.val (List.mem_singleton.mp h) : (1 : Nat) = 0))]
    simp only [Nat.zero_add, Nat.add_zero]
    unfold GatherDims.offCoord
    rw [dif_pos ((GatherDims.mem_sKept _ _).mpr ⟨fun h => Nat.one_ne_zero (congrArg Fin.val (List.mem_singleton.mp h) : (1 : Nat) = 0), List.not_mem_nil⟩)]
    rfl

end Cert.Lib

end
-- ==== Proof.HostAgg.lean ====
import proofs.«407923_j19954418057675_3_alg».proof.Proof.Gen.KernelIdeal
import proofs.«407923_j19954418057675_3_alg».proof.Proof.Spec
import proofs.«407923_j19954418057675_3_alg».proof.Proof.LibScatterGather
import Idealize.ShloMosaic.Lib.ValueIdx
import Idealize.ShloMosaic.PureOps.Ideal.Laws

/-!
# The host's message passing between two regions of the kernel

Between its regions the kernel gathers the rows `T (s e)` of a table along the edges and adds each
into the row its target word names (a segment sum into a table of zeros). This file names that term
once, over the source and target words of the edges, and reads it at an entry: row `j`, column `c`
receives `∑ T (s e) c` over the edges `e` whose target word names `j`, where `s e` is the source
word, wrapped once if negative, clamped into the table.
-/

noncomputable section

open scoped BigOperators
open Idealize.ShloMosaic Idealize.ShloMosaic.ValueIdx

namespace Cert.KernelIdeal.HostAgg

open Cert.KernelIdeal Cert.KernelIdeal.Facts₀ Cert.KernelIdeal.Facts

variable {F : FTy → Type} [FloatOps F]

/-- The source words with a negative word moved up by the number of rows (numpy's wrap of a negative index). -/
def wrapSrc (src : IVec S1650000 32) : IVec S1650000 32 :=
  select (cmpi .slt src (broadcastInDim S1650000 ![] bcast_S_S1650000 (constantI S_ 32 0#32)))
    (addi src (broadcastInDim S1650000 ![] bcast_S_S1650000 (constantI S_ 32 50000#32))) src

/-- Gather the table's rows along the edges' (wrapped) source words, widen them, and add each into the row
    of a zero table that its target word names. -/
def agg (src dst : IVec S1650000 32) (T : FVec F S50000x128 .bf16) : FVec F S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst)
    (extf .f32 (Host.gather gather_S50000x128_S1650000x1_S1650000x128_1_0_n_n_0_1_1128 T
      (broadcastInDim S1650000x1 ![0] bcast_S1650000_S1650000x1_0 (wrapSrc src))) bitsLt_bf16_f32)

/-- At the ideal float values the host's accumulating scatter is the exact one: each entry plus the exact
    sum of the updates that land on it. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- A table filled with the zero word reads zero at every entry. -/
theorem bcastZero_apply {t : Shape} (h : (⟨0, ![]⟩ : Shape).BroadcastsInDim t ![]) (i : t.Idx) :
    broadcastInDim t ![] h (constant (F := Ideal) ⟨0, ![]⟩ .f32 0x00000000#32) i = 0 := Ideal.ofBits_zero_f32

/-- A vector laid out as a column reads, at `(p, 0)`, the vector at `p`. -/
theorem bcastCol_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- THE AGGREGATE AT AN ENTRY: the segment sum, over the edges whose target word names row `j`, of the
    table's rows at the edges' sources. -/
theorem agg_apply (src dst : IVec S1650000 32) (T : FVec Ideal S50000x128 .bf16) (j : Fin 50000) (c : Fin 128) :
    agg (F := Ideal) src dst T (ix2 j c)
      = Cert.Spec.gatherSeg (fun (e : Fin 1650000) (j : Fin 50000) => Cert.Spec.names (dst (ix1 e)) j)
          (fun e => Cert.Spec.rowOf 50000 (by decide) (wrapSrc src (ix1 e))) (fun i k => T (ix2 i k)) j c := by
  have hd : scatter_S50000x128_S1650000x1_S1650000x128_1_0_0_1
      = Cert.Lib.rowScatter 50000 1650000 128 scatter_S50000x128_S1650000x1_S1650000x128_1_0_0_1_wf := rfl
  have hg : gather_S50000x128_S1650000x1_S1650000x128_1_0_n_n_0_1_1128
      = Cert.Lib.rowGather 50000 1650000 128 gather_S50000x128_S1650000x1_S1650000x128_1_0_n_n_0_1_1128_wf := rfl
  unfold agg
  rw [scatterAdd_ideal, hd, Cert.Lib.rowScatterAdd_apply, bcastZero_apply, zero_add]
  unfold Cert.Spec.gatherSeg Cert.Spec.seg Cert.Spec.names
  refine Finset.sum_congr rfl fun e _ => ?_
  have hb1 : broadcastInDim S1650000x1 ![0] bcast_S1650000_S1650000x1_0 dst (ix2 e (0 : Fin 1)) = dst (ix1 e) :=
    bcastCol_apply _ _ e
  have hb2 : broadcastInDim S1650000x1 ![0] bcast_S1650000_S1650000x1_0 (wrapSrc src) (ix2 e (0 : Fin 1))
      = wrapSrc src (ix1 e) := bcastCol_apply _ _ e
  rw [hb1]
  refine if_congr Iff.rfl ?_ rfl
  rw [extf_apply, hg, Cert.Lib.rowGather_apply (by decide)]
  simp only [hb2]
  rfl

end Cert.KernelIdeal.HostAgg

end
-- ==== Proof.FoldB.lean ====
import proofs.«407923_j19954418057675_3_alg».proof.Proof.Gen.KernelIdeal.Frame
import proofs.«407923_j19954418057675_3_alg».proof.Proof.Region0
import proofs.«407923_j19954418057675_3_alg».proof.Proof.HostAgg
import proofs.«407923_j19954418057675_3_alg».proof.Proof.Spec
import Idealize.ShloMosaic.Lib.StableHlo.Run

/-!
# The kernel's buffers from the first region's entry to the second's

Over the first region the result array takes the rows scaled by their factor times the first matrix, and every
other buffer keeps its contents. The host stretch that follows gathers that table's rows along the edges' source
words and adds each into the row its target word names, and lays the first bias out as a row; it writes no other
buffer the later regions read. This file follows each buffer the second region and the later stretches read
across those two steps, from what it holds at the first region's entry.
-/

set_option maxRecDepth 16384

noncomputable section

namespace Cert.KernelIdeal.FoldB

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-- A buffer that no operation of a stretch of host operations writes keeps its contents over the stretch. -/
macro "keeps_over " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Over the first region -/

/-- ENTRY `(i, q)` of the first region's result array at the region's exit: row `i` of the rows scaled by its factor,
    against column `q` of the matrix — the region's value at the arrays it was entered with. -/
theorem t1_apply (c : Dev nD) (X : FVec Ideal S50000x128 .f32) (D : FVec Ideal S50000x1 .f32) (Wm : FVec Ideal S128x128 .f32)
    (h0 : W3 m ρ c (Proc.devRef .tc main_arg0) = X) (h13 : W3 m ρ c (Proc.devRef .tc main_v13) = D)
    (h4 : W3 m ρ c (Proc.devRef .tc main_arg4) = Wm) (i : Fin 50000) (q : Fin 128) :
    (W4 m ρ c (Proc.devRef .tc main_v14) : FVec Ideal S50000x128 .bf16) (ix2 i q)
      = Cert.Spec.scaledMul (fun i k => X (ix2 i k)) (fun i => D (ix2 i (0 : Fin 1))) (fun k q => Wm (ix2 k q)) i q := by
  have hx : Region0.xArr (V3 m ρ) c = X := h0
  have hd : Region0.dArr (V3 m ρ) c = D := h13
  have hw : Region0.wArr (V3 m ρ) c = Wm := h4
  refine (congrFun (W4_arr m ρ c 3) (ix2 i q)).trans ?_
  rw [Region0.out_apply (V3 m ρ) c i q, hx, hd, hw]

/-! ## Over the host stretch that follows -/

/-- The edges' source words are no array of the first region, so it leaves them as it found them. -/
theorem W4_v1 (c : Dev nD) (Sw : IVec S1650000 32) (h1 : W3 m ρ c (Proc.devRef .tc main_v1) = Sw) :
    W4 m ρ c (Proc.devRef .tc main_v1) = Sw :=
  (W4_of_ne m ρ c main_v1 (by decide)).trans h1

/-- Likewise the edges' target words. -/
theorem W4_v2 (c : Dev nD) (Dw : IVec S1650000 32) (h2 : W3 m ρ c (Proc.devRef .tc main_v2) = Dw) :
    W4 m ρ c (Proc.devRef .tc main_v2) = Dw :=
  (W4_of_ne m ρ c main_v2 (by decide)).trans h2

/-- THE FIRST AGGREGATE: what the stretch leaves in the second region's first operand is the first region's result
    gathered along the edges' source words and added into the rows the target words name. -/
theorem agg1_eq (c : Dev nD) (Sw Dw : IVec S1650000 32)
    (h1 : W3 m ρ c (Proc.devRef .tc main_v1) = Sw) (h2 : W3 m ρ c (Proc.devRef .tc main_v2) = Dw) :
    (W5 m ρ c (Proc.devRef .tc main_v25) : FVec Ideal S50000x128 .f32)
      = Cert.KernelIdeal.HostAgg.agg (F := Ideal) Sw Dw (W4 m ρ c (Proc.devRef .tc main_v14) : FVec Ideal S50000x128 .bf16) := by
  have e1 := W4_v1 m ρ c Sw h1
  have e2 := W4_v2 m ρ c Dw h2
  unfold Cert.KernelIdeal.HostAgg.agg Cert.KernelIdeal.HostAgg.wrapSrc
  dsimp only [W5]
  simp only [hostOps1]
  after_results
  rw [e1, e2]

/-- THE FIRST AGGREGATE AT AN ENTRY: row `j`, column `q` receives, over the edges whose target word names `j`, the sum of
    the scaled product's rows at the edges' sources. -/
theorem agg1_apply (c : Dev nD) (X : FVec Ideal S50000x128 .f32) (D : FVec Ideal S50000x1 .f32) (Wm : FVec Ideal S128x128 .f32)
    (Sw Dw : IVec S1650000 32)
    (h0 : W3 m ρ c (Proc.devRef .tc main_arg0) = X) (h13 : W3 m ρ c (Proc.devRef .tc main_v13) = D)
    (h4 : W3 m ρ c (Proc.devRef .tc main_arg4) = Wm)
    (h1 : W3 m ρ c (Proc.devRef .tc main_v1) = Sw) (h2 : W3 m ρ c (Proc.devRef .tc main_v2) = Dw)
    (j : Fin 50000) (q : Fin 128) :
    (W5 m ρ c (Proc.devRef .tc main_v25) : FVec Ideal S50000x128 .f32) (ix2 j q)
      = Cert.Spec.gatherSeg (fun (e : Fin 1650000) (j : Fin 50000) => Cert.Spec.names (Dw (ix1 e)) j)
          (fun e => Cert.Spec.rowOf 50000 (by decide) (Cert.KernelIdeal.HostAgg.wrapSrc Sw (ix1 e)))
          (Cert.Spec.scaledMul (fun i k => X (ix2 i k)) (fun i => D (ix2 i (0 : Fin 1))) (fun k q => Wm (ix2 k q))) j q := by
  have hT : (fun (i : Fin 50000) (k : Fin 128) => (W4 m ρ c (Proc.devRef .tc main_v14) : FVec Ideal S50000x128 .bf16) (ix2 i k))
      = Cert.Spec.scaledMul (fun i k => X (ix2 i k)) (fun i => D (ix2 i (0 : Fin 1))) (fun k q => Wm (ix2 k q)) :=
    funext fun i => funext fun k => t1_apply m ρ c X D Wm h0 h13 h4 i k
  rw [agg1_eq m ρ c Sw Dw h1 h2, Cert.KernelIdeal.HostAgg.agg_apply, hT]

/-! ## What the two steps leave alone -/

/-- The row factors are an operand of the first region, which writes no operand, and the stretch does not write them. -/
theorem W5_v13 (c : Dev nD) (D : FVec Ideal S50000x1 .f32) (h13 : W3 m ρ c (Proc.devRef .tc main_v13) = D) :
    W5 m ρ c (Proc.devRef .tc main_v13) = D :=
  calc W5 m ρ c (Proc.devRef .tc main_v13)
    _ = W4 m ρ c (Proc.devRef .tc main_v13) := by keeps_over hostOps1
    _ = W3 m ρ c (Proc.devRef .tc main_v13) :=
      (W4_arr m ρ c 1).trans (((dat0 (V3 m ρ) c).arrAt_in 1 rfl _).trans (A_eq0 (V3 m ρ) c 1))
    _ = D := h13

/-- The stretch reads the edges' source words and does not write them. -/
theorem W5_v1 (c : Dev nD) (Sw : IVec S1650000 32) (h1 : W3 m ρ c (Proc.devRef .tc main_v1) = Sw) :
    W5 m ρ c (Proc.devRef .tc main_v1) = Sw :=
  calc W5 m ρ c (Proc.devRef .tc main_v1)
    _ = W4 m ρ c (Proc.devRef .tc main_v1) := by keeps_over hostOps1
    _ = Sw := W4_v1 m ρ c Sw h1

/-- Likewise the edges' target words. -/
theorem W5_v2 (c : Dev nD) (Dw : IVec S1650000 32) (h2 : W3 m ρ c (Proc.devRef .tc main_v2) = Dw) :
    W5 m ρ c (Proc.devRef .tc main_v2) = Dw :=
  calc W5 m ρ c (Proc.devRef .tc main_v2)
    _ = W4 m ρ c (Proc.devRef .tc main_v2) := by keeps_over hostOps1
    _ = Dw := W4_v2 m ρ c Dw h2

/-- The stretch's last operation lays the first bias, a vector of 128, out as a row of 128. -/
theorem W5_v26 (c : Dev nD) (B : FVec Ideal S128 .f32) (h5 : W3 m ρ c (Proc.devRef .tc main_arg5) = B) :
    W5 m ρ c (Proc.devRef .tc main_v26) = shapeCast S1x128 B Cert.KernelIdeal.Facts₀.shapeCasts_S128_S1x128 := by
  have e5 : W4 m ρ c (Proc.devRef .tc main_arg5) = B := (W4_of_ne m ρ c main_arg5 (by decide)).trans h5
  dsimp only [W5]
  simp only [hostOps1]
  after_results
  simp only [TRef.ofBuf, TRef.toBuf, cast_eq]
  rw [e5]
  rfl

/-- The arguments the later regions and stretches read are no array of the first region and are not written by the stretch. -/
theorem W5_arg3 (c : Dev nD) : W5 m ρ c (Proc.devRef .tc main_arg3) = W3 m ρ c (Proc.devRef .tc main_arg3) :=
  calc W5 m ρ c (Proc.devRef .tc main_arg3)
    _ = W4 m ρ c (Proc.devRef .tc main_arg3) := by keeps_over hostOps1
    _ = W3 m ρ c (Proc.devRef .tc main_arg3) := W4_of_ne m ρ c main_arg3 (by decide)
theorem W5_arg6 (c : Dev nD) : W5 m ρ c (Proc.devRef .tc main_arg6) = W3 m ρ c (Proc.devRef .tc main_arg6) :=
  calc W5 m ρ c (Proc.devRef .tc main_arg6)
    _ = W4 m ρ c (Proc.devRef .tc main_arg6) := by keeps_over hostOps1
    _ = W3 m ρ c (Proc.devRef .tc main_arg6) := W4_of_ne m ρ c main_arg6 (by decide)
theorem W5_arg7 (c : Dev nD) : W5 m ρ c (Proc.devRef .tc main_arg7) = W3 m ρ c (Proc.devRef .tc main_arg7) :=
  calc W5 m ρ c (Proc.devRef .tc main_arg7)
    _ = W4 m ρ c (Proc.devRef .tc main_arg7) := by keeps_over hostOps1
    _ = W3 m ρ c (Proc.devRef .tc main_arg7) := W4_of_ne m ρ c main_arg7 (by decide)
theorem W5_arg8 (c : Dev nD) : W5 m ρ c (Proc.devRef .tc main_arg8) = W3 m ρ c (Proc.devRef .tc main_arg8) :=
  calc W5 m ρ c (Proc.devRef .tc main_arg8)
    _ = W4 m ρ c (Proc.devRef .tc main_arg8) := by keeps_over hostOps1
    _ = W3 m ρ c (Proc.devRef .tc main_arg8) := W4_of_ne m ρ c main_arg8 (by decide)
theorem W5_arg9 (c : Dev nD) : W5 m ρ c (Proc.devRef .tc main_arg9) = W3 m ρ c (Proc.devRef .tc main_arg9) :=
  calc W5 m ρ c (Proc.devRef .tc main_arg9)
    _ = W4 m ρ c (Proc.devRef .tc main_arg9) := by keeps_over hostOps1
    _ = W3 m ρ c (Proc.devRef .tc main_arg9) := W4_of_ne m ρ c main_arg9 (by decide)

end Cert.KernelIdeal.FoldB

end
-- ==== Proof.Region1.lean ====
import proofs.«407923_j19954418057675_3_alg».proof.Proof.Gen.KernelIdeal.Frame
import proofs.«407923_j19954418057675_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The value of the second pallas region: bias, clamp, product, scale

The region takes the raw segment sums `agg : [50000, 128]`, the column of factors `dinv : [50000, 1]`, the bias
`b : [1, 128]` and the matrix `W : [128, 128]`, and writes

  `out i q = (∑ k, max (agg i k * dinv i + b k) 0 * W k q) * dinv i`.

It works on 25 blocks of 2000 rows. Row `i` of the result depends on row `i` of `agg` and of `dinv` only (and on all
of `b` and `W`), so the block a grid point writes back is that block of ONE function of the four arrays, and the 25
blocks tile the array. At the ideal values the two changes of format around the product are the identity and the
product into the zero accumulator is the plain sum over the shared axis.

The file has two halves. First the body's result at an index of a block, as a term of the four input blocks
(`pay_apply`): the two broadcasts read at an index, the product read as a sum. Then from blocks to the array: each input
block as rows of its array, the written block as a block of the result function (`flushed_eq`), the cover (row `r` lies
in block `r / 2000`), and the array after the region (`final`, `out_apply`).
-/

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The four arrays as the region finds them: segment sums, factors, bias, matrix. -/
abbrev aArr (c : Dev nD) : Vec Ideal S50000x128 .f32 := V c (Pipeline.arrRef spec1 0)
abbrev dArr (c : Dev nD) : Vec Ideal S50000x1 .f32 := V c (Pipeline.arrRef spec1 1)
abbrev bArr (c : Dev nD) : Vec Ideal S1x128 .f32 := V c (Pipeline.arrRef spec1 2)
abbrev wArr (c : Dev nD) : Vec Ideal S128x128 .f32 := V c (Pipeline.arrRef spec1 3)

/-! ## The body's result at an index of a block -/

/-- The offsets of a rectangle that is its whole block: zero on both axes. -/
theorem hz : (![0, 0] : Fin 2 → Nat) = fun _ => 0 :=
  funext fun a => match a with | ⟨0, _⟩ => rfl | ⟨1, _⟩ => rfl

/-- A column `[a, 1]` broadcast over `[a, b]` reads, at `(p, c)`, the column's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices, axis by axis

The product contracts the block's columns with the matrix's rows: at output `(p, q)` and contraction coordinate `k`
the left operand is read at `(p, k)` and the right at `(k, q)`. -/

theorem lhsRow (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhsCol (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k
theorem rhsRow (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k
theorem rhsCol (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a `[2000, 128]` block and a `[128, 128]` matrix into the zero accumulator, read at `(p, q)`:
    the sum over the shared axis of the block's row `p` times the matrix's column `q`. -/
theorem matmul_zero_apply (L : FVec Ideal S2000x128 .bf16) (R : FVec Ideal S128x128 .bf16) (p : Fin 2000) (q : Fin 128) :
    matmul dot_S2000x128_S128x128_S2000x128_1_0_0_1_n_n none L R (constant (F := Ideal) S2000x128 .f32 0x00000000#32) (ix2 p q)
      = ∑ k : Fin 128, L (ix2 p k) * R (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhsRow _ _
      | ⟨1, _⟩ => exact (lhsCol _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhsRow _ _).trans hk
      | ⟨1, _⟩ => exact rhsCol _ _)
  rw [el, er]

/-- THE BODY'S RESULT AT `(p, q)` of a block: the row `p` of the block scaled by its node's factor, biased and
    clamped at zero, times the column `q` of the matrix, the sum scaled again by the node's factor. The two changes of
    format are the identity on extended reals. -/
theorem pay_apply (x1 : Vec Ideal S2000x1 .f32) (x0 : Vec Ideal S2000x128 .f32) (x2 : Vec Ideal S1x128 .f32)
    (x3 : Vec Ideal S128x128 .f32) (p : Fin 2000) (q : Fin 128) :
    k1_pay1 (F := Ideal) x1 x0 x2 x3 (ix2 p q)
      = (∑ k : Fin 128, max (x0 (ix2 p k) * x1 (ix2 p (0 : Fin 1)) + x2 (ix2 (0 : Fin 1) k)) 0 * x3 (ix2 k q))
          * x1 (ix2 p (0 : Fin 1)) := by
  unfold k1_pay1
  simp only [shapeCast_self]
  show matmul dot_S2000x128_S128x128_S2000x128_1_0_0_1_n_n none _ _ (constant (F := Ideal) S2000x128 .f32 0x00000000#32) (ix2 p q)
      * broadcastTo S2000x128 x1 broadcasts_S2000x1_S2000x128 (ix2 p q) = _
  rw [matmul_zero_apply, broadcastTo_a1_ab_apply]
  refine congrArg (· * x1 (ix2 p (0 : Fin 1))) (Finset.sum_congr rfl fun k _ => ?_)
  show max (x0 (ix2 p k) * broadcastTo S2000x128 x1 broadcasts_S2000x1_S2000x128 (ix2 p k)
        + broadcastTo S2000x128 x2 broadcasts_S1x128_S2000x128 (ix2 p k)) (Ideal.ofBits .f32 0x00000000#32) * x3 (ix2 k q) = _
  rw [broadcastTo_a1_ab_apply, broadcastTo_1b_ab_apply, Ideal.ofBits_zero_f32]

/-! ## The windows' blocks as rows of their arrays

Point `t` of the grid works on rows `2000 t … 2000 t + 1999`: the segment sums', the factors' and the result's block
index is `(t, 0)`; the bias and the matrix are one block each. -/

/-- The windows' block indices at each of the grid's 25 points (decided point by point). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The four input blocks at point `t`, at their literal shapes. -/
abbrev aBlk (c : Dev nD) (t : Fin cfg1.N) : Vec Ideal S2000x128 .f32 := iblk1 V c 0 t
abbrev dBlk (c : Dev nD) (t : Fin cfg1.N) : Vec Ideal S2000x1 .f32 := iblk1 V c 1 t
abbrev bBlk (c : Dev nD) (t : Fin cfg1.N) : Vec Ideal S1x128 .f32 := iblk1 V c 2 t
abbrev wBlk (c : Dev nD) (t : Fin cfg1.N) : Vec Ideal S128x128 .f32 := iblk1 V c 3 t

/-- Row `p` of the segment sums' block at point `t` is row `2000 t + p` of the array. -/
theorem aBlk_apply (c : Dev nD) (t : Fin cfg1.N) (p : Fin 2000) (k : Fin 128) (i : Fin 50000)
    (hi : i.val = 2000 * t.val + p.val) : aBlk V c t (ix2 p k) = aArr V c (ix2 i k) := by
  obtain ⟨e0, e1, -⟩ := idx_facts t
  show V c (Pipeline.arrRef spec1 0) (((cfg1.win 0).blk t).view.emb (ix2 p k)) = V c (Pipeline.arrRef spec1 0) (ix2 i k)
  refine congrArg _ (funext fun a => Fin.ext ?_)
  match a with
  | ⟨0, _⟩ => show win1_0.index t (0 : Fin 2) * 2000 + 1 * p.val = i.val; rw [e0, hi]; omega
  | ⟨1, _⟩ => show win1_0.index t (1 : Fin 2) * 128 + 1 * k.val = k.val; rw [e1]; omega

/-- Row `p` of the factors' block at point `t` is row `2000 t + p` of the column of factors. -/
theorem dBlk_apply (c : Dev nD) (t : Fin cfg1.N) (p : Fin 2000) (i : Fin 50000)
    (hi : i.val = 2000 * t.val + p.val) : dBlk V c t (ix2 p (0 : Fin 1)) = dArr V c (ix2 i (0 : Fin 1)) := by
  obtain ⟨-, -, e0, e1, -⟩ := idx_facts t
  show V c (Pipeline.arrRef spec1 1) (((cfg1.win 1).blk t).view.emb (ix2 p (0 : Fin 1))) = V c (Pipeline.arrRef spec1 1) (ix2 i (0 : Fin 1))
  refine congrArg _ (funext fun a => Fin.ext ?_)
  match a with
  | ⟨0, _⟩ => show win1_1.index t (0 : Fin 2) * 2000 + 1 * p.val = i.val; rw [e0, hi]; omega
  | ⟨1, _⟩ => show win1_1.index t (1 : Fin 2) * 1 + 1 * 0 = 0; rw [e1]

/-- The bias's one block is the bias. -/
theorem bBlk_apply (c : Dev nD) (t : Fin cfg1.N) (k : Fin 128) :
    bBlk V c t (ix2 (0 : Fin 1) k) = bArr V c (ix2 (0 : Fin 1) k) := by
  obtain ⟨-, -, -, -, e0, e1, -⟩ := idx_facts t
  show V c (Pipeline.arrRef spec1 2) (((cfg1.win 2).blk t).view.emb (ix2 (0 : Fin 1) k)) = V c (Pipeline.arrRef spec1 2) (ix2 (0 : Fin 1) k)
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- The matrix's one block is the matrix. -/
theorem wBlk_apply (c : Dev nD) (t : Fin cfg1.N) (k q : Fin 128) :
    wBlk V c t (ix2 k q) = wArr V c (ix2 k q) := by
  obtain ⟨-, -, -, -, -, -, e0, e1, -⟩ := idx_facts t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Entry `(p, q)` of the result's block at point `t` sits at `(2000 t + p, q)` of the array. -/
theorem oblk_emb (t : Fin cfg1.N) (p : Fin 2000) (q : Fin 128) (i : Fin 50000) (hi : i.val = 2000 * t.val + p.val) :
    ((cfg1.win 4).blk t).view.emb (ix2 p q) = (ix2 i q : S50000x128.Idx) := by
  obtain ⟨-, -, -, -, -, -, -, -, e0, e1⟩ := idx_facts t
  refine funext fun a => Fin.ext ?_
  match a with
  | ⟨0, _⟩ => show win1_4.index t (0 : Fin 2) * 2000 + 1 * p.val = i.val; rw [e0, hi]; omega
  | ⟨1, _⟩ => show win1_4.index t (1 : Fin 2) * 128 + 1 * q.val = q.val; rw [e1]; omega

/-! ## The region's result as one function of its arrays -/

/-- The result array: the activation of the scaled segment sums, times the matrix, each row scaled by its node's factor. -/
abbrev outFn (c : Dev nD) : Vec Ideal S50000x128 .bf16 := fun j =>
  Cert.Spec.mulScaled
    (Cert.Spec.act (fun i k => aArr V c (ix2 i k)) (fun i => dArr V c (ix2 i (0 : Fin 1))) (fun k => bArr V c (ix2 (0 : Fin 1) k)))
    (fun k q => wArr V c (ix2 k q)) (fun i => dArr V c (ix2 i (0 : Fin 1))) (j 0) (j 1)

/-- The row of the array that row `p` of point `t`'s blocks is. -/
abbrev rowAt (t : Fin cfg1.N) (p : Fin 2000) : Fin 50000 :=
  ⟨2000 * t.val + p.val, by have := t.isLt; have hN : cfg1.N = 25 := N_1; have := p.isLt; omega⟩

/-- WHAT POINT `t` WRITES BACK is block `t` of the result function: the body's result at `(p, q)` reads rows
    `2000 t + p` of the segment sums and of the factors, the whole bias and column `q` of the matrix. -/
theorem flushed_eq (c : Dev nD) (t : Fin cfg1.N) :
    (dat1 (F := Ideal) V c).flushed 4 t = ((cfg1.win 4).blk t).view.read (Elt Ideal) (outFn V c) := by
  show (cfg1.win 4).cut (grid1.coords t) ((dat1 (F := Ideal) V c).after 4 t) = _
  rw [after1_4]
  unfold out1_4
  rw [View.canon_unit_zero hz]
  simp only [View.ld_unit_zero (S := S2000x128) hz, View.ld_unit_zero (S := S2000x1) hz,
    View.ld_unit_zero (S := S1x128) hz, View.ld_unit_zero (S := S128x128) hz]
  refine funext fun (j : S2000x128.Idx) => ?_
  obtain ⟨p, q, rfl⟩ : ∃ (p : Fin 2000) (q : Fin 128), j = ix2 p q := ⟨j 0, j 1, eq_ix2 j⟩
  show k1_pay1 (F := Ideal) (dBlk V c t) (aBlk V c t) (bBlk V c t) (wBlk V c t) (ix2 p q)
      = outFn V c (((cfg1.win 4).blk t).view.emb (ix2 p q))
  refine (pay_apply (dBlk V c t) (aBlk V c t) (bBlk V c t) (wBlk V c t) p q).trans ?_
  refine Eq.trans ?_ (congrArg (outFn V c) (oblk_emb t p q (rowAt t p) rfl)).symm
  show (∑ k : Fin 128, max (aBlk V c t (ix2 p k) * dBlk V c t (ix2 p (0 : Fin 1)) + bBlk V c t (ix2 (0 : Fin 1) k)) 0
          * wBlk V c t (ix2 k q)) * dBlk V c t (ix2 p (0 : Fin 1))
      = (∑ k : Fin 128, max (aArr V c (ix2 (rowAt t p) k) * dArr V c (ix2 (rowAt t p) (0 : Fin 1)) + bArr V c (ix2 (0 : Fin 1) k)) 0
          * wArr V c (ix2 k q)) * dArr V c (ix2 (rowAt t p) (0 : Fin 1))
  rw [dBlk_apply V c t p (rowAt t p) rfl]
  refine congrArg (· * dArr V c (ix2 (rowAt t p) (0 : Fin 1))) (Finset.sum_congr rfl fun k _ => ?_)
  rw [aBlk_apply V c t p k (rowAt t p) rfl, bBlk_apply V c t k, wBlk_apply V c t k q]

/-! ## The blocks cover the array -/

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v27).slice (win1_4.rect t)).set ↔ _
  rw [View.set_slice_whole, Rect.mem_set_unit]
  exact Iff.rfl

/-- Row `r` is covered by point `r / 2000`, which writes back like every point. -/
theorem cover (i : S50000x128.Idx) :
    ∃ t : Fin cfg1.N, (cfg1.win 4).flush t = true ∧ i ∈ ((cfg1.win 4).blk t).view.set := by
  have h0 : (i 0).val < 50000 := (i 0).isLt
  have h1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, e0, e1⟩ := idx_facts t
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 128 ≤ (i 1).val ∧ (i 1).val < win1_4.index t (1 : Fin 2) * 128 + 128
    rw [e1]; omega

/-! ## The array after the region -/

/-- The result array ends holding the result function: every point writes its block of it and the blocks cover the array. -/
theorem final (c : Dev nD) : (dat1 (F := Ideal) V c).arrAt 4 cfg1.N = outFn V c :=
  (dat1 (F := Ideal) V c).arrAt_eq_of_cover 4 (outFn V c) (fun t _ => flushed_eq V c t) cover

/-- THE VALUE OF REGION 1 at `(i, q)`: with `h = relu (agg · dinv + b)`, row `i` of `h` times column `q` of `W`,
    scaled by `dinv i`. -/
theorem out_apply (c : Dev nD) (i : Fin 50000) (q : Fin 128) :
    (dat1 (F := Ideal) V c).arrAt 4 cfg1.N (ix2 i q)
      = Cert.Spec.mulScaled (Cert.Spec.act (fun i k => aArr V c (ix2 i k)) (fun i => dArr V c (ix2 i (0 : Fin 1))) (fun k => bArr V c (ix2 (0 : Fin 1) k)))
          (fun k q => wArr V c (ix2 k q)) (fun i => dArr V c (ix2 i (0 : Fin 1))) i q :=
  congrFun (final V c) (ix2 i q)

end Cert.KernelIdeal.Region1

end
-- ==== Proof.FoldC.lean ====
import proofs.«407923_j19954418057675_3_alg».proof.Proof.Gen.KernelIdeal.Frame
import proofs.«407923_j19954418057675_3_alg».proof.Proof.Region1
import proofs.«407923_j19954418057675_3_alg».proof.Proof.HostAgg
import proofs.«407923_j19954418057675_3_alg».proof.Proof.Spec
import Idealize.ShloMosaic.Lib.StableHlo.Run

/-!
# The kernel's buffers from the second region's entry to the third's

Over the second region the hidden features `h = relu (agg · dinv + b)` are multiplied by the second layer's matrix and
each row scaled by its node's factor; the host stretch that follows gathers those rows along the edges and adds each
into the row its target word names, and lays the pooling's segment words and the second bias out as a column and a row.
This file follows the buffers the third region reads through those two steps, each as a function of what the buffers
held when the second region was entered: the region's result entry by entry, the aggregate as the host's one term of
it and entry by entry as a segment sum, and the buffers that are carried unchanged or only reshaped.
-/

set_option maxRecDepth 16384

noncomputable section

namespace Cert.KernelIdeal.FoldC

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- A buffer that no operation of a stretch of host operations writes keeps its contents over the stretch. -/
macro "keeps_over " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Over the second region -/

/-- THE SECOND REGION'S RESULT at `(i, q)`: row `i` of the activation of the scaled first aggregate times column `q` of
    the second matrix, scaled by the node's factor. -/
theorem t2_apply (c : Dev nD) (A1 : Fin 50000 → Fin 128 → EReal) (D : FVec Ideal S50000x1 .f32)
    (Bb : FVec Ideal S1x128 .f32) (Wm : FVec Ideal S128x128 .f32)
    (h25 : ∀ (j : Fin 50000) (q : Fin 128), W5 m ρ c (Proc.devRef .tc main_v25) (ix2 j q) = A1 j q)
    (h13 : W5 m ρ c (Proc.devRef .tc main_v13) = D) (h26 : W5 m ρ c (Proc.devRef .tc main_v26) = Bb)
    (h6 : W5 m ρ c (Proc.devRef .tc main_arg6) = Wm) (i : Fin 50000) (q : Fin 128) :
    W6 m ρ c (Proc.devRef .tc main_v27) (ix2 i q)
      = Cert.Spec.mulScaled (Cert.Spec.act A1 (fun i => D (ix2 i (0 : Fin 1))) (fun k => Bb (ix2 (0 : Fin 1) k)))
          (fun k q => Wm (ix2 k q)) (fun i => D (ix2 i (0 : Fin 1))) i q := by
  obtain rfl : (fun (j : Fin 50000) (q : Fin 128) => W5 m ρ c (Proc.devRef .tc main_v25) (ix2 j q)) = A1 :=
    funext fun j => funext fun q => h25 j q
  subst h13 h26 h6
  exact (congrFun (W6_arr m ρ c 4) (ix2 i q)).trans (Region1.out_apply (V5 m ρ) c i q)

/-! ## Over the host stretch between the second and the third region -/

set_option maxHeartbeats 4000000 in
/-- THE SECOND AGGREGATE is the host's gather-and-add of the second region's result along the edges. -/
theorem agg2_eq (c : Dev nD) (Sw Dw : IVec S1650000 32)
    (h1 : W5 m ρ c (Proc.devRef .tc main_v1) = Sw) (h2 : W5 m ρ c (Proc.devRef .tc main_v2) = Dw) :
    (W7 m ρ c (Proc.devRef .tc main_v38) : FVec Ideal S50000x128 .f32)
      = HostAgg.agg (F := Ideal) Sw Dw (W6 m ρ c (Proc.devRef .tc main_v27)) := by
  have e1 : W6 m ρ c (Proc.devRef .tc main_v1) = Sw := (W6_of_ne m ρ c main_v1 (by decide)).trans h1
  have e2 : W6 m ρ c (Proc.devRef .tc main_v2) = Dw := (W6_of_ne m ρ c main_v2 (by decide)).trans h2
  subst e1 e2
  dsimp only [W7]
  simp only [hostOps2]
  after_results
  rfl

/-- THE SECOND AGGREGATE at `(j, q)`: the sum, over the edges whose target word names row `j`, of the second region's
    result at the edge's source row. -/
theorem agg2_apply (c : Dev nD) (A1 : Fin 50000 → Fin 128 → EReal) (D : FVec Ideal S50000x1 .f32)
    (Bb : FVec Ideal S1x128 .f32) (Wm : FVec Ideal S128x128 .f32) (Sw Dw : IVec S1650000 32)
    (h25 : ∀ (j : Fin 50000) (q : Fin 128), W5 m ρ c (Proc.devRef .tc main_v25) (ix2 j q) = A1 j q)
    (h13 : W5 m ρ c (Proc.devRef .tc main_v13) = D) (h26 : W5 m ρ c (Proc.devRef .tc main_v26) = Bb)
    (h6 : W5 m ρ c (Proc.devRef .tc main_arg6) = Wm)
    (h1 : W5 m ρ c (Proc.devRef .tc main_v1) = Sw) (h2 : W5 m ρ c (Proc.devRef .tc main_v2) = Dw)
    (j : Fin 50000) (q : Fin 128) :
    W7 m ρ c (Proc.devRef .tc main_v38) (ix2 j q)
      = Cert.Spec.gatherSeg (fun (e : Fin 1650000) (j : Fin 50000) => Cert.Spec.names (Dw (ix1 e)) j)
          (fun e => Cert.Spec.rowOf 50000 (by decide) (HostAgg.wrapSrc Sw (ix1 e)))
          (Cert.Spec.mulScaled (Cert.Spec.act A1 (fun i => D (ix2 i (0 : Fin 1))) (fun k => Bb (ix2 (0 : Fin 1) k)))
            (fun k q => Wm (ix2 k q)) (fun i => D (ix2 i (0 : Fin 1)))) j q := by
  have hT : (fun (i : Fin 50000) (k : Fin 128) => W6 m ρ c (Proc.devRef .tc main_v27) (ix2 i k))
      = Cert.Spec.mulScaled (Cert.Spec.act A1 (fun i => D (ix2 i (0 : Fin 1))) (fun k => Bb (ix2 (0 : Fin 1) k)))
          (fun k q => Wm (ix2 k q)) (fun i => D (ix2 i (0 : Fin 1))) :=
    funext fun i => funext fun k => t2_apply m ρ c A1 D Bb Wm h25 h13 h26 h6 i k
  refine (congrFun (agg2_eq m ρ c Sw Dw h1 h2) (ix2 j q)).trans ?_
  refine (HostAgg.agg_apply Sw Dw (W6 m ρ c (Proc.devRef .tc main_v27)) j q).trans ?_
  rw [hT]

/-! ## What is carried to the third region's entry -/

/-- The column of factors: an input of the second region, not written by the stretch after it. -/
theorem W7_v13 (c : Dev nD) (D : FVec Ideal S50000x1 .f32) (h13 : W5 m ρ c (Proc.devRef .tc main_v13) = D) :
    W7 m ρ c (Proc.devRef .tc main_v13) = D :=
  calc W7 m ρ c (Proc.devRef .tc main_v13)
    _ = W6 m ρ c (Proc.devRef .tc main_v13) := by keeps_over hostOps2
    _ = W5 m ρ c (Proc.devRef .tc main_v13) :=
        (W6_arr m ρ c 1).trans (((dat1 (V5 m ρ) c).arrAt_in 1 rfl _).trans (A_eq1 (V5 m ρ) c 1))
    _ = D := h13

/-- The pooling's segment words, laid out as a column. -/
theorem W7_v39 (c : Dev nD) (B3 : IVec S50000 32) (h3 : W5 m ρ c (Proc.devRef .tc main_arg3) = B3) :
    W7 m ρ c (Proc.devRef .tc main_v39) = shapeCast S50000x1 B3 Facts₀.shapeCasts_S50000_S50000x1 := by
  have e : W6 m ρ c (Proc.devRef .tc main_arg3) = B3 := (W6_of_ne m ρ c main_arg3 (by decide)).trans h3
  subst e
  dsimp only [W7]
  simp only [hostOps2]
  after_results
  simp only [TRef.ofBuf, TRef.toBuf, cast_eq]
  rfl

/-- The second bias, laid out as a row. -/
theorem W7_v40 (c : Dev nD) (B7 : FVec Ideal S128 .f32) (h7 : W5 m ρ c (Proc.devRef .tc main_arg7) = B7) :
    W7 m ρ c (Proc.devRef .tc main_v40) = shapeCast S1x128 B7 Facts₀.shapeCasts_S128_S1x128 := by
  have e : W6 m ρ c (Proc.devRef .tc main_arg7) = B7 := (W6_of_ne m ρ c main_arg7 (by decide)).trans h7
  subst e
  dsimp only [W7]
  simp only [hostOps2]
  after_results
  simp only [TRef.ofBuf, TRef.toBuf, cast_eq]
  rfl

/-- Argument 3 is no array of the second region and is not written by the stretch after it. -/
theorem W7_arg3 (c : Dev nD) : W7 m ρ c (Proc.devRef .tc main_arg3) = W5 m ρ c (Proc.devRef .tc main_arg3) :=
  calc W7 m ρ c (Proc.devRef .tc main_arg3)
    _ = W6 m ρ c (Proc.devRef .tc main_arg3) := by keeps_over hostOps2
    _ = W5 m ρ c (Proc.devRef .tc main_arg3) := W6_of_ne m ρ c main_arg3 (by decide)

/-- Argument 8 likewise. -/
theorem W7_arg8 (c : Dev nD) : W7 m ρ c (Proc.devRef .tc main_arg8) = W5 m ρ c (Proc.devRef .tc main_arg8) :=
  calc W7 m ρ c (Proc.devRef .tc main_arg8)
    _ = W6 m ρ c (Proc.devRef .tc main_arg8) := by keeps_over hostOps2
    _ = W5 m ρ c (Proc.devRef .tc main_arg8) := W6_of_ne m ρ c main_arg8 (by decide)

/-- Argument 9 likewise. -/
theorem W7_arg9 (c : Dev nD) : W7 m ρ c (Proc.devRef .tc main_arg9) = W5 m ρ c (Proc.devRef .tc main_arg9) :=
  calc W7 m ρ c (Proc.devRef .tc main_arg9)
    _ = W6 m ρ c (Proc.devRef .tc main_arg9) := by keeps_over hostOps2
    _ = W5 m ρ c (Proc.devRef .tc main_arg9) := W6_of_ne m ρ c main_arg9 (by decide)

end Cert.KernelIdeal.FoldC

end
-- ==== Proof.Region2.lean ====
import proofs.«407923_j19954418057675_3_alg».proof.Proof.Gen.KernelIdeal.Frame
import proofs.«407923_j19954418057675_3_alg».proof.Proof.Spec
import Idealize.ShloMosaic.Lib.Pipeline.Value
import Idealize.ShloMosaic.Lib.ValueIdx
import Idealize.ShloMosaic.PureOps.Ideal.Laws
import Idealize.ShloMosaic.Lib.Tactic

/-!
# The pooling region: a one-hot product accumulated over the row blocks

The third region pools the activated rows by graph. Its 50000 rows come in 25 blocks of 2000. For a
block with rows `r`, the body forms the activation `h r q = max (agg r q · dinv r + b q) 0` and the
one-hot matrix `onehot r g = 1` when lane `g` is the row's graph number `batch r`, else `0`, and adds
the product `onehotᵀ · h`, that is `∑ r, onehot r g · h r q`, into ONE 128 × 128 output block, which
it sets to zero at the first block. The block is written to the result array after the last block.

So the result array at `(g, q)` is the sum over ALL rows `j` of `onehot j g · h j q`: the per-block
sums are consecutive stretches of one sum over `j < 50000`, joined by `∑_{j < a + b} = ∑_{j < a} +
∑_{r < b} (a + r)`.
-/

set_option maxRecDepth 16384

noncomputable section

open scoped BigOperators

namespace Cert.KernelIdeal.Region2

open Idealize.ShloMosaic Idealize.ShloMosaic.TcCoe Idealize.ShloMosaic.ValueIdx Cert.KernelIdeal Cert.KernelIdeal.Gen
open Idealize.ShloMosaic.Pipeline (Dat)

/-! ## What one grid point leaves in the output block, for any float values -/

section AnyF
variable {F : FTy → Type} [FloatOps F]

/-- The offsets `(0, 0)` are the zero offsets. -/
theorem hz : (![0, 0] : Fin 2 → Nat) = fun _ => 0 := funext fun a => by fin_cases a <;> rfl

/-- AT A LATER POINT the body stores once, over the whole block: the block as the point before left it
    (`xo`) plus the one-hot product of this point's row block. Each operand is its whole buffer. -/
theorem out_B (c : Dev nD) (i : grid2.Coords)
    (a1 : Memref sig .tc .vmem S2000x128 .f32) (h1 : a1.IsWhole) (a2 : Memref sig .tc .vmem S2000x1 .f32) (h2 : a2.IsWhole)
    (a3 : Memref sig .tc .vmem S1x128 .f32) (h3 : a3.IsWhole) (a4 : Memref sig .tc .vmem S2000x1 .i32) (h4 : a4.IsWhole)
    (a5 : Memref sig .tc .vmem S128x128 .f32) (h5 : a5.IsWhole) (hc : ¬cond2_0 i)
    (x0 : Vec F S2000x128 .f32) (x1 : Vec F S2000x1 .f32) (x2 : Vec F S1x128 .f32) (x3 : Vec F S2000x1 .i32)
    (xo : Vec F S128x128 .f32) :
    out2_B_4 c i a1 h1 a2 h2 a3 h3 a4 h4 a5 h5 hc x0 x1 x2 x3 xo = k2_pay2 x1 x0 x2 x3 xo := by
  unfold out2_B_4
  rw [View.read_writes_eq_canon _ _ _ (cover2_B_4 c i a1 h1 a2 h2 a3 h3 a4 h4 a5 h5 hc x0 x1 x2 x3 xo)]
  unfold kernelRun2_B
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S2000x1) hz, View.ld_unit_zero (S := S1x128) hz,
    View.ld_unit_zero (S := S128x128) hz]

/-- AT THE FIRST POINT the body stores the zero block, reads it back, and stores over it the zero block
    plus the one-hot product of the first row block: the later store covers the earlier, and what it
    read back is what the earlier one wrote. -/
theorem out_A (c : Dev nD) (i : grid2.Coords)
    (a1 : Memref sig .tc .vmem S2000x128 .f32) (h1 : a1.IsWhole) (a2 : Memref sig .tc .vmem S2000x1 .f32) (h2 : a2.IsWhole)
    (a3 : Memref sig .tc .vmem S1x128 .f32) (h3 : a3.IsWhole) (a4 : Memref sig .tc .vmem S2000x1 .i32) (h4 : a4.IsWhole)
    (a5 : Memref sig .tc .vmem S128x128 .f32) (h5 : a5.IsWhole) (hc : cond2_0 i)
    (x0 : Vec F S2000x128 .f32) (x1 : Vec F S2000x1 .f32) (x2 : Vec F S1x128 .f32) (x3 : Vec F S2000x1 .i32) :
    out2_A_4 c i a1 h1 a2 h2 a3 h3 a4 h4 a5 h5 hc x0 x1 x2 x3 = k2_pay2 x1 x0 x2 x3 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S128x128) hz, View.readCov_unit_zero (S := S128x128) _ hz]
  simp only [View.readAt_eq_ld, h1.read_unread, h2.read_unread, h3.read_unread, h4.read_unread,
    View.ld_unit_zero (S := S2000x128) hz, View.ld_unit_zero (S := S2000x1) hz, View.ld_unit_zero (S := S1x128) hz]

end AnyF

/-! ## The stored values at an entry, over the extended reals -/

section AtIdeal

/-- The one-hot entry: the equality test of two words, widened and read as a signed integer, is the
    real number `1` when the words are equal and `0` when they are not. -/
theorem onehot_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [if_pos rfl]
    have e : IntOp.cmpi .eq a a = 1#1 := by simp [IntOp.cmpi]
    rw [e]
    norm_num
  · rw [if_neg h]
    have hb : (a == b) = false := beq_eq_false_iff_ne.mpr h
    have e : IntOp.cmpi .eq a b = 0#1 := by simp [IntOp.cmpi, hb]
    rw [e]
    norm_num

/-- The product `Aᵀ · B` of two 2000 × 128 matrices, contracted over their ROWS and started from zero,
    at entry `(g, q)`: the sum over the rows `r` of `A r g · B r q`. The contraction has one axis, of
    extent 2000, so its index set is `Fin 2000`. -/
theorem dotT_apply {φ₁ φ₂ : FTy} (A : FVec Ideal S2000x128 φ₁) (B : FVec Ideal S2000x128 φ₂) (g q : Fin 128) :
    FloatOps.matmul dot_S2000x128_S2000x128_S128x128_0_0_1_1_n_n none A B (constant S128x128 .f32 0x00000000#32) (ix2 g q)
      = ∑ r : Fin 2000, A (ix2 r g) * B (ix2 r q) := by
  rw [Ideal.matmul_constant_zero_apply,
    ← Equiv.sum_comp (contrEquiv1 dot_S2000x128_S2000x128_S128x128_0_0_1_1_n_n 2000 rfl rfl).symm]
  refine Finset.sum_congr rfl fun r _ => ?_
  have c2 := contrEquiv1_symm_val dot_S2000x128_S2000x128_S128x128_0_0_1_1_n_n 2000 rfl rfl r
  have l2 : dot_S2000x128_S2000x128_S128x128_0_0_1_1_n_n.lhsIdx (ix2 g q) ((contrEquiv1 _ 2000 rfl rfl).symm r) = ix2 r g := by
    funext ax; apply Fin.ext
    match ax with
    | ⟨0, _⟩ => simp [DotDims.lhsIdx, dot_S2000x128_S2000x128_S128x128_0_0_1_1_n_n]; exact c2
    | ⟨1, _⟩ => simp [DotDims.lhsIdx, dot_S2000x128_S2000x128_S128x128_0_0_1_1_n_n]; rfl
  have r2 : dot_S2000x128_S2000x128_S128x128_0_0_1_1_n_n.rhsIdx (ix2 g q) ((contrEquiv1 _ 2000 rfl rfl).symm r) = ix2 r q := by
    funext ax; apply Fin.ext
    match ax with
    | ⟨0, _⟩ => simp [DotDims.rhsIdx, dot_S2000x128_S2000x128_S128x128_0_0_1_1_n_n]; exact c2
    | ⟨1, _⟩ => simp [DotDims.rhsIdx, dot_S2000x128_S2000x128_S128x128_0_0_1_1_n_n]; rfl
  rw [l2, r2]

/-- A column of 2000 entries spread along the 128 lanes reads, at `(r, k)`, its entry `r`. -/
theorem bcast_col {α : Type} (x : S2000x1.Idx → α) (r : Fin 2000) (k : Fin 128) :
    broadcastTo S2000x128 x broadcasts_S2000x1_S2000x128 (ix2 r k) = x (ix2 r (0 : Fin 1)) :=
  broadcastTo_apply x broadcasts_S2000x1_S2000x128 (ix2 r k) (ix2 r (0 : Fin 1)) fun a => by
    match a with
    | ⟨0, _⟩ => rfl
    | ⟨1, _⟩ => rfl

/-- A row of 128 entries spread down the 2000 rows reads, at `(r, k)`, its entry `k`. -/
theorem bcast_row {α : Type} (x : S1x128.Idx → α) (r : Fin 2000) (k : Fin 128) :
    broadcastTo S2000x128 x broadcasts_S1x128_S2000x128 (ix2 r k) = x (ix2 (0 : Fin 1) k) :=
  broadcastTo_apply x broadcasts_S1x128_S2000x128 (ix2 r k) (ix2 (0 : Fin 1) k) fun a => by
    match a with
    | ⟨0, _⟩ => rfl
    | ⟨1, _⟩ => rfl

/-- THE UPDATE AT AN ENTRY. With `x0` the block of raw sums, `x1` its rows' factors, `x2` the bias,
    `x3` the rows' graph numbers and `xo` the block so far, the stored value at `(g, q)` is
    `xo g q + ∑ r, [g = x3 r] · max (x0 r q · x1 r + x2 q) 0`: the narrowing of both factors to the
    short format is the identity on extended reals, the lane number along axis 1 is `g`, and the
    product is `dotT_apply`. -/
theorem pay2_apply (x1 : Vec Ideal S2000x1 .f32) (x0 : Vec Ideal S2000x128 .f32) (x2 : Vec Ideal S1x128 .f32)
    (x3 : Vec Ideal S2000x1 .i32) (xo : Vec Ideal S128x128 .f32) (g q : Fin 128) :
    k2_pay2 (F := Ideal) x1 x0 x2 x3 xo (ix2 g q)
      = xo (ix2 g q) + ∑ r : Fin 2000,
          (if (BitVec.ofNat 32 g.val : BitVec 32) = x3 (ix2 r (0 : Fin 1)) then (1 : EReal) else 0)
            * max (x0 (ix2 r q) * x1 (ix2 r (0 : Fin 1)) + x2 (ix2 (0 : Fin 1) q)) 0 := by
  unfold k2_pay2
  simp only [shapeCast_self]
  refine (addf_apply _ _ _).trans ?_
  refine (congrArg (xo (ix2 g q) + ·) (dotT_apply _ _ g q)).trans ?_
  refine congrArg (xo (ix2 g q) + ·) (Finset.sum_congr rfl fun r _ => ?_)
  refine congrArg₂ (· * ·) ?_ ?_
  · show FloatOps.sitofp (F := Ideal) .f32
        ((IntOp.cmpi .eq (iota .tc S2000x128 32 [1] iota_S2000x128_d1_w32 (ix2 r g))
          (broadcastTo S2000x128 x3 broadcasts_S2000x1_S2000x128 (ix2 r g))).setWidth 32) = _
    rw [iota_single_apply, bcast_col]
    exact onehot_word _ _
  · show max (x0 (ix2 r q) * broadcastTo S2000x128 x1 broadcasts_S2000x1_S2000x128 (ix2 r q)
        + broadcastTo S2000x128 x2 broadcasts_S1x128_S2000x128 (ix2 r q)) (Ideal.ofBits .f32 0x00000000#32) = _
    rw [bcast_col, bcast_row, Ideal.ofBits_zero_f32]

/-- The block the first point starts from is zero everywhere. -/
theorem pay1_apply (g q : Fin 128) : k2_pay1 (F := Ideal) (ix2 g q) = 0 := by
  unfold k2_pay1
  show Ideal.ofBits .f32 0x00000000#32 = 0
  exact Ideal.ofBits_zero_f32

end AtIdeal

/-! ## The row blocks inside their arrays, and the running sum -/

section Blocks

variable (V : (c : Dev nD) → (b : Ref sig .tc) → Buf (Elt Ideal) ((c : Thread nD τ).loc b))

/-- The raw segment sums, one row per node. -/
abbrev aArr (c : Dev nD) : Vec Ideal S50000x128 .f32 := V c (Pipeline.arrRef spec2 0)
/-- Each node's factor. -/
abbrev dArr (c : Dev nD) : Vec Ideal S50000x1 .f32 := V c (Pipeline.arrRef spec2 1)
/-- The bias. -/
abbrev bArr (c : Dev nD) : Vec Ideal S1x128 .f32 := V c (Pipeline.arrRef spec2 2)
/-- Each node's graph number. -/
abbrev batchArr (c : Dev nD) : IVec S50000x1 32 := V c (Pipeline.arrRef spec2 3)

/-- Their blocks at grid point `t`. -/
abbrev aBlk (c : Dev nD) (t : Fin cfg2.N) : Vec Ideal S2000x128 .f32 := iblk2 V c 0 t
abbrev dBlk (c : Dev nD) (t : Fin cfg2.N) : Vec Ideal S2000x1 .f32 := iblk2 V c 1 t
abbrev bBlk (c : Dev nD) (t : Fin cfg2.N) : Vec Ideal S1x128 .f32 := iblk2 V c 2 t
abbrev batchBlk (c : Dev nD) (t : Fin cfg2.N) : Vec Ideal S2000x1 .i32 := iblk2 V c 3 t

/-- The block indices at point `t`: the row-blocked windows are at block `(t, 0)`, the bias and the
    output at block `(0, 0)` throughout. Decided over the 25 points. -/
theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = t.val ∧ win2_1.index t 1 = 0 :=
  (by decide +kernel : ∀ t : Fin grid2.N, win2_1.index t 0 = t.val ∧ win2_1.index t 1 = 0)
theorem index2_2 : ∀ t : Fin cfg2.N, win2_2.index t 0 = 0 ∧ win2_2.index t 1 = 0 :=
  (by decide +kernel : ∀ t : Fin grid2.N, win2_2.index t 0 = 0 ∧ win2_2.index t 1 = 0)
theorem index2_3 : ∀ t : Fin cfg2.N, win2_3.index t 0 = t.val ∧ win2_3.index t 1 = 0 :=
  (by decide +kernel : ∀ t : Fin grid2.N, win2_3.index t 0 = t.val ∧ win2_3.index t 1 = 0)
theorem index2_4 : ∀ t : Fin cfg2.N, win2_4.index t 0 = 0 ∧ win2_4.index t 1 = 0 :=
  (by decide +kernel : ∀ t : Fin grid2.N, win2_4.index t 0 = 0 ∧ win2_4.index t 1 = 0)

/-- Row `r` of block `t` of the raw sums is row `2000 t + r` of the array. -/
theorem aBlk_apply (c : Dev nD) (t : Fin cfg2.N) (r : Fin 2000) (k : Fin 128) (h : 2000 * t.val + r.val < 50000) :
    aBlk V c t (ix2 r k) = aArr V c (ix2 ⟨2000 * t.val + r.val, h⟩ k) := by
  unfold aBlk iblk2
  rw [View.read_apply]
  show V c (Pipeline.arrRef spec2 0) _ = V c (Pipeline.arrRef spec2 0) _
  congr 1
  funext a
  apply Fin.ext
  match a with
  | ⟨0, _⟩ => show win2_0.index t 0 * 2000 + 1 * r.val = 2000 * t.val + r.val; rw [(index2_0 t).1]; omega
  | ⟨1, _⟩ => show win2_0.index t 1 * 128 + 1 * k.val = k.val; rw [(index2_0 t).2]; omega

/-- Row `r` of block `t` of the factors is row `2000 t + r` of the array. -/
theorem dBlk_apply (c : Dev nD) (t : Fin cfg2.N) (r : Fin 2000) (h : 2000 * t.val + r.val < 50000) :
    dBlk V c t (ix2 r (0 : Fin 1)) = dArr V c (ix2 ⟨2000 * t.val + r.val, h⟩ (0 : Fin 1)) := by
  unfold dBlk iblk2
  rw [View.read_apply]
  show V c (Pipeline.arrRef spec2 1) _ = V c (Pipeline.arrRef spec2 1) _
  congr 1
  funext a
  apply Fin.ext
  match a with
  | ⟨0, _⟩ => show win2_1.index t 0 * 2000 + 1 * r.val = 2000 * t.val + r.val; rw [(index2_1 t).1]; omega
  | ⟨1, _⟩ => show win2_1.index t 1 * 1 + 1 * 0 = 0; rw [(index2_1 t).2]

/-- The bias block is the bias, at every point. -/
theorem bBlk_apply (c : Dev nD) (t : Fin cfg2.N) (k : Fin 128) :
    bBlk V c t (ix2 (0 : Fin 1) k) = bArr V c (ix2 (0 : Fin 1) k) := by
  unfold bBlk iblk2
  rw [View.read_apply]
  show V c (Pipeline.arrRef spec2 2) _ = V c (Pipeline.arrRef spec2 2) _
  congr 1
  funext a
  apply Fin.ext
  match a with
  | ⟨0, _⟩ => show win2_2.index t 0 * 1 + 1 * 0 = 0; rw [(index2_2 t).1]
  | ⟨1, _⟩ => show win2_2.index t 1 * 128 + 1 * k.val = k.val; rw [(index2_2 t).2]; omega

/-- Row `r` of block `t` of the graph numbers is row `2000 t + r` of the array. -/
theorem batchBlk_apply (c : Dev nD) (t : Fin cfg2.N) (r : Fin 2000) (h : 2000 * t.val + r.val < 50000) :
    batchBlk V c t (ix2 r (0 : Fin 1)) = batchArr V c (ix2 ⟨2000 * t.val + r.val, h⟩ (0 : Fin 1)) := by
  unfold batchBlk iblk2
  rw [View.read_apply]
  show V c (Pipeline.arrRef spec2 3) _ = V c (Pipeline.arrRef spec2 3) _
  congr 1
  funext a
  apply Fin.ext
  match a with
  | ⟨0, _⟩ => show win2_3.index t 0 * 2000 + 1 * r.val = 2000 * t.val + r.val; rw [(index2_3 t).1]; omega
  | ⟨1, _⟩ => show win2_3.index t 1 * 1 + 1 * 0 = 0; rw [(index2_3 t).2]

/-- Row `j`'s contribution to the pooled entry `(g, q)`: its activation at feature `q` if its graph
    number is `g`, else nothing; `0` for a number `j` past the last row, so that it is a function of
    every natural number and sums over stretches of naturals make sense. -/
def term (c : Dev nD) (g q : Fin 128) (j : ℕ) : EReal :=
  if h : j < 50000 then
    (if (BitVec.ofNat 32 g.val : BitVec 32) = batchArr V c (ix2 (⟨j, h⟩ : Fin 50000) (0 : Fin 1)) then (1 : EReal) else 0)
      * Cert.Spec.act (fun (i : Fin 50000) (k : Fin 128) => aArr V c (ix2 i k)) (fun (i : Fin 50000) => dArr V c (ix2 i (0 : Fin 1)))
          (fun (k : Fin 128) => bArr V c (ix2 (0 : Fin 1) k)) (⟨j, h⟩ : Fin 50000) q
  else 0

/-- The one-hot product of block `t` at `(g, q)` is the sum of the contributions of the rows
    `2000 t, …, 2000 t + 1999`: each block entry is the array's at row `2000 t + r`. -/
theorem blockSum_eq (c : Dev nD) (t : Fin cfg2.N) (g q : Fin 128) :
    (∑ r : Fin 2000,
        (if (BitVec.ofNat 32 g.val : BitVec 32) = batchBlk V c t (ix2 r (0 : Fin 1)) then (1 : EReal) else 0)
          * max (aBlk V c t (ix2 r q) * dBlk V c t (ix2 r (0 : Fin 1)) + bBlk V c t (ix2 (0 : Fin 1) q)) 0)
      = ∑ r ∈ Finset.range 2000, term V c g q (2000 * t.val + r) := by
  have hN : t.val < 25 := lt_of_lt_of_eq t.isLt N_2
  rw [Finset.sum_range]
  refine Finset.sum_congr rfl fun r _ => ?_
  have h : 2000 * t.val + r.val < 50000 := by have := r.isLt; omega
  unfold term
  rw [dif_pos h, aBlk_apply V c t r q h, dBlk_apply V c t r h, bBlk_apply V c t q, batchBlk_apply V c t r h]
  rfl

/-- THE RUNNING SUM. After point `n` the output block holds, at `(g, q)`, the contributions of the
    rows below `2000 (n + 1)`. By induction on the point: the first point leaves `0` plus block 0's
    sum; a later one adds its block's sum to what the point before left, and
    `∑_{j < 2000 (n + 1) + 2000} = ∑_{j < 2000 (n + 1)} + ∑_{r < 2000} (2000 (n + 1) + r)`. -/
theorem outsAt_apply (c : Dev nD) : ∀ (n : ℕ) (h : n < cfg2.N) (g q : Fin 128),
    outsAt2 (F := Ideal) V c n h (ix2 g q) = ∑ j ∈ Finset.range (2000 * (n + 1)), term V c g q j
  | 0, h, g, q => by
    refine (congrFun (outsAt2_A V c ⟨0, h⟩ rfl) (ix2 g q)).trans ?_
    refine (congrFun (out_A (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl)
      (aBlk V c ⟨0, h⟩) (dBlk V c ⟨0, h⟩) (bBlk V c ⟨0, h⟩) (batchBlk V c ⟨0, h⟩)) (ix2 g q)).trans ?_
    rw [pay2_apply, pay1_apply, zero_add, blockSum_eq V c ⟨0, h⟩ g q]
    simp only [Nat.mul_zero, Nat.zero_add, Nat.mul_one]
  | n + 1, h, g, q => by
    have hN : cfg2.N = 25 := N_2
    have hB : ¬(⟨n + 1, h⟩ : Fin cfg2.N).val % 25 = 0 := by dsimp only; omega
    refine (congrFun (outsAt2_B V c ⟨n + 1, h⟩ hB) (ix2 g q)).trans ?_
    refine (congrFun (out_B (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩)
      (fun hc => hB ((hcond2_0 ⟨n + 1, h⟩).mp hc))
      (aBlk V c ⟨n + 1, h⟩) (dBlk V c ⟨n + 1, h⟩) (bBlk V c ⟨n + 1, h⟩) (batchBlk V c ⟨n + 1, h⟩)
      (outsAt2 V c n (Nat.lt_of_succ_lt h))) (ix2 g q)).trans ?_
    rw [pay2_apply, outsAt_apply c n (Nat.lt_of_succ_lt h) g q, blockSum_eq V c ⟨n + 1, h⟩ g q,
      show 2000 * (n + 1 + 1) = 2000 * (n + 1) + 2000 from by ring, Finset.sum_range_add]

end Blocks

/-! ## The result array: what the last point leaves -/

section Final

variable (V : (c : Dev nD) → (b : Ref sig .tc) → Buf (Elt Ideal) ((c : Thread nD τ).loc b))

/-- The last grid point, the one after which the block is written to the array. -/
abbrev tLast : Fin cfg2.N := ⟨24, by rw [show cfg2.N = 25 from N_2]; decide⟩

/-- What the last point leaves in the output block, as contents of the result array: the block is the
    whole 128 × 128 array. -/
abbrev pooled (c : Dev nD) : Buf (Elt Ideal) ((c : Thread nD τ).loc main_v41) := outsAt2 V c 24 tLast.isLt

/-- The output block sits at offsets `(0, 0)` of its array. -/
theorem off2_4 : (fun a => win2_4.index tLast a * main_v41.ty.shape.size a) = fun _ => 0 := funext fun a => by
  match a with
  | ⟨0, _⟩ => show win2_4.index tLast 0 * 128 = 0; rw [(index2_4 tLast).1]
  | ⟨1, _⟩ => show win2_4.index tLast 1 * 128 = 0; rw [(index2_4 tLast).2]

/-- Only the last point writes the block to the array, and what it writes is `pooled` read through
    the block's place in the array: a block of the array's own sizes at zero offsets reads all of it. -/
theorem lastWrite (c : Dev nD) (t : Fin cfg2.N) (hf : (cfg2.win 4).flush t = true) :
    (dat2 V c).flushed 4 t = ((cfg2.win 4).blk t).view.read (Elt Ideal) (pooled V c) := by
  have h24 : t = tLast := Fin.ext (by
    have h1 := (flush2_4 t).mp hf
    have h2 : t.val < 25 := lt_of_lt_of_eq t.isLt N_2
    show t.val = 24
    omega)
  subst h24
  refine Eq.trans ?_ (Memref.read_access_unit_zero (Elt Ideal) main_v41 off2_4
    (fun a => by rw [congrFun off2_4 a]; exact (Nat.zero_add _).le) (pooled V c)).symm
  show (cfg2.win 4).cut (grid2.coords tLast) ((dat2 V c).after 4 tLast) = _
  rw [after2_4]
  rfl

/-- So after the run the result array holds `pooled`: the one write covers every entry. -/
theorem final_eq (c : Dev nD) : (dat2 V c).arrAt 4 cfg2.N = pooled V c :=
  (dat2 V c).arrAt_eq_of_cover 4 (pooled V c) (lastWrite V c) fun i =>
    ⟨tLast, (flush2_4 tLast).mpr rfl, by
      show i ∈ ((View.whole main_v41).slice (win2_4.rect tLast)).set
      rw [View.set_slice_whole]
      exact View.mem_set_unit_zero (S := S128x128) off2_4 _ i⟩

/-- THE POOLED ARRAY. Entry `(g, q)` of the result is the sum over all 50000 rows `j` of the
    indicator "row `j` belongs to graph `g`" times the row's activation at feature `q`: the running
    sum after the last point ranges over `j < 2000 · 25 = 50000`. -/
theorem out_apply (c : Dev nD) (g : Fin 128) (q : Fin 128) :
    (dat2 (F := Ideal) V c).arrAt 4 cfg2.N (ix2 g q)
      = ∑ j : Fin 50000, (if (BitVec.ofNat 32 g.val : BitVec 32) = batchArr V c (ix2 j (0 : Fin 1)) then (1 : EReal) else 0)
          * Cert.Spec.act (fun i k => aArr V c (ix2 i k)) (fun i => dArr V c (ix2 i (0 : Fin 1))) (fun k => bArr V c (ix2 (0 : Fin 1) k)) j q := by
  rw [final_eq V c]
  show outsAt2 V c 24 tLast.isLt (ix2 g q) = _
  rw [outsAt_apply V c 24 tLast.isLt g q, show 2000 * (24 + 1) = 50000 from rfl, Finset.sum_range]
  refine Finset.sum_congr rfl fun j _ => ?_
  unfold term
  rw [dif_pos j.isLt]

end Final

end Cert.KernelIdeal.Region2

end
-- ==== Proof.FoldD.lean ====
import proofs.«407923_j19954418057675_3_alg».proof.Proof.Gen.KernelIdeal.Frame
import proofs.«407923_j19954418057675_3_alg».proof.Proof.Region2
import proofs.«407923_j19954418057675_3_alg».proof.Proof.Spec
import Idealize.ShloMosaic.Lib.StableHlo.Run

/-!
# The kernel's buffers over the pooling region

The third region reads four arrays, the raw sums, the nodes' factors, the bias and the nodes' graph
numbers, and writes one, the pooled 128 × 128 array. Whatever the four hold when the region is
entered, the pooled array holds at `(g, q)`, when it is left, the sum over the rows of graph `g` of
their activations at feature `q`; a buffer that is none of the region's arrays is left as it was.
-/

set_option maxRecDepth 16384

noncomputable section

open scoped BigOperators

namespace Cert.KernelIdeal.FoldD

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-- THE POOLED ARRAY AT THE REGION'S EXIT, from the four input arrays at its entry: entry `(g, q)` is
    the sum over all rows `j` of the indicator "row `j` has graph number `g`" times the row's activation
    `max (A2 j q · D j + Bb q) 0`. The region's value at its entry contents, with each of the four
    arrays replaced by what it is given to hold. -/
theorem pool_apply (c : Dev nD) (A2 : Fin 50000 → Fin 128 → EReal) (D : FVec Ideal S50000x1 .f32)
    (Bb : FVec Ideal S1x128 .f32) (Bc : IVec S50000x1 32)
    (h38 : ∀ (j : Fin 50000) (q : Fin 128), W7 m ρ c (Proc.devRef .tc main_v38) (ix2 j q) = A2 j q)
    (h13 : W7 m ρ c (Proc.devRef .tc main_v13) = D)
    (h40 : W7 m ρ c (Proc.devRef .tc main_v40) = Bb)
    (h39 : W7 m ρ c (Proc.devRef .tc main_v39) = Bc)
    (g : Fin 128) (q : Fin 128) :
    W8 m ρ c (Proc.devRef .tc main_v41) (ix2 g q)
      = ∑ j : Fin 50000, (if (BitVec.ofNat 32 g.val : BitVec 32) = Bc (ix2 j (0 : Fin 1)) then (1 : EReal) else 0)
          * Cert.Spec.act A2 (fun i => D (ix2 i (0 : Fin 1))) (fun k => Bb (ix2 (0 : Fin 1) k)) j q := by
  refine (congrFun (W8_arr m ρ c 4) (ix2 g q)).trans ?_
  refine (Region2.out_apply (V7 m ρ) c g q).trans ?_
  have ha : (fun (i : Fin 50000) (k : Fin 128) => Region2.aArr (V7 m ρ) c (ix2 i k)) = A2 :=
    funext fun i => funext fun k => h38 i k
  have hd : Region2.dArr (V7 m ρ) c = D := h13
  have hb : Region2.bArr (V7 m ρ) c = Bb := h40
  have hbc : Region2.batchArr (V7 m ρ) c = Bc := h39
  rw [ha, hd, hb, hbc]

/-- Argument 3 is none of the region's arrays: it is left as it was. -/
theorem W8_arg3 (c : Dev nD) : W8 m ρ c (Proc.devRef .tc main_arg3) = W7 m ρ c (Proc.devRef .tc main_arg3) :=
  W8_of_ne m ρ c main_arg3 (by decide)

/-- Argument 8 is none of the region's arrays: it is left as it was. -/
theorem W8_arg8 (c : Dev nD) : W8 m ρ c (Proc.devRef .tc main_arg8) = W7 m ρ c (Proc.devRef .tc main_arg8) :=
  W8_of_ne m ρ c main_arg8 (by decide)

/-- Argument 9 is none of the region's arrays: it is left as it was. -/
theorem W8_arg9 (c : Dev nD) : W8 m ρ c (Proc.devRef .tc main_arg9) = W7 m ρ c (Proc.devRef .tc main_arg9) :=
  W8_of_ne m ρ c main_arg9 (by decide)

end Cert.KernelIdeal.FoldD

end
-- ==== Proof.RefPool.lean ====
import proofs.«407923_j19954418057675_3_alg».proof.Proof.RefRead
import proofs.«407923_j19954418057675_3_alg».proof.Proof.Spec
import proofs.«407923_j19954418057675_3_alg».proof.Proof.LibScatterGather
import proofs.«407923_j19954418057675_3_alg».proof.Proof.LibIdealReal
import Idealize.ShloMosaic.PureOps.Ideal.Laws
import Idealize.ShloMosaic.Lib.ValueIdx

/-!
# The reference's mean pooling: the segment sums, the counts, and the tail

After its two layers the reference adds the rows of the hidden features of each graph (a segment
sum over the nodes, keyed by the node's graph number), counts the nodes of each graph (the same
segment sum of ones), divides each pooled row by its count clamped below at one, and applies the
last affine map. This file names that last stretch as ONE function `tail` of the pooled sums and
the counts, and reads the two segment sums entry by entry: the pooled entry `(g, c)` is the sum of
the entries `(j, c)` over the nodes `j` whose number names `g`; the count of `g` is the number of
such nodes.
-/

noncomputable section

open scoped BigOperators
open Cert.ReferenceIdeal Cert.ReferenceIdeal.Gen Cert.ReferenceIdeal.Read
open Idealize.ShloMosaic Idealize.ShloMosaic.ValueIdx

namespace Cert.ReferenceIdeal.RefPool

/-! ## The tail -/

/-- From the pooled sums `P` and the counts `Cn`: clamp the counts below at one, spread them along
    the rows, divide, multiply by the column `x8`, add the bias `x9`, and drop the unit axis. -/
def tail {F : FTy → Type} [FloatOps F] (P : FVec F S64x128 .f32) (Cn : FVec F S64 .f32)
    (x8 : FVec F S128x1 .f32) (x9 : FVec F S1 .f32) : FVec F S64 .f32 :=
  shapeCast _
    (addf
      (Host.dotGeneral dot_S64x128_S128x1_S64x1_1_0_0_1_n_n none
        (Host.divf P
          (broadcastInDim S64x128 ![0, 1] bcast_S64x1_S64x128_0_1
            (broadcastInDim S64x1 ![0] bcast_S64_S64x1_0
              (maximumf Cn
                (broadcastInDim S64 ![] bcast_S_S64 (constant S_ .f32 0x3F800000#32))))))
        x8)
      (broadcastInDim S64x1 ![0, 1] bcast_S1x1_S64x1_0_1
        (broadcastInDim S1x1 ![1] bcast_S1_S1x1_1 x9)))
    shapeCasts_S64x1_S64

/-- The pooled sums: the segment sum of the hidden features' rows. -/
abbrev pooled (x0 : FVec Ideal S50000x128 .f32) (x1 x2 : IVec S1600000 32) (x3 : IVec S50000 32)
    (x4 : FVec Ideal S128x128 .f32) (x5 : FVec Ideal S128 .f32) (x6 : FVec Ideal S128x128 .f32)
    (x7 : FVec Ideal S128 .f32) : FVec Ideal S64x128 .f32 :=
  val_main_v70 (F := Ideal) x0 x1 x2 x3 x4 x5 x6 x7

/-- The counts: the segment sum of ones. -/
abbrev counts (x3 : IVec S50000 32) : FVec Ideal S64 .f32 :=
  val_main_v67 (F := Ideal) x3

/-- The reference's result is the tail of its pooled sums and counts. -/
theorem out_eq_tail (x0 : FVec Ideal S50000x128 .f32) (x1 x2 : IVec S1600000 32) (x3 : IVec S50000 32)
    (x4 : FVec Ideal S128x128 .f32) (x5 : FVec Ideal S128 .f32) (x6 : FVec Ideal S128x128 .f32)
    (x7 : FVec Ideal S128 .f32) (x8 : FVec Ideal S128x1 .f32) (x9 : FVec Ideal S1 .f32) :
    val_main_v80 (F := Ideal) x0 x1 x2 x3 x4 x5 x6 x7 x8 x9
      = tail (pooled x0 x1 x2 x3 x4 x5 x6 x7) (counts x3) x8 x9 := rfl

/-! ## The segment sums at an entry -/

/-- The column the node numbers are spread into, read at a row. -/
theorem col_apply (x3 : IVec S50000 32) (j : Fin 50000) :
    val_main_v69 (F := Ideal) x3 (ix2 j (0 : Fin 1)) = x3 (ix1 j) := by
  rw [val_main_v69_apply]
  congr 1
  funext a
  match a with
  | ⟨0, _⟩ => rfl

/-- The same column as the counts' scatter names it. -/
theorem col'_apply (x3 : IVec S50000 32) (j : Fin 50000) :
    val_main_v66 (F := Ideal) x3 (ix2 j (0 : Fin 1)) = x3 (ix1 j) := by
  rw [val_main_v66_apply]
  congr 1
  funext a
  match a with
  | ⟨0, _⟩ => rfl

/-- POOLING: into a zero table, entry `(g, c)` receives the entries `(j, c)` of the rows whose
    number names `g`. Stated for any rows `h2`. -/
theorem pooled_apply (x3 : IVec S50000 32) (h2 : FVec Ideal S50000x128 .f32) (g : Fin 64) (c : Fin 128) :
    Host.scatterAdd scatter_S64x128_S50000x1_S50000x128_1_0_0_1 (val_main_v68 (F := Ideal))
        (val_main_v69 (F := Ideal) x3) h2 (ix2 g c)
      = ∑ j : Fin 50000, if Cert.Spec.names (x3 (ix1 j)) g then h2 (ix2 j c) else 0 := by
  show Ideal.hostScatterAdd
      (Cert.Lib.rowScatter 64 50000 128 Facts₀.scatter_S64x128_S50000x1_S50000x128_1_0_0_1_wf)
      (val_main_v68 (F := Ideal)) (val_main_v69 (F := Ideal) x3) h2 (ix2 g c) = _
  rw [Cert.Lib.rowScatterAdd_apply, val_main_v68_apply, val_main_cst_15_apply, Ideal.ofBits_def,
    Ideal.ofBits_zero_f32, zero_add]
  refine Finset.sum_congr rfl fun j _ => ?_
  rw [col_apply]
  exact if_congr Iff.rfl rfl rfl

/-- COUNTING: into a zero table, entry `g` receives a one per node whose number names `g`. -/
theorem counts_apply (x3 : IVec S50000 32) (g : Fin 64) :
    val_main_v67 (F := Ideal) x3 (ix1 g)
      = (((Finset.univ.filter (fun j : Fin 50000 => Cert.Spec.names (x3 (ix1 j)) g)).card : ℝ) : EReal) := by
  unfold val_main_v67
  show Ideal.hostScatterAdd
      (Cert.Lib.entryScatter 64 50000 Facts₀.scatter_S64_S50000x1_S50000_n_0_0_1_wf)
      (val_main_v65 (F := Ideal)) (val_main_v66 (F := Ideal) x3) (val_main_v64 (F := Ideal)) (ix1 g) = _
  rw [Cert.Lib.entryScatterAdd_apply, val_main_v65_apply, val_main_cst_14_apply, Ideal.ofBits_def,
    Ideal.ofBits_zero_f32, zero_add]
  refine (Finset.sum_congr rfl fun j _ => ?_).trans
    (Cert.Spec.sum_ones_eq_card (fun j : Fin 50000 => Cert.Spec.names (x3 (ix1 j)) g))
  rw [col'_apply, val_main_v64_apply, val_main_cst_13_apply, Ideal.ofBits_def, Cert.Lib.ofBits_f32_one]
  exact if_congr Iff.rfl rfl rfl

/-! ## The same two facts over the names `pooled` and `counts`

`out_eq_tail` leaves the pooled sums and the counts under these two names; the entry lemmas above
are restated over them, at the reference's own hidden features. -/

/-- The pooled sums are the segment sum of the hidden features' rows into a zero table. -/
theorem pooled_def (x0 : FVec Ideal S50000x128 .f32) (x1 x2 : IVec S1600000 32) (x3 : IVec S50000 32)
    (x4 : FVec Ideal S128x128 .f32) (x5 : FVec Ideal S128 .f32) (x6 : FVec Ideal S128x128 .f32)
    (x7 : FVec Ideal S128 .f32) :
    pooled x0 x1 x2 x3 x4 x5 x6 x7
      = Host.scatterAdd scatter_S64x128_S50000x1_S50000x128_1_0_0_1 (val_main_v68 (F := Ideal))
          (val_main_v69 (F := Ideal) x3) (val_main_v63 (F := Ideal) x0 x1 x2 x4 x5 x6 x7) := rfl

/-- Pooled entry `(g, c)`: the sum of the hidden features' entries `(j, c)` over the nodes of graph `g`. -/
theorem pooled_entry (x0 : FVec Ideal S50000x128 .f32) (x1 x2 : IVec S1600000 32) (x3 : IVec S50000 32)
    (x4 : FVec Ideal S128x128 .f32) (x5 : FVec Ideal S128 .f32) (x6 : FVec Ideal S128x128 .f32)
    (x7 : FVec Ideal S128 .f32) (g : Fin 64) (c : Fin 128) :
    pooled x0 x1 x2 x3 x4 x5 x6 x7 (ix2 g c)
      = ∑ j : Fin 50000, if Cert.Spec.names (x3 (ix1 j)) g
          then val_main_v63 (F := Ideal) x0 x1 x2 x4 x5 x6 x7 (ix2 j c) else 0 :=
  pooled_apply x3 _ g c

/-- The count of graph `g`: the number of its nodes. -/
theorem counts_entry (x3 : IVec S50000 32) (g : Fin 64) :
    counts x3 (ix1 g)
      = (((Finset.univ.filter (fun j : Fin 50000 => Cert.Spec.names (x3 (ix1 j)) g)).card : ℝ) : EReal) :=
  counts_apply x3 g

end Cert.ReferenceIdeal.RefPool

end
-- ==== Proof.KernelTail.lean ====
import proofs.«407923_j19954418057675_3_alg».proof.Proof.Gen.KernelIdeal.Launch
import proofs.«407923_j19954418057675_3_alg».proof.Proof.RefPool
import Idealize.ShloMosaic.Lib.StableHlo.Run

/-!
# The kernel's pooling tail

After its last region the kernel's host program counts the nodes of each graph with an integer
segment sum of ones (the node numbers first clamped below at zero, then wrapped as a table index),
converts the counts to floats, takes the first 64 rows of the region's pooled block, and then runs
the same last stretch as the reference: clamp the counts below at one, spread them along the rows,
divide, multiply by the column, add the bias, drop the unit axis. This file reads the value the
host program leaves in its result, from any starting contents, as the reference's `tail` of that
slice and those counts.
-/

noncomputable section

open Idealize.ShloMosaic Idealize.ShloMosaic.StableHlo Cert.KernelIdeal Cert.KernelIdeal.Gen Cert.KernelIdeal.Facts₀ Cert.KernelIdeal.Facts

namespace Cert.KernelIdeal.KernelTail

variable {F : FTy → Type} [FloatOps F]

/-! ## The counts, as the kernel computes them -/

/-- The node numbers clamped below at zero. -/
def clipped (x3 : IVec S50000 32) : IVec S50000 32 :=
  maxsi (broadcastInDim S50000 ![] Facts₀.bcast_S_S50000 (constantI S_ 32 0#32)) x3

/-- The clamped numbers as table indices: a negative one is moved up by the table's 64 rows. -/
def binIdx (x3 : IVec S50000 32) : IVec S50000 32 :=
  select (cmpi .slt (clipped x3) (broadcastInDim S50000 ![] Facts₀.bcast_S_S50000 (constantI S_ 32 0#32)))
    (addi (clipped x3) (broadcastInDim S50000 ![] Facts₀.bcast_S_S50000 (constantI S_ 32 64#32))) (clipped x3)

/-- The counts: the integer segment sum of ones into a zero table, converted to floats. -/
def kcounts (x3 : IVec S50000 32) : FVec F S64 .f32 :=
  sitofp .f32 (Host.scatter scatter_S64_S50000x1_S50000_n_0_0_1 IntOp.addi
    (broadcastInDim S64 ![] Facts₀.bcast_S_S64 (constantI S_ 32 0#32))
    (broadcastInDim S50000x1 ![0] Facts₀.bcast_S50000_S50000x1_0 (binIdx x3))
    (broadcastInDim S50000 ![] Facts₀.bcast_S_S50000 (constantI S_ 32 1#32)))

/-! ## The result of the last host operations -/

set_option maxHeartbeats 4000000 in
/-- From any contents `Vin`, the last thirty host operations leave in the result the reference's tail of
    the first 64 rows of the pooled block, the kernel's counts, the column and the bias. -/
theorem out_eq_tail (Vin : Valuation τ sig (Elt F)) :
    StableHlo.after hostOps3_2 (StableHlo.after hostOps3_1 (StableHlo.after hostOps3 Vin)) (Proc.devRef .tc main_v63)
      = Cert.ReferenceIdeal.RefPool.tail (F := F)
          (extractStridedSlice S64x128 ![0, 0] (Vin (Proc.devRef .tc main_v41)) Facts₀.slices_S128x128_S64x128_0_0)
          (kcounts (Vin (Proc.devRef .tc main_arg3)))
          (Vin (Proc.devRef .tc main_arg8)) (Vin (Proc.devRef .tc main_arg9)) := by
  simp only [hostOps3, hostOps3_1, hostOps3_2]
  after_results
  simp only [TRef.ofBuf, TRef.toBuf, cast_eq]
  unfold Cert.ReferenceIdeal.RefPool.tail kcounts binIdx clipped
  rfl

end Cert.KernelIdeal.KernelTail

end
-- ==== Proof.LibScatterCount.lean ====
import proofs.«407923_j19954418057675_3_alg».proof.Proof.LibScatterGather
import Idealize.ShloMosaic.Lib.StableHlo.Predicate
import Mathlib.Data.BitVec
import Mathlib.Algebra.BigOperators.Fin
import Mathlib.Algebra.BigOperators.Ring.Finset

/-!
# The host's integer accumulating scatter, read at an index

The host applies the updates of a scatter one after another, in row-major order of the update's
positions. When the combining function is word addition (two's-complement addition of a fixed width,
which wraps), each step adds the update's word to the table entry it lands on and leaves every other
entry alone. Addition is associative, so the steps collect: every table entry ends as its initial word
plus the sum of the update words that land on it, and the sum over the row-major list of positions is
the sum over all update positions. When every update is the word one and the table starts at zero,
that sum is the NUMBER of updates landing on the entry, as long as the number fits below 2³¹ (then the
word read as a signed number is the count itself): a histogram of the index column. This file states
the sum for an arbitrary scatter and the count for a table of single entries indexed by a column of
`M` positions, over arbitrary extents.
-/

noncomputable section

open scoped BigOperators
open Idealize.ShloMosaic Idealize.ShloMosaic.ValueIdx

namespace Cert.Lib

/-! ## A fold whose steps add -/

/-- A left fold over a list `L` in which step `n` adds `c n i` to entry `i` of the running table, whatever
    the table holds, ends at entry `i` with the initial entry plus `∑ n ∈ L, c n i` (in list order; only
    associativity of `+` and `x + 0 = x` are used). -/
theorem foldl_add_apply {A ι κ : Type*} [AddMonoid A] (step : (ι → A) → κ → ι → A) (c : κ → ι → A)
    (hstep : ∀ r n i, step r n i = r i + c n i) (L : List κ) (x : ι → A) (i : ι) :
    L.foldl step x i = x i + (L.map fun n => c n i).sum := by
  induction L generalizing x with
  | nil => simp
  | cons n L ih => rw [List.foldl_cons, ih, hstep, List.map_cons, List.sum_cons, add_assoc]

/-! ## The integer accumulating scatter at an entry -/

section Scatter
variable {s si u : Shape} {w v : Nat}

/-- THE INTEGER ACCUMULATING SCATTER AT AN ENTRY: the table's word plus the sum (of words, wrapping) of the
    update words whose position lands on the entry; an update landing outside the table adds nothing. -/
theorem scatter_addi_apply (d : ScatterDims s si u) (x : s.Idx → BitVec v) (idx : IVec si w)
    (upd : u.Idx → BitVec v) (i : s.Idx) :
    Host.scatter d IntOp.addi x idx upd i
      = x i + ∑ j : u.Idx, if d.resultIdx? j idx = some i then upd j else 0 := by
  unfold Host.scatter
  rw [foldl_add_apply _
    (fun n i => if d.resultIdx? (u.rowMajor.symm n) idx = some i then upd (u.rowMajor.symm n) else 0) ?_]
  · congr 1
    rw [← Fin.sum_univ_def]
    exact Equiv.sum_comp u.rowMajor.symm (fun j => if d.resultIdx? j idx = some i then upd j else 0)
  · intro r n i'
    cases h : d.resultIdx? (u.rowMajor.symm n) idx with
    | none => simp
    | some k =>
      by_cases e : i' = k
      · subst e; simp [IntOp.addi]
      · have ne : ¬ (some k = some i') := fun hk => e (Option.some.inj hk).symm
        simp [e, ne]

end Scatter

/-! ## A histogram: ones scattered into a table of zeros -/

/-- THE COUNT: scattering the word one from each of `M` positions into a table of `N` zeros, position `e` going
    to the entry its number names, leaves at entry `g` the number of positions whose number is `g` (`M` below 2³¹,
    so the count, at most `M`, is a non-negative signed word and does not wrap). -/
theorem entryScatter_addi_count {N M : Nat} (wf : ScatterDims.WF ⟨1, ![N]⟩ ⟨2, ![M, 1]⟩ ⟨1, ![M]⟩ [] [0] [0] 1)
    (hM : M < 2 ^ 31) (idx : IVec ⟨2, ![M, 1]⟩ 32) (g : Fin N) :
    (Host.scatter (entryScatter N M wf) IntOp.addi (fun _ => 0#32) idx (fun _ => 1#32) (ix1 g)).toInt
      = ((Finset.univ.filter (fun e : Fin M => (idx (ix2 e (0 : Fin 1))).toInt = (g.val : Int))).card : Int) := by
  rw [scatter_addi_apply, sum_idx1]
  simp only [entryScatter_lands wf idx _ g]
  rw [BitVec.zero_add, show (1#32 : BitVec 32) = 1 from rfl, Finset.sum_boole, BitVec.natCast_eq_ofNat]
  exact StableHlo.Predicate.toInt_ofNat_small _
    (lt_of_le_of_lt ((Finset.card_le_univ _).trans (Fintype.card_fin M).le) hM)

end Cert.Lib

end
-- ==== Proof.KernelCounts.lean ====
import proofs.«407923_j19954418057675_3_alg».proof.Proof.Gen.KernelIdeal
import proofs.«407923_j19954418057675_3_alg».proof.Proof.Spec
import proofs.«407923_j19954418057675_3_alg».proof.Proof.LibScatterCount
import proofs.«407923_j19954418057675_3_alg».proof.Proof.LibIdealReal
import Idealize.ShloMosaic.Lib.ValueIdx

/-!
# The sizes of the graphs, as the kernel counts them

Every node carries the number of the graph it belongs to, and the kernel needs, for each of 64 graphs,
how many nodes it has. It takes a histogram of the numbers: a number below zero is first raised to
zero; a number still below zero would then be moved up by 64 (the wrap of a negative position; after
the raise there is none left); a one is added, as a 32-bit word, into the bin each number names, in a
table of 64 zeros; and the word in each bin is read as a real. On numbers that are non-negative the
raise and the wrap change nothing, so bin `g` ends with the number of nodes whose number is `g`
(at most 50000, far from where word addition wraps). A node whose number is 64 or more falls into
no bin, and names no graph either.
-/

noncomputable section

open scoped BigOperators
open Idealize.ShloMosaic Idealize.ShloMosaic.ValueIdx

namespace Cert.KernelIdeal.KernelCounts

open Cert.KernelIdeal Cert.KernelIdeal.Facts₀ Cert.KernelIdeal.Facts

variable {F : FTy → Type} [FloatOps F]

/-- The graph numbers with every negative number raised to zero: the signed maximum with zero. -/
def clipped (x3 : IVec S50000 32) : IVec S50000 32 :=
  maxsi (broadcastInDim S50000 ![] bcast_S_S50000 (constantI S_ 32 0#32)) x3

/-- The raised numbers with a negative one moved up by the number of bins, 64 (the wrap of a negative position). -/
def binIdx (x3 : IVec S50000 32) : IVec S50000 32 :=
  select (cmpi .slt (clipped x3) (broadcastInDim S50000 ![] bcast_S_S50000 (constantI S_ 32 0#32)))
    (addi (clipped x3) (broadcastInDim S50000 ![] bcast_S_S50000 (constantI S_ 32 64#32))) (clipped x3)

/-- A one from every node added into the bin its number names, in a table of 64 zeros; each bin read as a real. -/
def counts (x3 : IVec S50000 32) : FVec F S64 .f32 :=
  sitofp .f32 (Host.scatter scatter_S64_S50000x1_S50000_n_0_0_1 IntOp.addi
    (broadcastInDim S64 ![] bcast_S_S64 (constantI S_ 32 0#32))
    (broadcastInDim S50000x1 ![0] bcast_S50000_S50000x1_0 (binIdx x3))
    (broadcastInDim S50000 ![] bcast_S_S50000 (constantI S_ 32 1#32)))

/-- A word that is non-negative as a signed number is not below zero in the signed order. -/
theorem slt_zero_of_nonneg (v : BitVec 32) (h : 0 ≤ v.toInt) : v.slt 0#32 = false := by
  rw [BitVec.slt, show (0#32 : BitVec 32).toInt = 0 from rfl]
  exact decide_eq_false (not_lt.mpr h)

/-- A word that is non-negative as a signed number is its own signed maximum with zero. -/
theorem maxsi_zero_of_nonneg (v : BitVec 32) (h : 0 ≤ v.toInt) : IntOp.maxsi 0#32 v = v := by
  unfold IntOp.maxsi
  rw [slt_zero_of_nonneg v h]
  exact if_neg (by decide)

/-- On a non-negative number the raise to zero and the wrap both do nothing: the bin position is the number. -/
theorem binIdx_apply (x3 : IVec S50000 32) (j : Fin 50000) (h : 0 ≤ (x3 (ix1 j)).toInt) :
    binIdx x3 (ix1 j) = x3 (ix1 j) := by
  have hc : clipped x3 (ix1 j) = x3 (ix1 j) := maxsi_zero_of_nonneg _ h
  show Scalar.select (IntOp.cmpi .slt (clipped x3 (ix1 j)) 0#32) (IntOp.addi (clipped x3 (ix1 j)) 64#32)
    (clipped x3 (ix1 j)) = x3 (ix1 j)
  rw [hc]
  show Scalar.select (BitVec.ofBool ((x3 (ix1 j)).slt 0#32)) _ _ = _
  rw [slt_zero_of_nonneg _ h]
  exact select_zero _ _

/-- A vector laid out as a column reads, at `(p, 0)`, the vector at `p`. -/
theorem bcastCol_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- THE COUNTS AT A BIN: on non-negative graph numbers, bin `g` holds the number of nodes whose number is `g`. -/
theorem counts_apply (x3 : IVec S50000 32) (h : ∀ j : Fin 50000, 0 ≤ (x3 (ix1 j)).toInt) (g : Fin 64) :
    counts (F := Ideal) x3 (ix1 g)
      = (((Finset.univ.filter (fun j : Fin 50000 => Cert.Spec.names (x3 (ix1 j)) g)).card : ℝ) : EReal) := by
  have hd : scatter_S64_S50000x1_S50000_n_0_0_1
      = Cert.Lib.entryScatter 64 50000 scatter_S64_S50000x1_S50000_n_0_0_1_wf := rfl
  have hz : broadcastInDim S64 ![] bcast_S_S64 (constantI S_ 32 0#32) = fun _ => 0#32 := rfl
  have ho : broadcastInDim S50000 ![] bcast_S_S50000 (constantI S_ 32 1#32) = fun _ => 1#32 := rfl
  -- a node's bin position, read in the column, is its own number; so landing on bin `g` is naming graph `g`
  have hfilter : (Finset.univ.filter (fun e : Fin 50000 =>
        (broadcastInDim S50000x1 ![0] bcast_S50000_S50000x1_0 (binIdx x3) (ix2 e (0 : Fin 1))).toInt = (g.val : Int)))
      = Finset.univ.filter (fun j : Fin 50000 => Cert.Spec.names (x3 (ix1 j)) g) := by
    refine Finset.filter_congr fun e _ => ?_
    rw [bcastCol_apply, binIdx_apply x3 e (h e)]
    exact Iff.rfl
  -- the bin as a signed word is the count
  have hint : (Host.scatter scatter_S64_S50000x1_S50000_n_0_0_1 IntOp.addi
        (broadcastInDim S64 ![] bcast_S_S64 (constantI S_ 32 0#32))
        (broadcastInDim S50000x1 ![0] bcast_S50000_S50000x1_0 (binIdx x3))
        (broadcastInDim S50000 ![] bcast_S_S50000 (constantI S_ 32 1#32)) (ix1 g)).toInt
      = ((Finset.univ.filter (fun j : Fin 50000 => Cert.Spec.names (x3 (ix1 j)) g)).card : Int) := by
    rw [hd, hz, ho, Cert.Lib.entryScatter_addi_count _ (by decide), hfilter]
  -- and the real it is read as is that integer
  show (((Host.scatter scatter_S64_S50000x1_S50000_n_0_0_1 IntOp.addi
        (broadcastInDim S64 ![] bcast_S_S64 (constantI S_ 32 0#32))
        (broadcastInDim S50000x1 ![0] bcast_S50000_S50000x1_0 (binIdx x3))
        (broadcastInDim S50000 ![] bcast_S_S50000 (constantI S_ 32 1#32)) (ix1 g)).toInt : ℝ) : EReal) = _
  rw [hint, Int.cast_natCast]

end Cert.KernelIdeal.KernelCounts

end
-- ==== Proof.RefLayers.lean ====
import proofs.«407923_j19954418057675_3_alg».proof.Proof.RefRead
import proofs.«407923_j19954418057675_3_alg».proof.Proof.Spec
import proofs.«407923_j19954418057675_3_alg».proof.Proof.LibScatterGather
import Idealize.ShloMosaic.Lib.StableHlo.Predicate

/-!
# The reference's two graph-convolution layers, read at an entry

The reference joins the self loops to the two edge lists (`1650000` edges over `50000` nodes). Each node's degree
is the number of edges whose target word, read signed, is the node's number; `dinv` is `1 / √(max degree 1)` where
the degree is positive and `0` elsewhere. One layer forms the rows `h · W`, looks up for every edge the row of its
source, scales it by the edge's weight `dinv (source) · dinv (target)`, adds the scaled rows into the nodes the target
words name, adds the bias and clamps at zero.

Two readings of an edge's words occur. An accumulating scatter sends edge `e`'s row to node `j` exactly when the raw
target word is `j`'s number (a word outside the table lands nowhere); a lookup reads the table at the word wrapped
once by the table's height and then clamped into the table. Whenever the raw target word names node `j`, the wrapped
and clamped word is `j` as well.

This file reads the stages at an entry `(j, c)` and identifies the result after two layers with `Cert.Spec.refH2`
over: the edges hitting `j` (`Cert.Spec.names (dstW e) j`), the source rows `srcRow`, the target rows `dstRow`, and the
per-node factors `dinv`; it proves that a target word naming `j` is read at row `j`, and that every `dinv` is a real
number (the inverse square root of a count clamped below at one, or zero).
-/

noncomputable section

open scoped BigOperators
open Cert.ReferenceIdeal Cert.ReferenceIdeal.Gen Cert.ReferenceIdeal.Read
open Idealize.ShloMosaic Idealize.ShloMosaic.ValueIdx Idealize.ShloMosaic.StableHlo

namespace Cert.ReferenceIdeal.RefLayers

/-- A table of ideal `f32` values of shape `S`. -/
abbrev Tf (S : Shape) : Type := (⟨S, .f32⟩ : BufTy).Contents (Elt Ideal)
/-- A table of 32-bit integer words of shape `S`. -/
abbrev Ti (S : Shape) : Type := (⟨S, .i32⟩ : BufTy).Contents (Elt Ideal)

/-! ## Indices and dimension records -/

/-- The one-axis index at `e`, in both spellings. -/
theorem ix1_eq_ofFin {n : Nat} (e : Fin n) : (ix1 e : (⟨1, ![n]⟩ : Shape).Idx) = Shape.Idx.ofFin e := by
  funext d; match d with | ⟨0, _⟩ => rfl

/-- Row `e` of a one-column table, in both spellings. -/
theorem ix2_zero_eq_ixP {n : Nat} (e : Fin n) :
    (ix2 e (0 : Fin 1) : (⟨2, ![n, 1]⟩ : Shape).Idx) = Predicate.ixP e := by
  funext d; match d with | ⟨0, _⟩ => rfl | ⟨1, _⟩ => rfl

/-- The program's row scatter has the dimension numbers of a scatter of rows by a column of row numbers. -/
theorem rowScatter_eq :
    scatter_S50000x128_S1650000x1_S1650000x128_1_0_0_1
      = Cert.Lib.rowScatter 50000 1650000 128 scatter_S50000x128_S1650000x1_S1650000x128_1_0_0_1_wf := rfl

/-- The program's row gather has the dimension numbers of a lookup of rows by a column of row numbers. -/
theorem rowGather_eq :
    gather_S50000x128_S1650000x1_S1650000x128_1_0_n_n_0_1_1128
      = Cert.Lib.rowGather 50000 1650000 128 gather_S50000x128_S1650000x1_S1650000x128_1_0_n_n_0_1_1128_wf := rfl

/-- The program's entry scatter has the dimension numbers of a scatter of single entries by a column of positions. -/
theorem entryScatter_eq :
    scatter_S50000_S1650000x1_S1650000_n_0_0_1
      = Cert.Lib.entryScatter 50000 1650000 scatter_S50000_S1650000x1_S1650000_n_0_0_1_wf := rfl

/-! ## The host's scatter and gathers, read at an entry -/

/-- At the ideal values the host's accumulating row scatter is the exact one. -/
theorem scatterAdd_eq (z : Tf S50000x128) (di : Ti S1650000x1) (u : Tf S1650000x128) :
    (Host.scatterAdd (F := Ideal) (φ := .f32) scatter_S50000x128_S1650000x1_S1650000x128_1_0_0_1 z di u : Tf S50000x128)
      = Ideal.hostScatterAdd scatter_S50000x128_S1650000x1_S1650000x128_1_0_0_1 z di u := rfl

/-- The accumulating row scatter at an entry: the table's entry plus the entries, in the same column, of the update
    rows whose word is `j`'s number. -/
theorem rowScatterAdd_at (z : Tf S50000x128) (di : Ti S1650000x1) (u : Tf S1650000x128) (j : Fin 50000) (c : Fin 128) :
    Ideal.hostScatterAdd scatter_S50000x128_S1650000x1_S1650000x128_1_0_0_1 z di u (ix2 j c)
      = z (ix2 j c) + ∑ e : Fin 1650000, if (di (ix2 e (0 : Fin 1))).toInt = (j.val : Int) then u (ix2 e c) else 0 := by
  rw [rowScatter_eq, Cert.Lib.rowScatterAdd_apply]

/-- The row lookup at an entry: the table's row at the word clamped into the table. -/
theorem rowGather_at (T : Tf S50000x128) (si : Ti S1650000x1) (e : Fin 1650000) (c : Fin 128) :
    (Host.gather gather_S50000x128_S1650000x1_S1650000x128_1_0_n_n_0_1_1128 T si : Tf S1650000x128) (ix2 e c)
      = T (ix2 (Cert.Spec.rowOf 50000 (by decide) (si (ix2 e (0 : Fin 1)))) c) := by
  rw [rowGather_eq, Cert.Lib.rowGather_apply (by decide)]
  rfl

/-- The entry lookup: the table's entry at the word clamped into the table. -/
theorem take_apply (t : Tf S50000) (idx : Ti S1650000x1) (e : Fin 1650000) :
    Host.gather gather_S50000_S1650000x1_S1650000_n_0_n_n_0_1_1 t idx (ix1 e)
      = t (ix1 (Cert.Spec.rowOf 50000 (by decide) (idx (ix2 e (0 : Fin 1))))) := by
  have h := Predicate.gather_take gather_S50000_S1650000x1_S1650000_n_0_n_n_0_1_1 rfl rfl rfl rfl t idx e (by decide)
  rw [← ix1_eq_ofFin, ← ix1_eq_ofFin] at h
  rw [ix2_zero_eq_ixP]
  exact h

/-! ## The edge words, the rows they are read at, and the per-node factor -/

/-- The raw target word of edge `e`. -/
def dstW (x2 : Ti S1600000) (e : Fin 1650000) : BitVec 32 := val_main_v2 (F := Ideal) x2 (ix1 e)

/-- The row edge `e`'s source is read at: the wrapped source word, clamped into the table. -/
def srcRow (x1 : Ti S1600000) (e : Fin 1650000) : Fin 50000 :=
  Cert.Spec.rowOf 50000 (by decide) (val_main_v33 (F := Ideal) x1 (ix1 e))

/-- The row edge `e`'s target is read at: the wrapped target word, clamped into the table. -/
def dstRow (x2 : Ti S1600000) (e : Fin 1650000) : Fin 50000 :=
  Cert.Spec.rowOf 50000 (by decide) (val_main_v24 (F := Ideal) x2 (ix1 e))

/-- The inverse square root of node `i`'s degree (zero for an isolated node). -/
def dinv (x2 : Ti S1600000) (i : Fin 50000) : EReal := val_main_v12 (F := Ideal) x2 (ix1 i)

/-- The three wrapped source words are one word. -/
theorem v17_eq_v33 (x1 : Ti S1600000) : val_main_v17 (F := Ideal) x1 = val_main_v33 (F := Ideal) x1 := rfl
/-- Likewise the word layer 2 looks its rows up by. -/
theorem v51_eq_v33 (x1 : Ti S1600000) : val_main_v51 (F := Ideal) x1 = val_main_v33 (F := Ideal) x1 := rfl

/-! ### A vector of words as a one-column table, read at row `e` -/

theorem v18_col (x1 : Ti S1600000) (e : Fin 1650000) :
    val_main_v18 (F := Ideal) x1 (ix2 e (0 : Fin 1)) = val_main_v33 (F := Ideal) x1 (ix1 e) := by
  rw [val_main_v18_apply, v17_eq_v33]
  exact congrArg _ (funext fun a => match a with | ⟨0, _⟩ => rfl)

theorem v34_col (x1 : Ti S1600000) (e : Fin 1650000) :
    val_main_v34 (F := Ideal) x1 (ix2 e (0 : Fin 1)) = val_main_v33 (F := Ideal) x1 (ix1 e) := by
  rw [val_main_v34_apply]
  exact congrArg _ (funext fun a => match a with | ⟨0, _⟩ => rfl)

theorem v52_col (x1 : Ti S1600000) (e : Fin 1650000) :
    val_main_v52 (F := Ideal) x1 (ix2 e (0 : Fin 1)) = val_main_v33 (F := Ideal) x1 (ix1 e) := by
  rw [val_main_v52_apply, v51_eq_v33]
  exact congrArg _ (funext fun a => match a with | ⟨0, _⟩ => rfl)

theorem v25_col (x2 : Ti S1600000) (e : Fin 1650000) :
    val_main_v25 (F := Ideal) x2 (ix2 e (0 : Fin 1)) = val_main_v24 (F := Ideal) x2 (ix1 e) := by
  rw [val_main_v25_apply]
  exact congrArg _ (funext fun a => match a with | ⟨0, _⟩ => rfl)

theorem v5_col (x2 : Ti S1600000) (e : Fin 1650000) :
    val_main_v5 (F := Ideal) x2 (ix2 e (0 : Fin 1)) = dstW x2 e := by
  rw [val_main_v5_apply]
  exact congrArg _ (funext fun a => match a with | ⟨0, _⟩ => rfl)

theorem v40_col (x2 : Ti S1600000) (e : Fin 1650000) :
    val_main_v40 (F := Ideal) x2 (ix2 e (0 : Fin 1)) = dstW x2 e := by
  rw [val_main_v40_apply]
  exact congrArg _ (funext fun a => match a with | ⟨0, _⟩ => rfl)

theorem v58_col (x2 : Ti S1600000) (e : Fin 1650000) :
    val_main_v58 (F := Ideal) x2 (ix2 e (0 : Fin 1)) = dstW x2 e := by
  rw [val_main_v58_apply]
  exact congrArg _ (funext fun a => match a with | ⟨0, _⟩ => rfl)

/-! ### The edge weight: the product of the two ends' factors -/

theorem v27_at (x1 x2 : Ti S1600000) (e : Fin 1650000) :
    val_main_v27 (F := Ideal) x1 x2 (ix1 e) = dinv x2 (srcRow x1 e) * dinv x2 (dstRow x2 e) := by
  rw [val_main_v27_apply, Ideal.mulf_def]
  unfold val_main_v19 val_main_v26
  rw [take_apply, take_apply, v18_col, v25_col]
  rfl

theorem v37_at (x1 x2 : Ti S1600000) (e : Fin 1650000) (c : Fin 128) :
    val_main_v37 (F := Ideal) x1 x2 (ix2 e c) = dinv x2 (srcRow x1 e) * dinv x2 (dstRow x2 e) := by
  rw [val_main_v37_apply, val_main_v36_apply, ← v27_at]
  exact congrArg _ (funext fun a => match a with | ⟨0, _⟩ => rfl)

theorem v55_at (x1 x2 : Ti S1600000) (e : Fin 1650000) (c : Fin 128) :
    val_main_v55 (F := Ideal) x1 x2 (ix2 e c) = dinv x2 (srcRow x1 e) * dinv x2 (dstRow x2 e) := by
  rw [val_main_v55_apply, val_main_v54_apply, ← v27_at]
  exact congrArg _ (funext fun a => match a with | ⟨0, _⟩ => rfl)

/-! ### The zero tables and the bias rows -/

theorem v39_zero (i : S50000x128.Idx) : val_main_v39 (F := Ideal) i = 0 := by
  rw [val_main_v39_apply, val_main_cst_9_apply]; exact Ideal.ofBits_zero_f32
theorem v57_zero (i : S50000x128.Idx) : val_main_v57 (F := Ideal) i = 0 := by
  rw [val_main_v57_apply, val_main_cst_12_apply]; exact Ideal.ofBits_zero_f32
theorem call1_v0_zero (i : S50000x128.Idx) : val_main_call1_v0 (F := Ideal) i = 0 := by
  rw [val_main_call1_v0_apply, val_main_call1_cst_apply]; exact Ideal.ofBits_zero_f32
theorem call2_v0_zero (i : S50000x128.Idx) : val_main_call2_v0 (F := Ideal) i = 0 := by
  rw [val_main_call2_v0_apply, val_main_call2_cst_apply]; exact Ideal.ofBits_zero_f32

theorem v43_at (x5 : Tf S128) (j : Fin 50000) (c : Fin 128) :
    val_main_v43 (F := Ideal) x5 (ix2 j c) = x5 (ix1 c) := by
  rw [val_main_v43_apply, val_main_v42_apply]
  exact congrArg x5 (funext fun a => match a with | ⟨0, _⟩ => rfl)

theorem v61_at (x7 : Tf S128) (j : Fin 50000) (c : Fin 128) :
    val_main_v61 (F := Ideal) x7 (ix2 j c) = x7 (ix1 c) := by
  rw [val_main_v61_apply, val_main_v60_apply]
  exact congrArg x7 (funext fun a => match a with | ⟨0, _⟩ => rfl)

/-! ### The two products with the weight matrices -/

theorem v28_at (x0 : Tf S50000x128) (x4 : Tf S128x128) (i : Fin 50000) (c : Fin 128) :
    val_main_v28 (F := Ideal) x0 x4 (ix2 i c) = ∑ k : Fin 128, x0 (ix2 i k) * x4 (ix2 k c) := by
  rw [val_main_v28_apply]
  refine Finset.sum_congr rfl fun k _ => ?_
  have el : lidx_main_v28 (ix2 i c) k = ix2 i k := funext fun a => match a with | ⟨0, _⟩ => rfl | ⟨1, _⟩ => rfl
  have er : ridx_main_v28 (ix2 i c) k = ix2 k c := funext fun a => match a with | ⟨0, _⟩ => rfl | ⟨1, _⟩ => rfl
  rw [el, er]

/-! ## Layer 1 -/

/-- The edges that hit node `j`: those whose raw target word is `j`'s number. -/
abbrev hit (x2 : Ti S1600000) (e : Fin 1650000) (j : Fin 50000) : Prop := Cert.Spec.names (dstW x2 e) j

/-- The accumulated rows of layer 1: over the edges that hit `j`, the product row of the edge's source
    times the edge's weight. -/
theorem v41_at (x0 : Tf S50000x128) (x1 x2 : Ti S1600000) (x4 : Tf S128x128) (j : Fin 50000) (c : Fin 128) :
    val_main_v41 (F := Ideal) x0 x1 x2 x4 (ix2 j c)
      = Cert.Spec.seg (hit x2) (fun e c => Cert.Spec.rowsMul (fun i k => x0 (ix2 i k)) (fun k c => x4 (ix2 k c)) (srcRow x1 e) c
          * (dinv x2 (srcRow x1 e) * dinv x2 (dstRow x2 e))) j c := by
  unfold val_main_v41 val_main_v38 val_main_v35
  rw [scatterAdd_eq, rowScatterAdd_at, v39_zero, zero_add]
  unfold Cert.Spec.seg Cert.Spec.rowsMul
  refine Finset.sum_congr rfl fun e _ => ?_
  rw [v40_col, mulf_apply, rowGather_at, v34_col, v37_at, v28_at]
  rfl

theorem h1_apply (x0 : Tf S50000x128) (x1 x2 : Ti S1600000) (x4 : Tf S128x128) (x5 : Tf S128) (j : Fin 50000) (c : Fin 128) :
    val_main_v45 (F := Ideal) x0 x1 x2 x4 x5 (ix2 j c)
      = Cert.Spec.refLayer (hit x2) (srcRow x1) (dstRow x2) (dinv x2)
          (fun i k => x0 (ix2 i k)) (fun k c => x4 (ix2 k c)) (fun c => x5 (ix1 c)) j c := by
  rw [val_main_v45_apply, val_main_v44_apply, Ideal.maximumf_def, Ideal.addf_def, call1_v0_zero, v43_at, v41_at]
  rfl

/-! ## Layer 2 -/

theorem v46_at (x0 : Tf S50000x128) (x1 x2 : Ti S1600000) (x4 : Tf S128x128) (x5 : Tf S128) (x6 : Tf S128x128)
    (i : Fin 50000) (c : Fin 128) :
    val_main_v46 (F := Ideal) x0 x1 x2 x4 x5 x6 (ix2 i c)
      = ∑ k : Fin 128, val_main_v45 (F := Ideal) x0 x1 x2 x4 x5 (ix2 i k) * x6 (ix2 k c) := by
  rw [val_main_v46_apply]
  refine Finset.sum_congr rfl fun k _ => ?_
  have el : lidx_main_v46 (ix2 i c) k = ix2 i k := funext fun a => match a with | ⟨0, _⟩ => rfl | ⟨1, _⟩ => rfl
  have er : ridx_main_v46 (ix2 i c) k = ix2 k c := funext fun a => match a with | ⟨0, _⟩ => rfl | ⟨1, _⟩ => rfl
  rw [el, er]

theorem v59_at (x0 : Tf S50000x128) (x1 x2 : Ti S1600000) (x4 : Tf S128x128) (x5 : Tf S128) (x6 : Tf S128x128)
    (j : Fin 50000) (c : Fin 128) :
    val_main_v59 (F := Ideal) x0 x1 x2 x4 x5 x6 (ix2 j c)
      = Cert.Spec.seg (hit x2) (fun e c => Cert.Spec.rowsMul (fun i k => val_main_v45 (F := Ideal) x0 x1 x2 x4 x5 (ix2 i k))
            (fun k c => x6 (ix2 k c)) (srcRow x1 e) c
          * (dinv x2 (srcRow x1 e) * dinv x2 (dstRow x2 e))) j c := by
  unfold val_main_v59 val_main_v56 val_main_v53
  rw [scatterAdd_eq, rowScatterAdd_at, v57_zero, zero_add]
  unfold Cert.Spec.seg Cert.Spec.rowsMul
  refine Finset.sum_congr rfl fun e _ => ?_
  rw [v58_col, mulf_apply, rowGather_at, v52_col, v55_at, v46_at]
  rfl

theorem h2_apply (x0 : Tf S50000x128) (x1 x2 : Ti S1600000) (x4 : Tf S128x128) (x5 : Tf S128) (x6 : Tf S128x128)
    (x7 : Tf S128) (j : Fin 50000) (c : Fin 128) :
    val_main_v63 (F := Ideal) x0 x1 x2 x4 x5 x6 x7 (ix2 j c)
      = Cert.Spec.refH2 (fun e j => Cert.Spec.names (dstW x2 e) j) (srcRow x1) (dstRow x2) (dinv x2)
          (fun i k => x0 (ix2 i k)) (fun k c => x4 (ix2 k c)) (fun c => x5 (ix1 c))
          (fun k c => x6 (ix2 k c)) (fun c => x7 (ix1 c)) j c := by
  rw [val_main_v63_apply, val_main_v62_apply, Ideal.maximumf_def, Ideal.addf_def, call2_v0_zero, v61_at, v59_at]
  have hh : (fun i k => val_main_v45 (F := Ideal) x0 x1 x2 x4 x5 (ix2 i k))
      = Cert.Spec.refLayer (hit x2) (srcRow x1) (dstRow x2) (dinv x2)
          (fun i k => x0 (ix2 i k)) (fun k c => x4 (ix2 k c)) (fun c => x5 (ix1 c)) :=
    funext fun i => funext fun k => h1_apply x0 x1 x2 x4 x5 i k
  rw [hh]
  rfl

/-! ## A target word that names a row is read at that row -/

theorem dstRow_of_names (x2 : Ti S1600000) (e : Fin 1650000) (j : Fin 50000)
    (h : Cert.Spec.names (dstW x2 e) j) : dstRow x2 e = j := by
  have hv : val_main_v24 (F := Ideal) x2 (ix1 e) = dstW x2 e := by
    rw [val_main_v24_apply, val_main_v21_apply, val_main_v20_apply, val_main_c_5_apply]
    have hnn : ¬ (IntOp.cmpi .slt (val_main_v2 (F := Ideal) x2 (ix1 e)) 0#32 = 1#1) := by
      have h' : (val_main_v2 (F := Ideal) x2 (ix1 e)).toInt = (j.val : Int) := h
      have h0 : (0#32 : BitVec 32).toInt = 0 := by decide
      unfold IntOp.cmpi
      simp only [Predicate.ofBool_eq_one_iff, BitVec.slt, decide_eq_true_eq, h', h0]
      omega
    unfold Scalar.select
    exact if_neg hnn
  unfold dstRow
  rw [hv]
  exact Cert.Spec.rowOf_of_names (by decide) _ j h

/-! ## The per-node factor is a real number -/

theorem v3_one (i : S1650000.Idx) : val_main_v3 (F := Ideal) i = 1 := by
  rw [val_main_v3_apply, val_main_cst_apply]; exact Cert.Lib.ofBits_f32_one
theorem v4_zero (i : S50000.Idx) : val_main_v4 (F := Ideal) i = 0 := by
  rw [val_main_v4_apply, val_main_cst_0_apply]; exact Ideal.ofBits_zero_f32
theorem v7_zero (i : S50000.Idx) : val_main_v7 (F := Ideal) i = 0 := by
  rw [val_main_v7_apply, val_main_cst_1_apply]; exact Ideal.ofBits_zero_f32
theorem v9_one (i : S50000.Idx) : val_main_v9 (F := Ideal) i = 1 := by
  rw [val_main_v9_apply, val_main_cst_2_apply]; exact Cert.Lib.ofBits_f32_one
theorem call0_v1_zero (i : S50000.Idx) : val_main_call0_v1 (F := Ideal) i = 0 := by
  rw [val_main_call0_v1_apply, val_main_call0_v0_apply, val_main_cst_3_apply]; exact Ideal.ofBits_zero_f32

theorem entryScatterAdd_eq (z : Tf S50000) (di : Ti S1650000x1) (u : Tf S1650000) :
    (Host.scatterAdd (F := Ideal) (φ := .f32) scatter_S50000_S1650000x1_S1650000_n_0_0_1 z di u : Tf S50000)
      = Ideal.hostScatterAdd scatter_S50000_S1650000x1_S1650000_n_0_0_1 z di u := rfl

/-- Node `i`'s degree: the number of edges whose raw target word is `i`'s number. -/
theorem v6_at (x2 : Ti S1600000) (i : Fin 50000) :
    val_main_v6 (F := Ideal) x2 (ix1 i)
      = (((Finset.univ.filter fun e : Fin 1650000 => (dstW x2 e).toInt = (i.val : Int)).card : ℝ) : EReal) := by
  unfold val_main_v6
  rw [entryScatterAdd_eq, entryScatter_eq, Cert.Lib.entryScatterAdd_apply, v4_zero, zero_add]
  simp only [v5_col, v3_one]
  exact Cert.Spec.sum_ones_eq_card _

/-- A word that selects on "greater than zero" is the conditional on that order. -/
theorem select_ogt_zero (a u v : EReal) :
    Scalar.select (FloatOps.cmpf (F := Ideal) (φ := .f32) .ogt a 0) u v = if 0 < a then u else v := by
  unfold Scalar.select
  refine if_congr ?_ rfl rfl
  show BitVec.ofBool (decide ((0 : EReal) < a)) = 1#1 ↔ 0 < a
  rw [Predicate.ofBool_eq_one_iff, decide_eq_true_eq]

theorem dinv_isReal (x2 : Ti S1600000) (i : Fin 50000) : Cert.Lib.IsReal (dinv x2 i) := by
  unfold dinv
  rw [val_main_v12_apply, val_main_v8_apply, val_main_v11_apply, val_main_v10_apply, v6_at, v7_zero, v9_one,
    call0_v1_zero, select_ogt_zero, Ideal.hostUnary_rsqrt_def, Ideal.maximumf_def]
  exact Cert.Spec.dinv_isReal _

end Cert.ReferenceIdeal.RefLayers

end
-- ==== Proof.PreFacts.lean ====
import proofs.«407923_j19954418057675_3_alg».proof.Pre_finite_inputs
import proofs.«407923_j19954418057675_3_alg».proof.Proof.Gen.Pre_finite_inputs
import proofs.«407923_j19954418057675_3_alg».proof.Proof.LibIdealReal
import Idealize.ShloMosaic.Lib.ReduceAll
import Idealize.ShloMosaic.Lib.ValueIdx

/-!
# The precondition, read back

The precondition is one bit: the conjunction of eight universal statements, one per checked input.
For each float input it says that every entry has absolute value `max x (-x)` strictly below `+∞`;
for the integer input it says that every entry is at least `0` as a signed word. This file turns the
statement "that bit is 1" into the eight families of facts it abbreviates: every float entry is a real
number (neither infinity), and every integer entry has a nonnegative signed value.
-/

open Idealize.ShloMosaic Idealize.ShloMosaic.ValueIdx

namespace Cert.PreFacts

open Cert.Pre_finite_inputs

/-- The scalar shape has exactly one index. -/
instance : Subsingleton S_.Idx := ⟨fun a b => funext fun d => d.elim0⟩

/-- The `f32` pattern `0x7F800000` denotes `+∞`. -/
theorem ofBits_f32_inf : Ideal.ofBits .f32 0x7F800000#32 = (⊤ : EReal) := by
  simp [Ideal.ofBits, Ideal.ieee]

/-- An extended real whose absolute value compares strictly below the pattern of `+∞` is real. -/
theorem isReal_of_olt (x : Ideal .f32)
    (h : FloatOps.cmpf (F := Ideal) .olt (FloatOps.hostAbsf x) (FloatOps.ofBits .f32 0x7F800000#32) = 1#1) :
    Cert.Lib.IsReal x := by
  have h' : Ideal.cmp .olt (Max.max (x : EReal) (-x)) (Ideal.ofBits .f32 0x7F800000#32) = 1#1 := h
  rw [ofBits_f32_inf] at h'
  apply Cert.Lib.isReal_of_abs_lt_top
  by_contra hn
  simp [Ideal.cmp, hn] at h'

/-- A 32-bit word that compares signed-greater-or-equal to the zero word has a nonnegative signed value. -/
theorem nonneg_of_sge (x : BitVec 32) (h : IntOp.cmpi .sge x 0#32 = 1#1) : 0 ≤ x.toInt := by
  have := IntOp.cmpi_sge.1 h
  simpa using this

variable [Cert.Pre_finite_inputs.Facts]

/-- The precondition bit being 1 says: every entry of each float input is real, and every entry of
    the integer input is nonnegative. The bit is a conjunction of eight "for all entries" bits; a
    conjunction is 1 exactly when both sides are, and a "for all" bit is 1 only if every entry's is. -/
theorem of_pre (a0 : FVec Ideal S50000x128 .f32) (a1 a2 : IVec S1600000 32) (a3 : IVec S50000 32)
    (a4 : FVec Ideal S128x128 .f32) (a5 : FVec Ideal S128 .f32)
    (a6 : FVec Ideal S128x128 .f32) (a7 : FVec Ideal S128 .f32) (a8 : FVec Ideal S128x1 .f32)
    (a9 : FVec Ideal S1 .f32)
    (h : Cert.Pre_finite_inputs.fn (F := Ideal) a0 a1 a2 a3 a4 a5 a6 a7 a8 a9 = fun _ => 1#1) :
    (∀ i, Cert.Lib.IsReal (a0 i)) ∧ (∀ i, Cert.Lib.IsReal (a4 i)) ∧ (∀ i, Cert.Lib.IsReal (a5 i))
      ∧ (∀ i, Cert.Lib.IsReal (a6 i)) ∧ (∀ i, Cert.Lib.IsReal (a7 i)) ∧ (∀ i, Cert.Lib.IsReal (a8 i))
      ∧ (∀ i, Cert.Lib.IsReal (a9 i)) ∧ (∀ i, 0 ≤ (a3 i).toInt) := by
  have h0 := congrFun h ix0
  dsimp only [fn, fn_part1, fn_part2] at h0
  obtain ⟨h0, e3⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨e0, e4⟩ := IntOp.andi_eq_one.1 h0
  refine ⟨fun i => ?_, fun i => ?_, fun i => ?_, fun i => ?_, fun i => ?_, fun i => ?_, fun i => ?_, fun i => ?_⟩
  · exact isReal_of_olt _ (Host.reduce_andi_all _ _ _ _ _ e0 i)
  · exact isReal_of_olt _ (Host.reduce_andi_all _ _ _ _ _ e4 i)
  · exact isReal_of_olt _ (Host.reduce_andi_all _ _ _ _ _ e5 i)
  · exact isReal_of_olt _ (Host.reduce_andi_all _ _ _ _ _ e6 i)
  · exact isReal_of_olt _ (Host.reduce_andi_all _ _ _ _ _ e7 i)
  · exact isReal_of_olt _ (Host.reduce_andi_all _ _ _ _ _ e8 i)
  · exact isReal_of_olt _ (Host.reduce_andi_all _ _ _ _ _ e9 i)
  · exact nonneg_of_sge _ (Host.reduce_andi_all _ _ _ _ _ e3 i)

end Cert.PreFacts
-- ==== Proof.PreKernel.lean ====
import proofs.«407923_j19954418057675_3_alg».proof.Defs
import proofs.«407923_j19954418057675_3_alg».proof.Proof.PreFacts
import proofs.«407923_j19954418057675_3_alg».proof.Proof.Gen.KernelIdeal
import proofs.«407923_j19954418057675_3_alg».proof.Proof.Gen.Pre_finite_inputs

/-!
# The precondition at the kernel's memory

The kernel's precondition is the precondition bit evaluated at the ten argument arrays of the initial
memory. This file carries the read-back of that bit (every float entry real, every segment id
nonnegative) to those arrays, once as a conjunction and once as eight named facts.
-/

open Idealize.ShloMosaic Idealize.SL.Sem

namespace Cert.PreKernel

variable [hPre : Cert.Pre_finite_inputs.Facts]

/-- The kernel's precondition says the precondition bit is 1 at the ten argument arrays held in the
    initial memory, on every device. Read back at one device: every entry of each float argument is
    real, and every entry of the integer segment-id argument is nonnegative. -/
theorem of_pre_kernel (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S50000x128.Idx, Cert.Lib.IsReal ((m ((c.tc : Thread Cert.KernelIdeal.nD Cert.KernelIdeal.τ).loc Cert.KernelIdeal.main_arg0) : FVec Ideal Cert.Pre_finite_inputs.S50000x128 .f32) i))
      ∧ (∀ i : Cert.Pre_finite_inputs.S128x128.Idx, Cert.Lib.IsReal ((m ((c.tc : Thread Cert.KernelIdeal.nD Cert.KernelIdeal.τ).loc Cert.KernelIdeal.main_arg4) : FVec Ideal Cert.Pre_finite_inputs.S128x128 .f32) i))
      ∧ (∀ i : Cert.Pre_finite_inputs.S128.Idx, Cert.Lib.IsReal ((m ((c.tc : Thread Cert.KernelIdeal.nD Cert.KernelIdeal.τ).loc Cert.KernelIdeal.main_arg5) : FVec Ideal Cert.Pre_finite_inputs.S128 .f32) i))
      ∧ (∀ i : Cert.Pre_finite_inputs.S128x128.Idx, Cert.Lib.IsReal ((m ((c.tc : Thread Cert.KernelIdeal.nD Cert.KernelIdeal.τ).loc Cert.KernelIdeal.main_arg6) : FVec Ideal Cert.Pre_finite_inputs.S128x128 .f32) i))
      ∧ (∀ i : Cert.Pre_finite_inputs.S128.Idx, Cert.Lib.IsReal ((m ((c.tc : Thread Cert.KernelIdeal.nD Cert.KernelIdeal.τ).loc Cert.KernelIdeal.main_arg7) : FVec Ideal Cert.Pre_finite_inputs.S128 .f32) i))
      ∧ (∀ i : Cert.Pre_finite_inputs.S128x1.Idx, Cert.Lib.IsReal ((m ((c.tc : Thread Cert.KernelIdeal.nD Cert.KernelIdeal.τ).loc Cert.KernelIdeal.main_arg8) : FVec Ideal Cert.Pre_finite_inputs.S128x1 .f32) i))
      ∧ (∀ i : Cert.Pre_finite_inputs.S1.Idx, Cert.Lib.IsReal ((m ((c.tc : Thread Cert.KernelIdeal.nD Cert.KernelIdeal.τ).loc Cert.KernelIdeal.main_arg9) : FVec Ideal Cert.Pre_finite_inputs.S1 .f32) i))
      ∧ (∀ i : Cert.Pre_finite_inputs.S50000.Idx, 0 ≤ ((m ((c.tc : Thread Cert.KernelIdeal.nD Cert.KernelIdeal.τ).loc Cert.KernelIdeal.main_arg3) : IVec Cert.Pre_finite_inputs.S50000 32) i).toInt) :=
  Cert.PreFacts.of_pre _ _ _ _ _ _ _ _ _ _ (h c)

/-- Every entry of the node-feature input is real. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S50000x128.Idx, Cert.Lib.IsReal ((m ((c.tc : Thread Cert.KernelIdeal.nD Cert.KernelIdeal.τ).loc Cert.KernelIdeal.main_arg0) : FVec Ideal Cert.Pre_finite_inputs.S50000x128 .f32) i)) :=
  (of_pre_kernel m h c).1

/-- Every entry of the first layer's weight matrix is real. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S128x128.Idx, Cert.Lib.IsReal ((m ((c.tc : Thread Cert.KernelIdeal.nD Cert.KernelIdeal.τ).loc Cert.KernelIdeal.main_arg4) : FVec Ideal Cert.Pre_finite_inputs.S128x128 .f32) i)) :=
  (of_pre_kernel m h c).2.1

/-- Every entry of the first layer's bias is real. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S128.Idx, Cert.Lib.IsReal ((m ((c.tc : Thread Cert.KernelIdeal.nD Cert.KernelIdeal.τ).loc Cert.KernelIdeal.main_arg5) : FVec Ideal Cert.Pre_finite_inputs.S128 .f32) i)) :=
  (of_pre_kernel m h c).2.2.1

/-- Every entry of the second layer's weight matrix is real. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S128x128.Idx, Cert.Lib.IsReal ((m ((c.tc : Thread Cert.KernelIdeal.nD Cert.KernelIdeal.τ).loc Cert.KernelIdeal.main_arg6) : FVec Ideal Cert.Pre_finite_inputs.S128x128 .f32) i)) :=
  (of_pre_kernel m h c).2.2.2.1

/-- Every entry of the second layer's bias is real. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S128.Idx, Cert.Lib.IsReal ((m ((c.tc : Thread Cert.KernelIdeal.nD Cert.KernelIdeal.τ).loc Cert.KernelIdeal.main_arg7) : FVec Ideal Cert.Pre_finite_inputs.S128 .f32) i)) :=
  (of_pre_kernel m h c).2.2.2.2.1

/-- Every entry of the output layer's weight column is real. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S128x1.Idx, Cert.Lib.IsReal ((m ((c.tc : Thread Cert.KernelIdeal.nD Cert.KernelIdeal.τ).loc Cert.KernelIdeal.main_arg8) : FVec Ideal Cert.Pre_finite_inputs.S128x1 .f32) i)) :=
  (of_pre_kernel m h c).2.2.2.2.2.1

/-- The output layer's bias is real. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S1.Idx, Cert.Lib.IsReal ((m ((c.tc : Thread Cert.KernelIdeal.nD Cert.KernelIdeal.τ).loc Cert.KernelIdeal.main_arg9) : FVec Ideal Cert.Pre_finite_inputs.S1 .f32) i)) :=
  (of_pre_kernel m h c).2.2.2.2.2.2.1

/-- Every entry of the integer segment-id input is nonnegative as a signed word. -/
theorem batch_nonneg (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S50000.Idx, 0 ≤ ((m ((c.tc : Thread Cert.KernelIdeal.nD Cert.KernelIdeal.τ).loc Cert.KernelIdeal.main_arg3) : IVec Cert.Pre_finite_inputs.S50000 32) i).toInt) :=
  (of_pre_kernel m h c).2.2.2.2.2.2.2

end Cert.PreKernel
-- ==== Proof.LibLayout.lean ====
import Idealize.ShloMosaic.Lib.ValueIdx
import Idealize.ShloMosaic.Lib.Pipeline.Value
import Idealize.ShloMosaic.Lib.ValueLayout

/-!
# Three layout operations read at an entry

A vector of `n` entries viewed as a column `[n, 1]` or as a row `[1, n]`, and the leading rows of a
matrix. Each keeps the entries and only renames their places, so the result read at one place is the
operand read at one place; here both places are written by their coordinates, over arbitrary extents.

A reshape matches places by row-major position. Place `i` of `[n]` has position `i`; place `(i, 0)`
of `[n, 1]` has position `i · 1 + 0`; place `(0, k)` of `[1, n]` has position `0 · n + k`. A block cut
at the offsets `(0, 0)` reads the operand at the same coordinates, each shifted by zero.
-/

open Idealize.ShloMosaic Idealize.ShloMosaic.ValueIdx

namespace Cert.Lib

/-- A vector `[n]` viewed as a column `[n, 1]` reads, at `(i, u)`, the vector's entry `i`, whatever
    the unit coordinate `u` (it can only be zero): both places have row-major position `i`. -/
theorem reshape_col_unit_apply {α : Type} {n : Nat} (h : (⟨1, ![n]⟩ : Shape).ShapeCasts ⟨2, ![n, 1]⟩)
    (v : (⟨1, ![n]⟩ : Shape).Idx → α) (i : Fin n) (u : Fin 1) :
    shapeCast ⟨2, ![n, 1]⟩ v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- A vector `[n]` viewed as a column `[n, 1]` reads, at `(i, 0)`, the vector's entry `i`. -/
theorem reshape_col_apply {α : Type} {n : Nat} (h : (⟨1, ![n]⟩ : Shape).ShapeCasts ⟨2, ![n, 1]⟩)
    (v : (⟨1, ![n]⟩ : Shape).Idx → α) (i : Fin n) :
    shapeCast ⟨2, ![n, 1]⟩ v h (ix2 i (0 : Fin 1)) = v (ix1 i) :=
  reshape_col_unit_apply h v i 0

/-- A column `[n, 1]` viewed as a vector `[n]` reads, at `i`, the column's entry `(i, 0)`: the same
    matching of places, the other way. -/
theorem reshape_col_drop_apply {α : Type} {n : Nat} (h : (⟨2, ![n, 1]⟩ : Shape).ShapeCasts ⟨1, ![n]⟩)
    (v : (⟨2, ![n, 1]⟩ : Shape).Idx → α) (i : Fin n) :
    shapeCast ⟨1, ![n]⟩ v h (ix1 i) = v (ix2 i (0 : Fin 1)) :=
  shapeCast_apply v h _ _ (by
    rw [Shape.rowMajor_val_two, Shape.rowMajor_val_one]
    show i.val * 1 + 0 = i.val
    rw [Nat.mul_one, Nat.add_zero])

/-- A vector `[n]` viewed as a row `[1, n]` reads, at `(0, k)`, the vector's entry `k`: the library's
    reading of a leading unit axis added to a vector, at unit coordinate zero. -/
theorem reshape_row_apply {α : Type} {n : Nat} (h : (⟨1, ![n]⟩ : Shape).ShapeCasts ⟨2, ![1, n]⟩)
    (v : (⟨1, ![n]⟩ : Shape).Idx → α) (k : Fin n) :
    shapeCast ⟨2, ![1, n]⟩ v h (ix2 (0 : Fin 1) k) = v (ix1 k) :=
  shapeCast_a_1a_apply v h 0 k

/-- The leading `n` rows of an `[n', k]` matrix, cut at the offsets `(0, 0)`, read at `(g, q)` the
    matrix's entry `(g, q)`: the library's reading of a matrix cut along its rows, from row zero. -/
theorem slice_rows_apply {α : Type} {n n' k : Nat} (hle : n ≤ n')
    (h : (⟨2, ![n', k]⟩ : Shape).Slices ![0, 0] ⟨2, ![n, k]⟩)
    (x : (⟨2, ![n', k]⟩ : Shape).Idx → α) (g : Fin n) (q : Fin k) :
    extractStridedSlice ⟨2, ![n, k]⟩ ![0, 0] x h (ix2 g q) = x (ix2 (⟨g.val, by omega⟩ : Fin n') q) :=
  slice2_axis0_apply 0 x h g q ⟨g.val, by omega⟩ (Nat.zero_add _).symm

end Cert.Lib
-- ==== Proof.Bridge.lean ====
import proofs.«407923_j19954418057675_3_alg».proof.Defs
import proofs.«407923_j19954418057675_3_alg».proof.Proof.FoldA
import proofs.«407923_j19954418057675_3_alg».proof.Proof.FoldB
import proofs.«407923_j19954418057675_3_alg».proof.Proof.FoldC
import proofs.«407923_j19954418057675_3_alg».proof.Proof.FoldD
import proofs.«407923_j19954418057675_3_alg».proof.Proof.KernelTail
import proofs.«407923_j19954418057675_3_alg».proof.Proof.KernelCounts
import proofs.«407923_j19954418057675_3_alg».proof.Proof.RefLayers
import proofs.«407923_j19954418057675_3_alg».proof.Proof.RefPool
import proofs.«407923_j19954418057675_3_alg».proof.Proof.PreKernel
import proofs.«407923_j19954418057675_3_alg».proof.Proof.LibLayout

/-!
# The kernel's result is the reference's function of the arguments

The kernel's result buffer ends at the last boundary's contents. Walking back through the boundaries:
it is the shared tail (divide the pooled sums by the graph sizes clamped below at one, multiply by the
head's column, add its bias) of the leading 64 rows of the pooling region's block and of the counted
graph sizes. The pooling block's row `g` is the sum over the nodes `j` whose graph word is `g` of the
kernel's hidden features `relu (agg₂ · dinv + b₂)`, where each aggregate is a segment sum over the edges
of the previous region's rows. On finite inputs the kernel's hidden features are the reference's
(distributivity over real sums), a one-hot product is a sum over the indicated nodes, and for
non-negative graph words the clipped integer count is the reference's count. So the two results are
the same tail of the same pooled sums and counts.
-/

set_option maxRecDepth 16384

noncomputable section

open scoped BigOperators

namespace Cert.KernelIdeal.Bridge

open Idealize.ShloMosaic Idealize.ShloMosaic.TcCoe Idealize.ShloMosaic.ValueIdx Idealize.SL.Sem
open Cert.KernelIdeal Cert.KernelIdeal.Gen Cert.Lib
open Cert.ReferenceIdeal.Read Cert.ReferenceIdeal.RefLayers

variable (m : (ℓ : Loc nD τ sig) → Buf (Elt Ideal) ℓ) (ρ : Dev nD → PrngReg) (c : Dev nD)

/-! ## The arguments at launch, at their literal types -/

abbrev a0 : FVec Ideal S50000x128 .f32 := m ((c : Thread nD τ).loc main_arg0)
abbrev a1 : IVec S1600000 32 := m ((c : Thread nD τ).loc main_arg1)
abbrev a2 : IVec S1600000 32 := m ((c : Thread nD τ).loc main_arg2)
abbrev a3 : IVec S50000 32 := m ((c : Thread nD τ).loc main_arg3)
abbrev a4 : FVec Ideal S128x128 .f32 := m ((c : Thread nD τ).loc main_arg4)
abbrev a5 : FVec Ideal S128 .f32 := m ((c : Thread nD τ).loc main_arg5)
abbrev a6 : FVec Ideal S128x128 .f32 := m ((c : Thread nD τ).loc main_arg6)
abbrev a7 : FVec Ideal S128 .f32 := m ((c : Thread nD τ).loc main_arg7)
abbrev a8 : FVec Ideal S128x1 .f32 := m ((c : Thread nD τ).loc main_arg8)
abbrev a9 : FVec Ideal S1 .f32 := m ((c : Thread nD τ).loc main_arg9)

/-- The edges' source words. -/
abbrev Sw : IVec S1650000 32 := val_main_v1 (F := Ideal) (a1 m c)
/-- The edges' target words. -/
abbrev Dw : IVec S1650000 32 := val_main_v2 (F := Ideal) (a2 m c)
/-- The nodes' inverse square root degrees, as a column. -/
abbrev Dcol : FVec Ideal S50000x1 .f32 :=
  shapeCast S50000x1 (val_main_v12 (F := Ideal) (a2 m c)) Facts₀.shapeCasts_S50000_S50000x1

/-! ## The same data as plain functions of node, edge and feature -/

abbrev hitF (e : Fin 1650000) (j : Fin 50000) : Prop := Cert.Spec.names (dstW (a2 m c) e) j
abbrev xF (i : Fin 50000) (k : Fin 128) : EReal := a0 m c (ix2 i k)
abbrev w1F (k q : Fin 128) : EReal := a4 m c (ix2 k q)
abbrev b1F (k : Fin 128) : EReal := a5 m c (ix1 k)
abbrev w2F (k q : Fin 128) : EReal := a6 m c (ix2 k q)
abbrev b2F (k : Fin 128) : EReal := a7 m c (ix1 k)

/-- The kernel wraps a negative source word as the reference does. -/
theorem wrap_eq (x1 : IVec S1600000 32) :
    Cert.KernelIdeal.HostAgg.wrapSrc (val_main_v1 (F := Ideal) x1) = val_main_v33 (F := Ideal) x1 := rfl

/-- The kernel reads an edge's source at the reference's row. -/
theorem srcRow_eq (e : Fin 1650000) :
    Cert.Spec.rowOf 50000 (by decide) (Cert.KernelIdeal.HostAgg.wrapSrc (Sw m c) (ix1 e)) = srcRow (a1 m c) e := by
  unfold srcRow
  rw [wrap_eq]

/-- The degree column at a node is the reference's inverse square root degree. -/
theorem dcol_apply (i : Fin 50000) : Dcol m c (ix2 i (0 : Fin 1)) = dinv (a2 m c) i :=
  reshape_col_apply _ _ i

/-! ## The three aggregates -/

/-- The first raw aggregate: the segment sum of the first region's rows. -/
abbrev A1 : Fin 50000 → Fin 128 → EReal :=
  Cert.Spec.gatherSeg (hitF m c) (srcRow (a1 m c)) (Cert.Spec.scaledMul (xF m c) (dinv (a2 m c)) (w1F m c))

/-- The second raw aggregate: the segment sum of the second region's rows. -/
abbrev A2 : Fin 50000 → Fin 128 → EReal :=
  Cert.Spec.gatherSeg (hitF m c) (srcRow (a1 m c))
    (Cert.Spec.mulScaled (Cert.Spec.act (A1 m c) (dinv (a2 m c)) (b1F m c)) (w2F m c) (dinv (a2 m c)))

theorem agg1 (j : Fin 50000) (q : Fin 128) :
    (W5 m ρ c (Proc.devRef .tc main_v25) : FVec Ideal S50000x128 .f32) (ix2 j q) = A1 m c j q := by
  rw [Cert.KernelIdeal.FoldB.agg1_apply m ρ c (a0 m c) (Dcol m c) (a4 m c) (Sw m c) (Dw m c)
    (Cert.KernelIdeal.Fold.W3_arg0 m ρ c) (Cert.KernelIdeal.Fold.W3_v13 m ρ c) (Cert.KernelIdeal.Fold.W3_arg4 m ρ c)
    (Cert.KernelIdeal.Fold.W3_v1 m ρ c) (Cert.KernelIdeal.Fold.W3_v2 m ρ c) j q]
  have hs : (fun e => Cert.Spec.rowOf 50000 (by decide) (Cert.KernelIdeal.HostAgg.wrapSrc (Sw m c) (ix1 e))) = srcRow (a1 m c) :=
    funext (srcRow_eq m c)
  have hd : (fun i => Dcol m c (ix2 i (0 : Fin 1))) = dinv (a2 m c) := funext (dcol_apply m c)
  rw [hs, hd]
  rfl

theorem agg2 (j : Fin 50000) (q : Fin 128) :
    (W7 m ρ c (Proc.devRef .tc main_v38) : FVec Ideal S50000x128 .f32) (ix2 j q) = A2 m c j q := by
  rw [Cert.KernelIdeal.FoldC.agg2_apply m ρ c (A1 m c) (Dcol m c) (shapeCast S1x128 (a5 m c) Facts₀.shapeCasts_S128_S1x128) (a6 m c) (Sw m c) (Dw m c)
    (agg1 m ρ c) (Cert.KernelIdeal.FoldB.W5_v13 m ρ c (Dcol m c) (Cert.KernelIdeal.Fold.W3_v13 m ρ c))
    (Cert.KernelIdeal.FoldB.W5_v26 m ρ c (a5 m c) (Cert.KernelIdeal.Fold.W3_arg5 m ρ c))
    ((Cert.KernelIdeal.FoldB.W5_arg6 m ρ c).trans (Cert.KernelIdeal.Fold.W3_arg6 m ρ c))
    (Cert.KernelIdeal.FoldB.W5_v1 m ρ c (Sw m c) (Cert.KernelIdeal.Fold.W3_v1 m ρ c))
    (Cert.KernelIdeal.FoldB.W5_v2 m ρ c (Dw m c) (Cert.KernelIdeal.Fold.W3_v2 m ρ c)) j q]
  have hs : (fun e => Cert.Spec.rowOf 50000 (by decide) (Cert.KernelIdeal.HostAgg.wrapSrc (Sw m c) (ix1 e))) = srcRow (a1 m c) :=
    funext (srcRow_eq m c)
  have hd : (fun i => Dcol m c (ix2 i (0 : Fin 1))) = dinv (a2 m c) := funext (dcol_apply m c)
  have hb : (fun k => shapeCast S1x128 (a5 m c) Facts₀.shapeCasts_S128_S1x128 (ix2 (0 : Fin 1) k)) = b1F m c :=
    funext fun k => reshape_row_apply _ _ k
  rw [hs, hd, hb]
  rfl

/-! ## The hidden features -/

/-- The kernel's hidden features after the second layer: the activation of the second aggregate. -/
abbrev H2 : Fin 50000 → Fin 128 → EReal := Cert.Spec.act (A2 m c) (dinv (a2 m c)) (b2F m c)

/-- They are the two-layer pipeline of the kernel over the plain data. -/
theorem H2_eq_kerH2 :
    H2 m c = Cert.Spec.kerH2 (hitF m c) (srcRow (a1 m c)) (dinv (a2 m c)) (xF m c) (w1F m c) (b1F m c) (w2F m c) (b2F m c) := rfl

variable [hPre : Cert.Pre_finite_inputs.Facts]

/-- On finite inputs they are the reference's hidden features. -/
theorem H2_eq_ref (hpre : Cert.Pre_KernelIdeal m) (j : Fin 50000) (q : Fin 128) :
    H2 m c j q = val_main_v63 (F := Ideal) (a0 m c) (a1 m c) (a2 m c) (a4 m c) (a5 m c) (a6 m c) (a7 m c) (ix2 j q) := by
  rw [h2_apply, H2_eq_kerH2]
  have h := Cert.Spec.kerH2_eq_refH2 (hitF m c) (srcRow (a1 m c)) (dstRow (a2 m c))
    (fun e j he => dstRow_of_names (a2 m c) e j he) (dinv (a2 m c)) (xF m c) (w1F m c) (b1F m c) (w2F m c) (b2F m c)
    (dinv_isReal (a2 m c))
    (fun i k => Cert.PreKernel.real_arg0 m hpre c (ix2 i k))
    (fun k q => Cert.PreKernel.real_arg4 m hpre c (ix2 k q))
    (fun k => Cert.PreKernel.real_arg5 m hpre c (ix1 k))
    (fun k q => Cert.PreKernel.real_arg6 m hpre c (ix2 k q))
    (fun k => Cert.PreKernel.real_arg7 m hpre c (ix1 k))
  exact congrFun (congrFun h j) q

/-! ## The pooled sums and the counts -/

/-- The pooling region's block at `(g, q)`, for a graph number below 64: the reference's pooled entry. -/
theorem pooled_eq (hpre : Cert.Pre_KernelIdeal m) (g : Fin 64) (q : Fin 128) :
    extractStridedSlice S64x128 ![0, 0] (W8 m ρ c (Proc.devRef .tc main_v41) : FVec Ideal S128x128 .f32) Facts₀.slices_S128x128_S64x128_0_0 (ix2 g q)
      = Cert.ReferenceIdeal.RefPool.pooled (a0 m c) (a1 m c) (a2 m c) (a3 m c) (a4 m c) (a5 m c) (a6 m c) (a7 m c) (ix2 g q) := by
  rw [slice_rows_apply (by decide), Cert.ReferenceIdeal.RefPool.pooled_entry]
  rw [Cert.KernelIdeal.FoldD.pool_apply m ρ c (A2 m c) (Dcol m c) (shapeCast S1x128 (a7 m c) Facts₀.shapeCasts_S128_S1x128)
    (shapeCast S50000x1 (a3 m c) Facts₀.shapeCasts_S50000_S50000x1) (agg2 m ρ c)
    (Cert.KernelIdeal.FoldC.W7_v13 m ρ c (Dcol m c) (Cert.KernelIdeal.FoldB.W5_v13 m ρ c (Dcol m c) (Cert.KernelIdeal.Fold.W3_v13 m ρ c)))
    (Cert.KernelIdeal.FoldC.W7_v40 m ρ c (a7 m c) ((Cert.KernelIdeal.FoldB.W5_arg7 m ρ c).trans (Cert.KernelIdeal.Fold.W3_arg7 m ρ c)))
    (Cert.KernelIdeal.FoldC.W7_v39 m ρ c (a3 m c) ((Cert.KernelIdeal.FoldB.W5_arg3 m ρ c).trans (Cert.KernelIdeal.Fold.W3_arg3 m ρ c)))]
  have hd : (fun i => Dcol m c (ix2 i (0 : Fin 1))) = dinv (a2 m c) := funext (dcol_apply m c)
  have hb : (fun k => shapeCast S1x128 (a7 m c) Facts₀.shapeCasts_S128_S1x128 (ix2 (0 : Fin 1) k)) = b2F m c :=
    funext fun k => reshape_row_apply _ _ k
  have hc : ∀ j : Fin 50000, shapeCast S50000x1 (a3 m c) Facts₀.shapeCasts_S50000_S50000x1 (ix2 j (0 : Fin 1)) = a3 m c (ix1 j) :=
    fun j => reshape_col_apply _ _ j
  rw [hd, hb]
  simp only [hc]
  rw [Cert.Spec.onehot_pool (fun j => a3 m c (ix1 j)) (fun j => H2 m c j q) g]
  refine Finset.sum_congr (M := EReal) rfl fun j _ => ?_
  rw [H2_eq_ref m c hpre j q]

/-- The kernel's counted graph sizes are the reference's. -/
theorem counts_eq (hpre : Cert.Pre_KernelIdeal m) (g : Fin 64) :
    Cert.KernelIdeal.KernelTail.kcounts (F := Ideal) (a3 m c) (ix1 g) = Cert.ReferenceIdeal.RefPool.counts (a3 m c) (ix1 g) := by
  rw [Cert.ReferenceIdeal.RefPool.counts_entry]
  exact Cert.KernelIdeal.KernelCounts.counts_apply (a3 m c) (fun j => Cert.PreKernel.batch_nonneg m hpre c (ix1 j)) g

/-! ## The result -/

/-- THE KERNEL'S RESULT is the reference's function of the launch arguments. -/
theorem kernel_value (hpre : Cert.Pre_KernelIdeal m) :
    W11 m ρ c (Proc.devRef .tc main_v63)
      = val_main_v80 (F := Ideal) (a0 m c) (a1 m c) (a2 m c) (a3 m c) (a4 m c) (a5 m c) (a6 m c) (a7 m c) (a8 m c) (a9 m c) := by
  rw [Cert.ReferenceIdeal.RefPool.out_eq_tail]
  refine (Cert.KernelIdeal.KernelTail.out_eq_tail (F := Ideal) (W8 m ρ c)).trans ?_
  have h3 : W8 m ρ c (Proc.devRef .tc main_arg3) = a3 m c :=
    (Cert.KernelIdeal.FoldD.W8_arg3 m ρ c).trans ((Cert.KernelIdeal.FoldC.W7_arg3 m ρ c).trans
      ((Cert.KernelIdeal.FoldB.W5_arg3 m ρ c).trans (Cert.KernelIdeal.Fold.W3_arg3 m ρ c)))
  have h8 : W8 m ρ c (Proc.devRef .tc main_arg8) = a8 m c :=
    (Cert.KernelIdeal.FoldD.W8_arg8 m ρ c).trans ((Cert.KernelIdeal.FoldC.W7_arg8 m ρ c).trans
      ((Cert.KernelIdeal.FoldB.W5_arg8 m ρ c).trans (Cert.KernelIdeal.Fold.W3_arg8 m ρ c)))
  have h9 : W8 m ρ c (Proc.devRef .tc main_arg9) = a9 m c :=
    (Cert.KernelIdeal.FoldD.W8_arg9 m ρ c).trans ((Cert.KernelIdeal.FoldC.W7_arg9 m ρ c).trans
      ((Cert.KernelIdeal.FoldB.W5_arg9 m ρ c).trans (Cert.KernelIdeal.Fold.W3_arg9 m ρ c)))
  rw [h3, h8, h9]
  have hP : extractStridedSlice S64x128 ![0, 0] (W8 m ρ c (Proc.devRef .tc main_v41) : FVec Ideal S128x128 .f32) Facts₀.slices_S128x128_S64x128_0_0
      = Cert.ReferenceIdeal.RefPool.pooled (a0 m c) (a1 m c) (a2 m c) (a3 m c) (a4 m c) (a5 m c) (a6 m c) (a7 m c) := by
    funext idx
    rw [eq_ix2 idx]
    exact pooled_eq m ρ c hpre _ _
  have hC : Cert.KernelIdeal.KernelTail.kcounts (F := Ideal) (a3 m c) = Cert.ReferenceIdeal.RefPool.counts (a3 m c) := by
    funext idx
    rw [eq_ix1 idx]
    exact counts_eq m c hpre _
  rw [hP, hC]

end Cert.KernelIdeal.Bridge

end
-- ==== Proof.lean ====
/-
  A two-layer graph convolution with global mean pooling, computed by three Pallas regions among host
  gathers and segment sums, against its plain jnp reference, over the extended reals.

  Both programs append one self loop per node to the edge list, count each node's degree `deg` by a
  segment sum of ones over the edges' target words, and set `dinv = 1 / sqrt (max deg 1)` (zero for a node
  without edges). One layer of the reference is `relu (∑ over the edges e into node j of
  ((h · W) (src e)) · (dinv (src e) · dinv (dst e)) + b)`. The kernel moves the two factors of the edge
  weight out of the sum: region 0 scales the rows by `dinv` before the product with `W₁`, region 1 forms
  `relu (agg₁ · dinv + b₁)`, multiplies by `W₂` and scales the rows by `dinv` afterwards, region 2 forms
  `relu (agg₂ · dinv + b₂)` and pools it by a one-hot product accumulated over the blocks of rows; the
  aggregates `agg₁`, `agg₂` are segment sums on the host of the gathered rows. All data being real
  (finite inputs; `dinv` is a real because a degree is a count), the sums distribute and the two
  programs have the same hidden features; a one-hot product is the sum over the indicated rows; and
  where every graph word is non-negative the kernel's clipped integer count of each graph's nodes is
  the reference's count. Both programs then apply the same tail to the same pooled sums and counts.

  The precondition asks, besides finite float inputs, that every entry of `batch` be non-negative: a
  negative graph word is out of range for the reference's segment sum (it drops the node), while the
  kernel's `bincount` clips it into graph 0, so graph 0's mean is taken over a different count.
-/
import proofs.«407923_j19954418057675_3_alg».proof.Defs
import proofs.«407923_j19954418057675_3_alg».proof.Proof.Gen.Kernel
import proofs.«407923_j19954418057675_3_alg».proof.Proof.Gen.Kernel.Frame
import proofs.«407923_j19954418057675_3_alg».proof.Proof.Gen.KernelIdeal
import proofs.«407923_j19954418057675_3_alg».proof.Proof.Gen.KernelIdeal.Frame
import proofs.«407923_j19954418057675_3_alg».proof.Proof.Gen.ReferenceIdeal
import proofs.«407923_j19954418057675_3_alg».proof.Proof.Gen.Pre_finite_inputs
import proofs.«407923_j19954418057675_3_alg».proof.Proof.KernelRun
import proofs.«407923_j19954418057675_3_alg».proof.Proof.RefRead
import proofs.«407923_j19954418057675_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories that agree on the arguments the idealized kernel and the idealized reference end with
    the same result: the reference's function of the arguments, which the kernel's result buffer holds by
    `Bridge.kernel_value`. -/
theorem algebraic : Cert.algebraic_KernelIdeal_ReferenceIdeal := by
  intro m ρ m' ρ' hpre hagree
  refine ⟨fun c => Cert.ReferenceIdeal.Read.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run (Cert.KernelIdeal.defs (F := Ideal)) _ _).mono
      (fun r h c => ⟨(h c).1.trans (Cert.KernelIdeal.Bridge.kernel_value m ρ c hpre), (h c).2⟩)
      (Cert.KernelIdeal.Gen.Out.run_out (F := Ideal) m ρ)
  · refine (θ_run (Cert.ReferenceIdeal.defs (F := Ideal)) _ _).mono (fun r h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v80_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
